-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048x2048 : Shape := ⟨3, ![4, 2048, 2048]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x2048x1024 .f32) (main_arg1 : FVec F S4x2048x2048 .f32) (main_arg2 : FVec F S1024x3072 .f32) (main_arg3 : FVec F S3072 .f32) (main_arg4 : FVec F S1024x1024 .f32) (main_arg5 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x2048 .f32 := Host.absf main_arg1
  let main_cst_0 : FVec F S_ .f32 := constant S_ .f32 0x7F800000#32
  let main_v5 : FVec F S4x2048x2048 .f32 := broadcastInDim S4x2048x2048 ![] bcast_S_S4x2048x2048 main_cst_0
  let main_v6 : IVec S4x2048x2048 1 := cmpf .olt main_v4 main_v5
  let main_c_1 : IVec S_ 1 := constantI S_ 1 1#1
  let main_v7 : IVec S_ 1 := (fun x v => Host.reduce IntOp.andi x v reducesTo_S4x2048x2048_S_d0_1_2 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_v13 main_v16
-- ==== Kernel.lean ====
abbrev S4x2048x1024 : Shape := ⟨3, ![4, 2048, 1024]⟩
abbrev S4x2048x2048 : Shape := ⟨3, ![4, 2048, 2048]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S8192x1024 : Shape := ⟨2, ![8192, 1024]⟩
abbrev S1x3072 : Shape := ⟨2, ![1, 3072]⟩
abbrev S512x1024 : Shape := ⟨2, ![512, 1024]⟩
abbrev S1x1024 : Shape := ⟨2, ![1, 1024]⟩
abbrev S1x1024x1024 : Shape := ⟨3, ![1, 1024, 1024]⟩
abbrev S1x512x1024 : Shape := ⟨3, ![1, 512, 1024]⟩
abbrev S1x1024x512 : Shape := ⟨3, ![1, 1024, 512]⟩
abbrev S1024x1 : Shape := ⟨2, ![1024, 1]⟩
abbrev S1024x512 : Shape := ⟨2, ![1024, 512]⟩

abbrev nBuf : Space → Nat
  | .hbm => 18
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2048, .f32⟩
  | .hbm, ⟨2, _⟩ => ⟨S1024x3072, .f32⟩
  | .hbm, ⟨3, _⟩ => ⟨S3072, .f32⟩
  | .hbm, ⟨4, _⟩ => ⟨S1024x1024, .f32⟩
  | .hbm, ⟨5, _⟩ => ⟨S1024, .f32⟩
  | .hbm, ⟨6, _⟩ => ⟨S8192x1024, .f32⟩
  | .hbm, ⟨7, _⟩ => ⟨S1024x3072, .bf16⟩
  | .hbm, ⟨8, _⟩ => ⟨S1x3072, .f32⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S4x2048x1024, .bf16⟩
  | .hbm, ⟨13, _⟩ => ⟨S4x2048x1024, .bf16⟩
  | .hbm, ⟨14, _⟩ => ⟨S4x2048x1024, .bf16⟩
  | .hbm, ⟨15, _⟩ => ⟨S1024x1024, .bf16⟩
  | .hbm, ⟨16, _⟩ => ⟨S1x1024, .f32⟩
  | .hbm, ⟨17, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x1024x512, .f32⟩
  | .local _ .vmem, ⟨17, _⟩ => ⟨S1x1024x512, .f32⟩
  | .local _ .vmem, ⟨18, _⟩ => ⟨S1024x1024, .bf16⟩
  | .local _ .vmem, ⟨19, _⟩ => ⟨S1x1024, .f32⟩
  | .local _ .vmem, ⟨20, _⟩ => ⟨S1x1024x1024, .f32⟩
  | .local _ .vmem, ⟨21, _⟩ => ⟨S1x1024x1024, .f32⟩
  | .local _ .vmem, ⟨22, _⟩ => ⟨S1024x1, .f32⟩
  | .local _ .vmem, ⟨23, _⟩ => ⟨S1024x1, .f32⟩
  | .local _ .vmem, ⟨24, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![4, 2, 4], ![false, false, false]⟩

def k1_cond2 (i : grid1.Coords) : BitVec 1 :=
  let arg2 : BitVec 32 := BitVec.ofNat 32 (i 2).val
  let c3_i32 : BitVec 32 := 3#32
  let v45 : BitVec 1 := Scalar.cmpi .eq arg2 c3_i32
  let v46 : BitVec 32 := Scalar.extui v45
  let c0_i32_30 : BitVec 32 := 0#32
  let v47 : BitVec 1 := Scalar.cmpi .ne v46 c0_i32_30
  v47

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  shapeCasts_S4x2048x1024_S8192x1024 : S4x2048x1024.ShapeCasts S8192x1024
  bitsLt_bf16_f32 : FTy.bits .bf16 < FTy.bits .f32
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x1024_0_0 : ∀ a, (![0, 0] : Fin 2 → Nat) a + S1024x1024.size a ≤ S1024x3072.size a
  h_S1024x1024 : 0 < S1024x1024.numel
  shapeCasts_S1024x1024_S1024x1024 : S1024x1024.ShapeCasts S1024x1024
  inb_S1x3072_S1x1024_0_0 : ∀ a, (![0, 0] : Fin 2 → Nat) a + S1x1024.size a ≤ S1x3072.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  inb_S1024x3072_S1024x1024_0_1024 : ∀ a, (![0, 1024] : Fin 2 → Nat) a + S1024x1024.size a ≤ S1024x3072.size a
  inb_S1x3072_S1x1024_0_1024 : ∀ a, (![0, 1024] : Fin 2 → Nat) a + S1x1024.size a ≤ S1x3072.size a
  inb_S1024x3072_S1024x1024_0_2048 : ∀ a, (![0, 2048] : Fin 2 → Nat) a + S1024x1024.size a ≤ S1024x3072.size a
  inb_S1x3072_S1x1024_0_2048 : ∀ a, (![0, 2048] : Fin 2 → Nat) a + S1x1024.size a ≤ S1x3072.size a
  shapeCasts_S8192x1024_S4x2048x1024 : S8192x1024.ShapeCasts S4x2048x1024
  shapeCasts_S1024_S1x1024 : S1024.ShapeCasts S1x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  inb_S1x1024_S1x1024_0_0 : ∀ a, (![0, 0] : Fin 2 → Nat) a + S1x1024.size a ≤ S1x1024.size a
  broadcasts_S1x1024_S1024x1024 : S1x1024.Broadcasts S1024x1024
  shapeCasts_S1024x1024_S1x1024x1024 : S1024x1024.ShapeCasts S1x1024x1024
  dot_S512x1024_S1024x1024_S512x1024_1_0_0_1_n_n_wf : DotDims.WF S512x1024 S1024x1024 S512x1024 [1] [0] [0] [1] [] []
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .bf16 = 32 ∨ (Rect.block (s := S4x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x2048x1024.size a
  hwx1_1 : ∀ i : grid1.Coords, EltTy.bits .bf16 = 32 ∨ (Rect.block (s := S4x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x2048x1024.size a
  hwx1_2 : ∀ i : grid1.Coords, EltTy.bits .bf16 = 32 ∨ (Rect.block (s := S4x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x512.size a ≤ S4x2048x2048.size a
  hwx1_3 : ∀ i : grid1.Coords, EltTy.bits .f32 = 32 ∨ (Rect.block (s := S4x2048x2048) S1x1024x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024x1024.size a ≤ S4x2048x1024.size a
  hwx1_6 : ∀ i : grid1.Coords, EltTy.bits .f32 = 32 ∨ (Rect.block (s := S4x2048x1024) S1x1024x1024.size (cc1_transform_6 i) (hinb1_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1x1024x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1x1024x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S4x2048x2048 : Shape := ⟨3, ![4, 2048, 2048]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S4x2048x3072 : Shape := ⟨3, ![4, 2048, 3072]⟩
abbrev S1x1x3072 : Shape := ⟨3, ![1, 1, 3072]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2048, .f32⟩
  | .hbm, ⟨2, _⟩ => ⟨S1024x3072, .f32⟩
  | .hbm, ⟨3, _⟩ => ⟨S3072, .f32⟩
  | .hbm, ⟨4, _⟩ => ⟨S1024x1024, .f32⟩
  | .hbm, ⟨5, _⟩ => ⟨S1024, .f32⟩
  | .hbm, ⟨6, _⟩ => ⟨S4x2048x3072, .f32⟩
  | .hbm, ⟨7, _⟩ => ⟨S1x1x3072, .f32⟩
  | .hbm, ⟨8, _⟩ => ⟨S4x2048x3072, .f32⟩
  | .hbm, ⟨9, _⟩ => ⟨S4x2048x3072, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S_, .f32⟩
  | .hbm, ⟨14, _⟩ => ⟨S_, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S_, .f32⟩
  | .hbm, ⟨20, _⟩ => ⟨S4x2048, .f32⟩
  | .hbm, ⟨21, _⟩ => ⟨S_, .f32⟩
  | .hbm, ⟨22, _⟩ => ⟨S4x2048, .f32⟩
  | .hbm, ⟨23, _⟩ => ⟨S4x2048, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S4x2048x2048, .f32⟩
  | .hbm, ⟨32, _⟩ => ⟨S4x2048x2048, .f32⟩
  | .hbm, ⟨33, _⟩ => ⟨S4x2048x1024, .f32⟩
  | .hbm, ⟨34, _⟩ => ⟨S4x2048x1024, .f32⟩
  | .hbm, ⟨35, _⟩ => ⟨S1x1x1024, .f32⟩
  | .hbm, ⟨36, _⟩ => ⟨S4x2048x1024, .f32⟩
  | .hbm, ⟨37, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S1024x3072_S4x2048x3072_2_0_01_1_n_n_wf : DotDims.WF S4x2048x1024 S1024x3072 S4x2048x3072 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]
  dot_S4x2048x1024_S1024x1024_S4x2048x1024_2_0_01_1_n_n_wf : DotDims.WF S4x2048x1024 S1024x1024 S4x2048x1024 [2] [0] [0, 1] [1] [] []

variable [Facts₀]

def dot_S4x2048x1024_S1024x3072_S4x2048x3072_2_0_01_1_n_n : DotDims S4x2048x1024 S1024x3072 S4x2048x3072 where
  lhsContracting := [2]
  rhsContracting := [0]
  lhsNonContracting := [0, 1]
  rhsNonContracting := [1]
  lhsBatch := []
  rhsBatch := []
  wf := dot_S4x2048x1024_S1024x3072_S4x2048x3072_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf
def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf

class Facts : Prop extends Facts₀ where

variable [Facts]
-- ==== Proof.K.R0.lean ====
/- The body obligation of the first pallas_call of `Kernel` (pipeline 0, `cc0__qkv_kernel`, a grid of 16 points),
   at a PARAMETER `V`: the TensorCore's buffer contents when the region is entered.

   The call has six windows. Window 0 is a 512x1024 row block of the activations (f32), a new block at every point;
   windows 1 and 2 are the whole 1024x3072 weight (bf16) and the whole 1x3072 bias (f32), the same block at every
   point; windows 3, 4, 5 are the 512x1024 row blocks of the three results (bf16), written back at every point. At a
   point the body computes, for j = 0, 1, 2,
       result j  =  bf16( bf16(x) · W[:, 1024 j .. 1024 j + 1023]  +  b[:, 1024 j .. 1024 j + 1023] )
   and stores it over the whole staging buffer of window 3 + j: the three column thirds of x · W + b.
   So what the body leaves in an output buffer is a closed function of the three input blocks at the point
   (`out0_3`, `out0_4`, `out0_5`), and an input buffer holds its window's block wherever the body is
   called, fetched there or not. -/
import proofs.«419060_j65541200937045_3_alg».proof.Proof.Gen.Kernel.Launch
import proofs.«419060_j65541200937045_3_alg».proof.Proof.Gen.Kernel.Skeleton
import proofs.«419060_j65541200937045_3_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds row block `t` of the activations at point `t`, for ANY proof data over
    the entry contents (`hA`) whose body leaves that block in place (`hafter`): the window is fetched at every
    point, its blocks tile the array, and it is never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight at every point. The pipeline fetches it at the first point only;
    at a later point the block index has not moved (the index map is constant), and a body that leaves the buffer as
    found hands the next point the same contents. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias's staging buffer holds the whole bias at every point, for the same reason. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 512x1024 block: the load of the activations, and each result's store. -/
abbrev rX : Rect S512x1024 := Rect.unit (s := S512x1024) ![0, 0] S512x1024.size inb_S512x1024_S512x1024_0_0
/-- Columns 0..1023, 1024..2047, 2048..3071 of the weight: the three projections' matrices. -/
abbrev rW0 : Rect S1024x3072 := Rect.unit (s := S1024x3072) ![0, 0] S1024x1024.size inb_S1024x3072_S1024x1024_0_0
abbrev rW1 : Rect S1024x3072 := Rect.unit (s := S1024x3072) ![0, 1024] S1024x1024.size inb_S1024x3072_S1024x1024_0_1024
abbrev rW2 : Rect S1024x3072 := Rect.unit (s := S1024x3072) ![0, 2048] S1024x1024.size inb_S1024x3072_S1024x1024_0_2048
/-- The same thirds of the bias row. -/
abbrev rB0 : Rect S1x3072 := Rect.unit (s := S1x3072) ![0, 0] S1x1024.size inb_S1x3072_S1x1024_0_0
abbrev rB1 : Rect S1x3072 := Rect.unit (s := S1x3072) ![0, 1024] S1x1024.size inb_S1x3072_S1x1024_0_1024
abbrev rB2 : Rect S1x3072 := Rect.unit (s := S1x3072) ![0, 2048] S1x1024.size inb_S1x3072_S1x1024_0_2048

/-! ## What the body leaves in each output window's buffer -/

/-- The first result's buffer after the body: bf16(bf16(x) · W[:, 0..1023] + b[:, 0..1023]) over the whole block,
    as the one store the body makes there. -/
def out0_3 (x0 : Vec F S512x1024 .f32) (x1 : Vec F S1024x3072 .bf16) (x2 : Vec F S1x3072 .f32) : Vec F S512x1024 .bf16 :=
  View.canon [⟨rX, k0_pay2 (View.ld x0 rX) (View.ld x1 rW0) (View.ld x2 rB0)⟩]

/-- The second result's: the same of the weight's and the bias's columns 1024..2047. -/
def out0_4 (x0 : Vec F S512x1024 .f32) (x1 : Vec F S1024x3072 .bf16) (x2 : Vec F S1x3072 .f32) : Vec F S512x1024 .bf16 :=
  View.canon [⟨rX, k0_pay3 (View.ld x0 rX) (View.ld x1 rW1) (View.ld x2 rB1)⟩]

/-- The third result's: the same of columns 2048..3071. -/
def out0_5 (x0 : Vec F S512x1024 .f32) (x1 : Vec F S1024x3072 .bf16) (x2 : Vec F S1x3072 .f32) : Vec F S512x1024 .bf16 :=
  View.canon [⟨rX, k0_pay4 (View.ld x0 rX) (View.ld x1 rW2) (View.ld x2 rB2)⟩]

/-- One store through the whole-block rectangle covers the buffer: the block is one tile of its own size. -/
theorem cover0_X (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-! ## The body's triple -/

set_option maxHeartbeats 1000000 in
/-- The kernel body on whole staging memrefs — the inputs' at read contents `x0`, `x1`, `x2`, the outputs' at
    anything — runs to the continuation holding the inputs' as they were and each output's at its `out0_W` of the
    inputs'. The body reads each output buffer once before it stores over all of it; what it read there is used
    nowhere. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole) (arg3 : Memref sig .tc .vmem S1x3072 .f32) (harg3 : arg3.IsWhole)
    (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_X _)
  isplitl [H4]
  · iexists _; isplitr
    swap; · iexact H4
    ipureintro
    exact View.read_writes_eq_canon _ _ _ (cover0_X _)
  iexists _; isplitr
  swap; · iexact H5
  ipureintro
  exact View.read_writes_eq_canon _ _ _ (cover0_X _)

/-! ## The pipeline's proof data -/

/-- The proof data of pipeline 0 on core `c`: the arrays as the region finds them (`V`); after the body at point
    `t` each input's buffer still at its block and each result's at its third of bf16(bf16(x) · W + b) of the
    input blocks. The invariant is the core's scoped buffers that are no staging buffer of this call, at some contents
    each, and the core's random-number register at some state: the body touches neither. Nothing is owed; every share
    is the full one. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's debts, and each window's current staging
    buffer at what the pipeline hands over, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the same, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the three inputs' memrefs hold their blocks (`before0_W`), the results' hold anything,
    so the body's triple applies; the invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Runs.lean ====
/- Region 1 (the attention-and-projection kernel on the grid (4, 2, 4), 32 points): what its three whole-body runs share.
   The innermost grid coordinate kv walks the four key/value tiles of one (batch, query-tile) pair. Three scratch
   buffers are carried from one kv step to the next — the running row maximum, the running row sum of exponentials and
   the unnormalised accumulator of the online softmax —, reset at kv = 0 and turned into the output block at kv = 3.
   Here: the windows' blocks read off the arrays as the region finds them, the two branch conditions in closed form
   over the linear point index, where the output window is idle, and the names of the staging and scratch memrefs. -/
import proofs.«419060_j65541200937045_3_alg».proof.Proof.Gen.Kernel.Launch
import proofs.«419060_j65541200937045_3_alg».proof.Proof.Gen.Kernel.Points
import proofs.«419060_j65541200937045_3_alg».proof.Proof.Gen.Kernel.Skeleton
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block of the point, whether the pipeline fetched it at this
    point or the block index did not move since the fetch, for any proof data over the entry contents whose body leaves
    the block where it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block of the point, whether the pipeline fetched it at this
    point or the block index did not move since the fetch, for any proof data over the entry contents whose body leaves
    the block where it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block of the point, whether the pipeline fetched it at this
    point or the block index did not move since the fetch, for any proof data over the entry contents whose body leaves
    the block where it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block of the point, whether the pipeline fetched it at this
    point or the block index did not move since the fetch, for any proof data over the entry contents whose body leaves
    the block where it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds the window's block of the point, whether the pipeline fetched it at this
    point or the block index did not move since the fetch, for any proof data over the entry contents whose body leaves
    the block where it found it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds the window's block of the point, whether the pipeline fetched it at this
    point or the block index did not move since the fetch, for any proof data over the entry contents whose body leaves
    the block where it found it. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions -/

/-- The first conditional's condition (kv = 0: reset the carried state), from the grid coordinates. -/
abbrev cond1_0 (i : grid1.Coords) : Prop := (Scalar.cmpi .ne (Scalar.extui (Scalar.cmpi .eq (BitVec.ofNat 32 (i 2).val) 0#32)) 0#32) = 1#1
/-- The innermost coordinate is the linear index mod 4, so the reset happens at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition (kv = 3: normalise, project and store the output block). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where output window 6 is idle -/

/-- At a reset point (kv = 0) nothing is stored into the output's buffer, -/
theorem idleAt1_6_A : ∀ t : Fin cfg1.N, cond1_0 (grid1.coords t) → ¬cond1_1 (grid1.coords t) → cfg1.idle 6 (grid1.coords t) = true := by decide +kernel
/-- and the pipeline does not write the block back there. -/
theorem noFlush1_6_A : ∀ t : Fin cfg1.N, cond1_0 (grid1.coords t) → ¬cond1_1 (grid1.coords t) → (cfg1.win 6).flush t = false := by decide +kernel
/-- The same at the middle points (kv = 1, 2): -/
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
/-- At the last kv step the output block is stored: the window is live. -/
theorem liveAt1_6_C : ∀ t : Fin cfg1.N, ¬cond1_0 (grid1.coords t) → cond1_1 (grid1.coords t) → cfg1.idle 6 (grid1.coords t) = false := by decide +kernel

/-! ## The memrefs the body is called with -/

/-- One staging buffer of output window 6, through whose view its contents are stated (either buffer gives the same reading). -/
abbrev VO1_6 : View sig .tc .vmem S1x1024x1024 .f32 := (Memref.whole cc1_stg6_0 : Memref sig .tc .vmem S1x1024x1024 .f32).view
/-- Each window's current staging memref at point `t`, as the pipeline passes it to the body, and its wholeness. -/
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024x1024 .f32 := win1_6.stage (cfg1.slots t 6)
abbrev hs1_6 (t : Fin cfg1.N) : (ms1_6 t).IsWhole := hstage1_6 ((cfg1.slots t 6).cast nbuf1_6)
/-- The three scratch operands (running maximum, running sum, accumulator): whole scoped buffers, and their views. -/
abbrev scM1_0 : Memref sig .tc .vmem S1024x1 .f32 := Memref.whole cc1_scratch0
abbrev VS1_0 : View sig .tc .vmem S1024x1 .f32 := scM1_0.view
abbrev scM1_1 : Memref sig .tc .vmem S1024x1 .f32 := Memref.whole cc1_scratch1
abbrev VS1_1 : View sig .tc .vmem S1024x1 .f32 := scM1_1.view
abbrev scM1_2 : Memref sig .tc .vmem S1024x1024 .f32 := Memref.whole cc1_scratch2
abbrev VS1_2 : View sig .tc .vmem S1024x1024 .f32 := scM1_2.view

/-! ## The region invariant taken apart -/

/-- The other pallas_call's staging buffers, each whole at some contents: scoped buffers of the core that this
    region never touches and hands back as it got them. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The class invariant is: the other call's staging buffers, the three scratch buffers at some contents, and the
    generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The same with the untouched part kept as one resource. -/
theorem PhiA1_in (c : Dev nD) :
    (Pipeline.ΦA spec1 c : sProp 𝕄) ⊢ iprop(rest1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  rw [PhiA1_eq]; unfold rest1
  iintro ⟨⟨A0, A1, A2, A3, A4, A5, A6, A7, A8, A9, S0, S1, S2⟩, Hg⟩
  isplitl [A0 A1 A2 A3 A4 A5 A6 A7 A8 A9]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  isplitl [S0]; · iexact S0
  isplitl [S1]; · iexact S1
  isplitl [S2]; · iexact S2
  iexact Hg

theorem PhiA1_out (c : Dev nD) :
    iprop(rest1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) ⊢ (Pipeline.ΦA spec1 c : sProp 𝕄) := by
  rw [PhiA1_eq]; unfold rest1
  iintro ⟨⟨A0, A1, A2, A3, A4, A5, A6, A7, A8, A9⟩, S0, S1, S2, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [S0]; · iexact S0
    isplitl [S1]; · iexact S1
    iexact S2
  iexact Hg

end Cert.Kernel.Hand

end
-- ==== Proof.K.R1RunA.lean ====
/- Region 1, the body's whole run at a RESET point (kv = 0): the first conditional is taken, the second is not.
   The body overwrites the three scratch buffers with the neutral state (a very negative maximum, zero sum, zero
   accumulator), then folds this point's key/value tile into them. Whatever the scratch held before is never used,
   and the output's staging buffer is not touched. -/
import proofs.«419060_j65541200937045_3_alg».proof.Proof.K.R1Runs

set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- At a reset point, on whole memrefs — the six inputs at their contents, the output's buffer at any contents `xi6`
    (handed back as found), the scratch buffers at anything — the body runs to a continuation that holds the inputs
    and the output's buffer as they were and each scratch buffer with the run's stores written into it: first the
    reset value, then the folded one, as pieces (last store first). The pieces are the witness the run finds. -/
noncomputable def kernelRun1_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) :
    Σ' (L6 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi6 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_proj_kernel i arg3 harg3 arg4 harg4 arg5 harg5 arg6 harg6 arg7 harg7 arg8 harg8 arg9 harg9 arg10 harg10 arg11 harg11 arg12 harg12) K } := by
  refine ⟨[], ?_, ?_, ?_, fun xi6 E K => ?run⟩
  case run =>
    simp only [cc1__attn_proj_kernel_eq_skeleton]; unfold cc1__attn_proj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

end Cert.Kernel.Hand

end
-- ==== Proof.K.R1RunB.lean ====
/- Region 1, the body's whole run at a MIDDLE point (kv = 1 or 2): neither conditional is taken. The body reads the
   carried state the point before left in the three scratch buffers, folds this point's key/value tile into it
   (new maximum, rescaled sum, rescaled accumulator plus the tile's contribution) and stores it back. The output's
   staging buffer is not touched. -/
import proofs.«419060_j65541200937045_3_alg».proof.Proof.K.R1RunA

set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- At a middle point, on whole memrefs — the six inputs at their contents, the output's buffer at any contents `xi6`
    (handed back as found), the scratch buffers at the carried state `xs0`, `xs1`, `xs2` — the body runs to a
    continuation that holds the inputs and the output's buffer as they were and each scratch buffer with the updated
    state written into it, as pieces. The pieces are the witness the run finds. -/
noncomputable def kernelRun1_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) :
    Σ' (L6 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi6 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_proj_kernel i arg3 harg3 arg4 harg4 arg5 harg5 arg6 harg6 arg7 harg7 arg8 harg8 arg9 harg9 arg10 harg10 arg11 harg11 arg12 harg12) K } := by
  refine ⟨[], ?_, ?_, ?_, fun xi6 E K => ?run⟩
  case run =>
    simp only [cc1__attn_proj_kernel_eq_skeleton]; unfold cc1__attn_proj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

end Cert.Kernel.Hand

end
-- ==== Proof.K.R1RunC.lean ====
/- Region 1, the body's whole run at a LAST point (kv = 3): the first conditional is not taken, the second is. The
   body folds the last key/value tile into the carried state as at a middle point, stores it back, and then reads the
   finished accumulator and row sum again: accumulator divided by the sum, times the projection matrix, plus the
   bias, is stored as the output block. -/
import proofs.«419060_j65541200937045_3_alg».proof.Proof.K.R1RunB

set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- At a last point, on whole memrefs — the six inputs at their contents, the output's buffer at anything, the scratch
    buffers at the carried state `xs0`, `xs1`, `xs2` — the body runs to a continuation that holds the inputs as they
    were, the output's buffer with the output block written into it and each scratch buffer with the final state
    written into it, as pieces. The pieces are the witness the run finds. -/
noncomputable def kernelRun1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) :
    Σ' (L6 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_proj_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__attn_proj_kernel_eq_skeleton]; unfold cc1__attn_proj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexists _; iexact HS0
    isplitl [HS1]; · iexists _; iexact HS1
    iexists _; iexact HS2

end Cert.Kernel.Hand

end
-- ==== Proof.K.R1.lean ====
/- Region 1, the body obligation. From the three whole-body runs: what each case leaves in the output's staging buffer
   and in the three carried scratch buffers (the runs' pieces read back, and why they cover), the carried state point
   by point by recursion on the linear index, the region invariant that owns the scratch buffers at the previous
   point's state, the proof data, and the obligation at a generic point by cases on the index mod 4. The launch is
   not here: the module stops at the two entailments between the class invariant and this one. -/
import proofs.«419060_j65541200937045_3_alg».proof.Proof.K.R1RunC

set_option maxRecDepth 16384

noncomputable section

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The inputs are never idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl

/-! ## What each case leaves, and why its stores cover -/

/-- At a reset point (kv = 0) nothing is stored into output 6's buffer: no pieces. The reading below is a placeholder nothing
    consults, since at these points the window is neither written back nor read by the next point. -/
def out1_A_6 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) : Vec F S1x1024x1024 .f32 :=
  VO1_6.read (Elt F) (VO1_6.writes (Elt F) VO1_6.junk (kernelRun1_A c i arg3 harg3 arg4 harg4 arg5 harg5 arg6 harg6 arg7 harg7 arg8 harg8 arg9 harg9 arg10 harg10 arg11 harg11 arg12 harg12 hc0 hc1 x0 x1 x2 x3 x4 x5).1)

/-- The stores a reset point (kv = 0) makes into scratch 0 (the running maximum) are of the whole buffer: the pieces cover it. -/
theorem scover1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (y : S1024x1.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5).2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4 x5).2.1 S1024x1.size (by sl_kernel_rfl) y

/-- What a reset point (kv = 0) leaves in scratch 0 (the running maximum): its pieces read back. -/
def sout1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) : Vec F S1024x1 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 arg12 harg12 hc0 hc1 x0 x1 x2 x3 x4 x5).2.1)

/-- The stores a reset point (kv = 0) makes into scratch 1 (the running sum) are of the whole buffer: the pieces cover it. -/
theorem scover1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (y : S1024x1.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5).2.2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4 x5).2.2.1 S1024x1.size (by sl_kernel_rfl) y

/-- What a reset point (kv = 0) leaves in scratch 1 (the running sum): its pieces read back. -/
def sout1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) : Vec F S1024x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 arg12 harg12 hc0 hc1 x0 x1 x2 x3 x4 x5).2.2.1)

/-- The stores a reset point (kv = 0) makes into scratch 2 (the accumulator) are of the whole buffer: the pieces cover it. -/
theorem scover1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (y : S1024x1024.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5).2.2.2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4 x5).2.2.2.1 S1024x1024.size (by sl_kernel_rfl) y

/-- What a reset point (kv = 0) leaves in scratch 2 (the accumulator): its pieces read back. -/
def sout1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) : Vec F S1024x1024 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 arg12 harg12 hc0 hc1 x0 x1 x2 x3 x4 x5).2.2.2.1)

/-- At a middle point (kv = 1, 2) nothing is stored into output 6's buffer: no pieces. The reading below is a placeholder nothing
    consults, since at these points the window is neither written back nor read by the next point. -/
def out1_B_6 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) : Vec F S1x1024x1024 .f32 :=
  VO1_6.read (Elt F) (VO1_6.writes (Elt F) VO1_6.junk (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).1)

/-- The stores a middle point (kv = 1, 2) makes into scratch 0 (the running maximum) are of the whole buffer: the pieces cover it. -/
theorem scover1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.1 S1024x1.size (by sl_kernel_rfl) y

/-- What a middle point (kv = 1, 2) leaves in scratch 0 (the running maximum): its pieces read back. -/
def sout1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.1)

/-- The stores a middle point (kv = 1, 2) makes into scratch 1 (the running sum) are of the whole buffer: the pieces cover it. -/
theorem scover1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1 S1024x1.size (by sl_kernel_rfl) y

/-- What a middle point (kv = 1, 2) leaves in scratch 1 (the running sum): its pieces read back. -/
def sout1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1)

/-- The stores a middle point (kv = 1, 2) makes into scratch 2 (the accumulator) are of the whole buffer: the pieces cover it. -/
theorem scover1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) (y : S1024x1024.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1 S1024x1024.size (by sl_kernel_rfl) y

/-- What a middle point (kv = 1, 2) leaves in scratch 2 (the accumulator): its pieces read back. -/
def sout1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1)

/-- At a last point (kv = 3) the one store into output 6's buffer is of the whole block: its piece covers the buffer. -/
theorem cover1_C_6 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) (y : S1x1024x1024.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).1 S1x1024x1024.size (by sl_kernel_rfl) y

/-- What a last point (kv = 3) leaves in output 6's staging buffer: its piece read back. -/
def out1_C_6 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) : Vec F S1x1024x1024 .f32 :=
  VO1_6.read (Elt F) (VO1_6.writes (Elt F) VO1_6.junk (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).1)

/-- The stores a last point (kv = 3) makes into scratch 0 (the running maximum) are of the whole buffer: the pieces cover it. -/
theorem scover1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.1 S1024x1.size (by sl_kernel_rfl) y

/-- What a last point (kv = 3) leaves in scratch 0 (the running maximum): its pieces read back. -/
def sout1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.1)

/-- The stores a last point (kv = 3) makes into scratch 1 (the running sum) are of the whole buffer: the pieces cover it. -/
theorem scover1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1 S1024x1.size (by sl_kernel_rfl) y

/-- What a last point (kv = 3) leaves in scratch 1 (the running sum): its pieces read back. -/
def sout1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1)

/-- The stores a last point (kv = 3) makes into scratch 2 (the accumulator) are of the whole buffer: the pieces cover it. -/
theorem scover1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) (y : S1024x1024.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1 S1024x1024.size (by sl_kernel_rfl) y

/-- What a last point (kv = 3) leaves in scratch 2 (the accumulator): its pieces read back. -/
def sout1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1)

/-! ## What the output's buffer and the carried scratch hold after each point -/

/-- THE CARRIED STATE, point by point: output 6's staging buffer, then the running maximum, the running sum and the
    accumulator, after the body at position `n`. The closed forms choose the case: a reset point starts from nothing,
    a middle or last point from what the point before left in the three scratch buffers. No point is both ≡ 0 and
    ≡ 3 (mod 4). -/
def outsAt1 (c : Dev nD) : (n : ℕ) → n < cfg1.N → Vec F S1x1024x1024 .f32 × Vec F S1024x1 .f32 × Vec F S1024x1 .f32 × Vec F S1024x1024 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 4 = 0 then
      if h1 : (n + 1) % 4 = 3 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 4 = 3 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2)

/-- The carried state at a reset point: that case's contents, from nothing. -/
theorem outsAt1_A (c : Dev nD) (t : Fin cfg1.N) (h0 : t.val % 4 = 0) (h1 : ¬t.val % 4 = 3) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- The carried state at a middle point: that case's contents, over what the point before left. -/
theorem outsAt1_B (c : Dev nD) (t : Fin cfg1.N) (h0 : ¬t.val % 4 = 0) (h1 : ¬t.val % 4 = 3) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- The carried state at a last point: that case's contents, over what the point before left. -/
theorem outsAt1_C (c : Dev nD) (t : Fin cfg1.N) (h0 : ¬t.val % 4 = 0) (h1 : t.val % 4 = 3) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- The invariant before position `n`: before the first point the class invariant (every scratch buffer at anything);
    afterwards the other call's staging buffers untouched, the three scratch buffers at what the point before left in
    them, and the generator register at some state. -/
def PhiS1 (c : Dev nD) : (n : ℕ) → n ≤ cfg1.N → sProp 𝕄
  | 0, _ => Pipeline.ΦA spec1 c
  | n + 1, hn => iprop(rest1 (F := F) c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch buffers at that point's contents. -/
theorem PhiS1_succ (c : Dev nD) (n : ℕ) (hn : n < cfg1.N) :
    PhiS1 V c (n + 1) hn = iprop(rest1 (F := F) c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ (∃ r, prngReg c r)) := rfl

/-- Before a point that is not the first: the scratch buffers at what the point before left. -/
theorem PhiS1_pos (c : Dev nD) (n : ℕ) (h : n ≤ cfg1.N) (hz : n ≠ 0) :
    PhiS1 V c n h = iprop(rest1 (F := F) c ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2 ∗ (∃ r, prngReg c r)) := by
  cases n with
  | zero => exact absurd rfl hz
  | succ n => rfl

/-! ## The pipeline's proof data -/

/-- The proof data of region 1 on core `c`: the arrays as the region finds them; after the body at point `t` each
    input's buffer still at its block and the output's at the carried state's first component; the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point. The inputs' buffers hold their blocks; the closed forms say which of the three cases the
    point is in. At a reset point the scratch buffers are handed over at anything (as the class invariant has them at the first
    point, the previous tile's final state, forgotten, later on); at a middle or last point at the state the point
    before left. The run applies, and the scratch buffers come back at this point's state because the run's stores
    cover them; the output's buffer comes back untouched where the window is idle and with the covering store's
    contents at a last point. The other call's staging buffers, the generator register and the core's dues ride along. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩, ⟨%d4, H4⟩, ⟨%d5, H5⟩, ⟨%d6, H6⟩⟩
        ihave HΦ' := (PhiA1_in (F := F) c) $$ HΦ
        icases HΦ' with ⟨HR, HS0, HS1, HS2, Hg⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS1_castSucc V c t, PhiS1_pos V c _ _ hz]
        iintro ⟨HΦ, Ho, ⟨%d0, H0⟩, ⟨%d1, H1⟩, ⟨%d2, H2⟩, ⟨%d3, H3⟩, ⟨%d4, H4⟩, ⟨%d5, H5⟩, ⟨%d6, H6⟩⟩
        icases HΦ with ⟨HR, HS0, HS1, HS2, Hg⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        iintro ⟨H0, H1, H2, H3, H4, H5, H6, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_6 sout1_C_0 sout1_C_1 sout1_C_2; (try dsimp only)
      by_cases hz : t.val = 0
      · exfalso; omega
      · rw [PhiS1_castSucc V c t, PhiS1_pos V c _ _ hz]
        iintro ⟨HΦ, Ho, ⟨%d0, H0⟩, ⟨%d1, H1⟩, ⟨%d2, H2⟩, ⟨%d3, H3⟩, ⟨%d4, H4⟩, ⟨%d5, H5⟩, ⟨%d6, H6⟩⟩
        icases HΦ with ⟨HR, HS0, HS1, HS2, Hg⟩
        iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        iintro ⟨H0, H1, H2, H3, H4, H5, ⟨%e6, H6⟩, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨HΦ, Ho, ⟨%d0, H0⟩, ⟨%d1, H1⟩, ⟨%d2, H2⟩, ⟨%d3, H3⟩, ⟨%d4, H4⟩, ⟨%d5, H5⟩, ⟨%d6, H6⟩⟩
        icases HΦ with ⟨HR, HS0, HS1, HS2, Hg⟩
        iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- With the scratch buffers at any named contents the invariant gives the class invariant back: the names are forgotten. -/
theorem PhiS1_forget (c : Dev nD) (a0 : Vec F S1024x1 .f32) (a1 : Vec F S1024x1 .f32) (a2 : Vec F S1024x1024 .f32) :
    (iprop(rest1 (F := F) c ∗ owns (c : Thread nD τ) scM1_0 fullShare a0 ∗ owns (c : Thread nD τ) scM1_1 fullShare a1 ∗ owns (c : Thread nD τ) scM1_2 fullShare a2 ∗ (∃ r, prngReg c r)) : sProp 𝕄) ⊢ Pipeline.ΦA spec1 c := by
  have h : (iprop(rest1 (F := F) c ∗ owns (c : Thread nD τ) scM1_0 fullShare a0 ∗ owns (c : Thread nD τ) scM1_1 fullShare a1 ∗ owns (c : Thread nD τ) scM1_2 fullShare a2 ∗ (∃ r, prngReg c r)) : sProp 𝕄)
      ⊢ iprop(rest1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
    iintro ⟨HR, HS0, HS1, HS2, Hg⟩
    isplitl [HR]; · iexact HR
    isplitl [HS0]; · iexists _; iexact HS0
    isplitl [HS1]; · iexists _; iexact HS1
    isplitl [HS2]; · iexists _; iexact HS2
    iexact Hg
  exact h.trans (PhiA1_out (F := F) c)

/-- After any point but the first the invariant gives the class invariant back. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  exact PhiS1_forget c _ _ _

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Hand

end
-- ==== Proof.K.Run.lean ====
/-
  The whole program as four segments — the host lines before the first kernel, the projection kernel, the host lines
  between, the attention kernel — run from the launch memory to the return: every weakly fair execution terminates,
  and at the end every buffer the program's lines name holds what the fold of the segments computes: the host lines'
  operations applied in order, each kernel's output arrays at what its grid points wrote back, every other buffer
  as it was.
-/
import proofs.«419060_j65541200937045_3_alg».proof.Proof.K.R0
import proofs.«419060_j65541200937045_3_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two segments -/

/-- At launch. -/
abbrev W0 : Dev nD → Valuation τ sig (Elt F) := fun c b => (s₀ m ρ).mem ((c : Dev nD), b)
/-- After the host lines before the projection kernel: x flattened to rows, the fused weight in the narrow format,
    the bias as a row. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection kernel: its three outputs at what its sixteen points wrote back. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host lines between the kernels: queries, keys and values as [4, 2048, 1024], the output weight in the
    narrow format, the output bias as a row. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention kernel: its output at what its grid points wrote back. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The proof data of the two kernels and what rides beside the buffers -/

abbrev adm : (p : Fin 2) → (pcfgs (F := F) p).Adm := fun p => (cfgs p).toPCfg_adm
/-- Each kernel's proof data at the contents it is entered from. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two kernels as segments -/

set_option backward.isDefEq.respectTransparency.types false in
/-- The projection kernel between the contents W1 and W2: its arrays split out of the buffers and put back at
    what the pipeline leaves; the generator register through the kernel's invariant; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel between the contents W3 and W4. Its invariant carries the three running quantities from
    one grid point to the next; it is entered from, and gives back, the scoped buffers at anything. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V3 m ρ) c
    unfold Pipeline.ΦA at h
    iintro ⟨Hp, -, Hr⟩
    iapply (show iprop(Pipeline.scopedRest spec1 c ∗ ∃ r, prngReg c r) ⊢ (pdats m ρ 1 c).Φ 0 from h)
    isplitl [Hr]; · iexact Hr
    iexact Hp
  hout c := by
    have h := hout1 (V3 m ρ) c
    unfold Pipeline.ΦA at h
    have h' : (pdats m ρ 1 c).Φ (Fin.last _) ⊢ iprop(Pipeline.scopedRest spec1 c ∗ ∃ r, prngReg c r) := h
    rw [Pipeline.ownSems0_none]
    iintro HΦ
    ihave H := h' $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory m with zero counters terminates, and the final memory
    holds every buffer the program's lines name at the last boundary's contents W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Hand

end
-- ==== Proof.K.Named.lean ====
/-
  What the final memory holds at the buffers the claims speak of: each argument array as launched — no host line
  writes one and no kernel changes one (the bias is an input window of the attention kernel, left as found) — and
  the result at what the attention kernel's grid points wrote back.
-/
import proofs.«419060_j65541200937045_3_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines before the projection kernel write only their own three results. -/
theorem W1_keep (c : Dev nD) (b : Ref sig .tc) (h0 : b ≠ main_v0) (h1 : b ≠ main_v1) (h2 : b ≠ main_v2) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne h0, StableHlo.devRef_ne_of_ne h1, StableHlo.devRef_ne_of_ne h2⟩))

/-- The host lines between the kernels write only their own five results. -/
theorem W3_keep (c : Dev nD) (b : Ref sig .tc) (h4 : b ≠ main_v4) (h5 : b ≠ main_v5) (h6 : b ≠ main_v6) (h7 : b ≠ main_v7) (h8 : b ≠ main_v8) :
    W3 m ρ c (Proc.devRef .tc b) = W2 m ρ c (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne h4, StableHlo.devRef_ne_of_ne h5, StableHlo.devRef_ne_of_ne h6, StableHlo.devRef_ne_of_ne h7, StableHlo.devRef_ne_of_ne h8⟩))

/-- A buffer that is no array of either kernel and no result of a host line ends as launched. -/
theorem W4_keep (c : Dev nD) (b : Ref sig .tc) (hA1 : ∀ w, Pipeline.arrRef spec1 w ≠ b) (hA0 : ∀ w, Pipeline.arrRef spec0 w ≠ b)
    (h0 : b ≠ main_v0) (h1 : b ≠ main_v1) (h2 : b ≠ main_v2)
    (h4 : b ≠ main_v4) (h5 : b ≠ main_v5) (h6 : b ≠ main_v6) (h7 : b ≠ main_v7) (h8 : b ≠ main_v8) :
    W4 m ρ c (Proc.devRef .tc b) = m ((c : Thread nD τ).loc b) :=
  calc W4 m ρ c (Proc.devRef .tc b)
    _ = W3 m ρ c (Proc.devRef .tc b) := W4_of_ne m ρ c b hA1
    _ = W2 m ρ c (Proc.devRef .tc b) := W3_keep m ρ c b h4 h5 h6 h7 h8
    _ = W1 m ρ c (Proc.devRef .tc b) := W2_of_ne m ρ c b hA0
    _ = W0 m ρ c (Proc.devRef .tc b) := W1_keep m ρ c b h0 h1 h2
    _ = m ((c : Thread nD τ).loc b) := rfl

theorem W4_main_arg0 (c : Dev nD) : W4 m ρ c (Proc.devRef .tc main_arg0) = m ((c : Thread nD τ).loc main_arg0) :=
  W4_keep m ρ c main_arg0 (by decide) (by decide) (by decide) (by decide) (by decide) (by decide) (by decide) (by decide) (by decide) (by decide)
theorem W4_main_arg2 (c : Dev nD) : W4 m ρ c (Proc.devRef .tc main_arg2) = m ((c : Thread nD τ).loc main_arg2) :=
  W4_keep m ρ c main_arg2 (by decide) (by decide) (by decide) (by decide) (by decide) (by decide) (by decide) (by decide) (by decide) (by decide)
theorem W4_main_arg3 (c : Dev nD) : W4 m ρ c (Proc.devRef .tc main_arg3) = m ((c : Thread nD τ).loc main_arg3) :=
  W4_keep m ρ c main_arg3 (by decide) (by decide) (by decide) (by decide) (by decide) (by decide) (by decide) (by decide) (by decide) (by decide)
theorem W4_main_arg4 (c : Dev nD) : W4 m ρ c (Proc.devRef .tc main_arg4) = m ((c : Thread nD τ).loc main_arg4) :=
  W4_keep m ρ c main_arg4 (by decide) (by decide) (by decide) (by decide) (by decide) (by decide) (by decide) (by decide) (by decide) (by decide)
theorem W4_main_arg5 (c : Dev nD) : W4 m ρ c (Proc.devRef .tc main_arg5) = m ((c : Thread nD τ).loc main_arg5) :=
  W4_keep m ρ c main_arg5 (by decide) (by decide) (by decide) (by decide) (by decide) (by decide) (by decide) (by decide) (by decide) (by decide)

/-- The bias is the attention kernel's fourth input window: an input array ends as the kernel found it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 3).trans (((dat1 (V3 m ρ) c).arrAt_in 3 rfl _).trans (A_eq1 (V3 m ρ) c 3))
    _ = W2 m ρ c (Proc.devRef .tc main_arg1) := W3_keep m ρ c main_arg1 (by decide) (by decide) (by decide) (by decide) (by decide)
    _ = W1 m ρ c (Proc.devRef .tc main_arg1) := W2_of_ne m ρ c main_arg1 (by decide)
    _ = W0 m ρ c (Proc.devRef .tc main_arg1) := W1_keep m ρ c main_arg1 (by decide) (by decide) (by decide)
    _ = m ((c : Thread nD τ).loc main_arg1) := rfl

/-- The result buffer is the attention kernel's output array. -/
theorem W4_main_v9 (c : Dev nD) : W4 m ρ c (Proc.devRef .tc main_v9) = (dat1 (V3 m ρ) c).arrAt 6 cfg1.N :=
  W4_arr m ρ c 6

/-- The run, read at the result and the six arguments. -/
theorem run_named : θ_run defs (onTc (τ := τ) (main (F := F))) ⟨m, fun _ => 0, ρ⟩ (fun r => ∀ c : Dev nD,
      r.2.mem ((c.tc : Thread nD τ).loc main_v9) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v9 (by decide))).trans (W4_main_v9 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

/-- The frame: the program runs to the end and its six arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_named m ρ)

end Cert.Kernel.Hand

end
-- ==== Proof.KI.R0.lean ====
/- The body obligation of the first pallas_call of `KernelIdeal` (pipeline 0, `cc0__qkv_kernel`, a grid of 16 points),
   at a PARAMETER `V`: the TensorCore's buffer contents when the region is entered.

   The call has six windows. Window 0 is a 512x1024 row block of the activations (f32), a new block at every point;
   windows 1 and 2 are the whole 1024x3072 weight (bf16) and the whole 1x3072 bias (f32), the same block at every
   point; windows 3, 4, 5 are the 512x1024 row blocks of the three results (bf16), written back at every point. At a
   point the body computes, for j = 0, 1, 2,
       result j  =  bf16( bf16(x) · W[:, 1024 j .. 1024 j + 1023]  +  b[:, 1024 j .. 1024 j + 1023] )
   and stores it over the whole staging buffer of window 3 + j: the three column thirds of x · W + b.
   So what the body leaves in an output buffer is a closed function of the three input blocks at the point
   (`out0_3`, `out0_4`, `out0_5`), and an input buffer holds its window's block wherever the body is
   called, fetched there or not. -/
import proofs.«419060_j65541200937045_3_alg».proof.Proof.Gen.KernelIdeal.Launch
import proofs.«419060_j65541200937045_3_alg».proof.Proof.Gen.KernelIdeal.Skeleton
import proofs.«419060_j65541200937045_3_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds row block `t` of the activations at point `t`, for ANY proof data over
    the entry contents (`hA`) whose body leaves that block in place (`hafter`): the window is fetched at every
    point, its blocks tile the array, and it is never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight at every point. The pipeline fetches it at the first point only;
    at a later point the block index has not moved (the index map is constant), and a body that leaves the buffer as
    found hands the next point the same contents. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias's staging buffer holds the whole bias at every point, for the same reason. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 512x1024 block: the load of the activations, and each result's store. -/
abbrev rX : Rect S512x1024 := Rect.unit (s := S512x1024) ![0, 0] S512x1024.size inb_S512x1024_S512x1024_0_0
/-- Columns 0..1023, 1024..2047, 2048..3071 of the weight: the three projections' matrices. -/
abbrev rW0 : Rect S1024x3072 := Rect.unit (s := S1024x3072) ![0, 0] S1024x1024.size inb_S1024x3072_S1024x1024_0_0
abbrev rW1 : Rect S1024x3072 := Rect.unit (s := S1024x3072) ![0, 1024] S1024x1024.size inb_S1024x3072_S1024x1024_0_1024
abbrev rW2 : Rect S1024x3072 := Rect.unit (s := S1024x3072) ![0, 2048] S1024x1024.size inb_S1024x3072_S1024x1024_0_2048
/-- The same thirds of the bias row. -/
abbrev rB0 : Rect S1x3072 := Rect.unit (s := S1x3072) ![0, 0] S1x1024.size inb_S1x3072_S1x1024_0_0
abbrev rB1 : Rect S1x3072 := Rect.unit (s := S1x3072) ![0, 1024] S1x1024.size inb_S1x3072_S1x1024_0_1024
abbrev rB2 : Rect S1x3072 := Rect.unit (s := S1x3072) ![0, 2048] S1x1024.size inb_S1x3072_S1x1024_0_2048

/-! ## What the body leaves in each output window's buffer -/

/-- The first result's buffer after the body: bf16(bf16(x) · W[:, 0..1023] + b[:, 0..1023]) over the whole block,
    as the one store the body makes there. -/
def out0_3 (x0 : Vec F S512x1024 .f32) (x1 : Vec F S1024x3072 .bf16) (x2 : Vec F S1x3072 .f32) : Vec F S512x1024 .bf16 :=
  View.canon [⟨rX, k0_pay2 (View.ld x0 rX) (View.ld x1 rW0) (View.ld x2 rB0)⟩]

/-- The second result's: the same of the weight's and the bias's columns 1024..2047. -/
def out0_4 (x0 : Vec F S512x1024 .f32) (x1 : Vec F S1024x3072 .bf16) (x2 : Vec F S1x3072 .f32) : Vec F S512x1024 .bf16 :=
  View.canon [⟨rX, k0_pay3 (View.ld x0 rX) (View.ld x1 rW1) (View.ld x2 rB1)⟩]

/-- The third result's: the same of columns 2048..3071. -/
def out0_5 (x0 : Vec F S512x1024 .f32) (x1 : Vec F S1024x3072 .bf16) (x2 : Vec F S1x3072 .f32) : Vec F S512x1024 .bf16 :=
  View.canon [⟨rX, k0_pay4 (View.ld x0 rX) (View.ld x1 rW2) (View.ld x2 rB2)⟩]

/-- One store through the whole-block rectangle covers the buffer: the block is one tile of its own size. -/
theorem cover0_X (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-! ## The body's triple -/

set_option maxHeartbeats 1000000 in
/-- The kernel body on whole staging memrefs — the inputs' at read contents `x0`, `x1`, `x2`, the outputs' at
    anything — runs to the continuation holding the inputs' as they were and each output's at its `out0_W` of the
    inputs'. The body reads each output buffer once before it stores over all of it; what it read there is used
    nowhere. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole) (arg3 : Memref sig .tc .vmem S1x3072 .f32) (harg3 : arg3.IsWhole)
    (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_X _)
  isplitl [H4]
  · iexists _; isplitr
    swap; · iexact H4
    ipureintro
    exact View.read_writes_eq_canon _ _ _ (cover0_X _)
  iexists _; isplitr
  swap; · iexact H5
  ipureintro
  exact View.read_writes_eq_canon _ _ _ (cover0_X _)

/-! ## The pipeline's proof data -/

/-- The proof data of pipeline 0 on core `c`: the arrays as the region finds them (`V`); after the body at point
    `t` each input's buffer still at its block and each result's at its third of bf16(bf16(x) · W + b) of the
    input blocks. The invariant is the core's scoped buffers that are no staging buffer of this call, at some contents
    each, and the core's random-number register at some state: the body touches neither. Nothing is owed; every share
    is the full one. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's debts, and each window's current staging
    buffer at what the pipeline hands over, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the same, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the three inputs' memrefs hold their blocks (`before0_W`), the results' hold anything,
    so the body's triple applies; the invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Runs.lean ====
/- Region 1 (the attention-and-projection kernel on the grid (4, 2, 4), 32 points): what its three whole-body runs share.
   The innermost grid coordinate kv walks the four key/value tiles of one (batch, query-tile) pair. Three scratch
   buffers are carried from one kv step to the next — the running row maximum, the running row sum of exponentials and
   the unnormalised accumulator of the online softmax —, reset at kv = 0 and turned into the output block at kv = 3.
   Here: the windows' blocks read off the arrays as the region finds them, the two branch conditions in closed form
   over the linear point index, where the output window is idle, and the names of the staging and scratch memrefs. -/
import proofs.«419060_j65541200937045_3_alg».proof.Proof.Gen.KernelIdeal.Launch
import proofs.«419060_j65541200937045_3_alg».proof.Proof.Gen.KernelIdeal.Points
import proofs.«419060_j65541200937045_3_alg».proof.Proof.Gen.KernelIdeal.Skeleton
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block of the point, whether the pipeline fetched it at this
    point or the block index did not move since the fetch, for any proof data over the entry contents whose body leaves
    the block where it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block of the point, whether the pipeline fetched it at this
    point or the block index did not move since the fetch, for any proof data over the entry contents whose body leaves
    the block where it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block of the point, whether the pipeline fetched it at this
    point or the block index did not move since the fetch, for any proof data over the entry contents whose body leaves
    the block where it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block of the point, whether the pipeline fetched it at this
    point or the block index did not move since the fetch, for any proof data over the entry contents whose body leaves
    the block where it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds the window's block of the point, whether the pipeline fetched it at this
    point or the block index did not move since the fetch, for any proof data over the entry contents whose body leaves
    the block where it found it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds the window's block of the point, whether the pipeline fetched it at this
    point or the block index did not move since the fetch, for any proof data over the entry contents whose body leaves
    the block where it found it. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions -/

/-- The first conditional's condition (kv = 0: reset the carried state), from the grid coordinates. -/
abbrev cond1_0 (i : grid1.Coords) : Prop := (Scalar.cmpi .ne (Scalar.extui (Scalar.cmpi .eq (BitVec.ofNat 32 (i 2).val) 0#32)) 0#32) = 1#1
/-- The innermost coordinate is the linear index mod 4, so the reset happens at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition (kv = 3: normalise, project and store the output block). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where output window 6 is idle -/

/-- At a reset point (kv = 0) nothing is stored into the output's buffer, -/
theorem idleAt1_6_A : ∀ t : Fin cfg1.N, cond1_0 (grid1.coords t) → ¬cond1_1 (grid1.coords t) → cfg1.idle 6 (grid1.coords t) = true := by decide +kernel
/-- and the pipeline does not write the block back there. -/
theorem noFlush1_6_A : ∀ t : Fin cfg1.N, cond1_0 (grid1.coords t) → ¬cond1_1 (grid1.coords t) → (cfg1.win 6).flush t = false := by decide +kernel
/-- The same at the middle points (kv = 1, 2): -/
theorem idleAt1_6_B : ∀ t : Fin cfg1.N, ¬cond1_0 (grid1.coords t) → ¬cond1_1 (grid1.coords t) → cfg1.idle 6 (grid1.coords t) = true := by decide +kernel
theorem noFlush1_6_B : ∀ t : Fin cfg1.N, ¬cond1_0 (grid1.coords t) → ¬cond1_1 (grid1.coords t) → (cfg1.win 6).flush t = false := by decide +kernel
/-- At the last kv step the output block is stored: the window is live. -/
theorem liveAt1_6_C : ∀ t : Fin cfg1.N, ¬cond1_0 (grid1.coords t) → cond1_1 (grid1.coords t) → cfg1.idle 6 (grid1.coords t) = false := by decide +kernel

/-! ## The memrefs the body is called with -/

/-- One staging buffer of output window 6, through whose view its contents are stated (either buffer gives the same reading). -/
abbrev VO1_6 : View sig .tc .vmem S1x1024x1024 .f32 := (Memref.whole cc1_stg6_0 : Memref sig .tc .vmem S1x1024x1024 .f32).view
/-- Each window's current staging memref at point `t`, as the pipeline passes it to the body, and its wholeness. -/
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024x1024 .f32 := win1_6.stage (cfg1.slots t 6)
abbrev hs1_6 (t : Fin cfg1.N) : (ms1_6 t).IsWhole := hstage1_6 ((cfg1.slots t 6).cast nbuf1_6)
/-- The three scratch operands (running maximum, running sum, accumulator): whole scoped buffers, and their views. -/
abbrev scM1_0 : Memref sig .tc .vmem S1024x1 .f32 := Memref.whole cc1_scratch0
abbrev VS1_0 : View sig .tc .vmem S1024x1 .f32 := scM1_0.view
abbrev scM1_1 : Memref sig .tc .vmem S1024x1 .f32 := Memref.whole cc1_scratch1
abbrev VS1_1 : View sig .tc .vmem S1024x1 .f32 := scM1_1.view
abbrev scM1_2 : Memref sig .tc .vmem S1024x1024 .f32 := Memref.whole cc1_scratch2
abbrev VS1_2 : View sig .tc .vmem S1024x1024 .f32 := scM1_2.view

/-! ## The region invariant taken apart -/

/-- The other pallas_call's staging buffers, each whole at some contents: scoped buffers of the core that this
    region never touches and hands back as it got them. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The class invariant is: the other call's staging buffers, the three scratch buffers at some contents, and the
    generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The same with the untouched part kept as one resource. -/
theorem PhiA1_in (c : Dev nD) :
    (Pipeline.ΦA spec1 c : sProp 𝕄) ⊢ iprop(rest1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  rw [PhiA1_eq]; unfold rest1
  iintro ⟨⟨A0, A1, A2, A3, A4, A5, A6, A7, A8, A9, S0, S1, S2⟩, Hg⟩
  isplitl [A0 A1 A2 A3 A4 A5 A6 A7 A8 A9]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  isplitl [S0]; · iexact S0
  isplitl [S1]; · iexact S1
  isplitl [S2]; · iexact S2
  iexact Hg

theorem PhiA1_out (c : Dev nD) :
    iprop(rest1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) ⊢ (Pipeline.ΦA spec1 c : sProp 𝕄) := by
  rw [PhiA1_eq]; unfold rest1
  iintro ⟨⟨A0, A1, A2, A3, A4, A5, A6, A7, A8, A9⟩, S0, S1, S2, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [S0]; · iexact S0
    isplitl [S1]; · iexact S1
    iexact S2
  iexact Hg

end Cert.KernelIdeal.Hand

end
-- ==== Proof.KI.R1RunA.lean ====
/- Region 1, the body's whole run at a RESET point (kv = 0): the first conditional is taken, the second is not.
   The body overwrites the three scratch buffers with the neutral state (a very negative maximum, zero sum, zero
   accumulator), then folds this point's key/value tile into them. Whatever the scratch held before is never used,
   and the output's staging buffer is not touched. -/
import proofs.«419060_j65541200937045_3_alg».proof.Proof.KI.R1Runs

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- At a reset point, on whole memrefs — the six inputs at their contents, the output's buffer at any contents `xi6`
    (handed back as found), the scratch buffers at anything — the body runs to a continuation that holds the inputs
    and the output's buffer as they were and each scratch buffer with the run's stores written into it: first the
    reset value, then the folded one, as pieces (last store first). The pieces are the witness the run finds. -/
noncomputable def kernelRun1_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) :
    Σ' (L6 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi6 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_proj_kernel i arg3 harg3 arg4 harg4 arg5 harg5 arg6 harg6 arg7 harg7 arg8 harg8 arg9 harg9 arg10 harg10 arg11 harg11 arg12 harg12) K } := by
  refine ⟨[], ?_, ?_, ?_, fun xi6 E K => ?run⟩
  case run =>
    simp only [cc1__attn_proj_kernel_eq_skeleton]; unfold cc1__attn_proj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

end Cert.KernelIdeal.Hand

end
-- ==== Proof.KI.R1RunB.lean ====
/- Region 1, the body's whole run at a MIDDLE point (kv = 1 or 2): neither conditional is taken. The body reads the
   carried state the point before left in the three scratch buffers, folds this point's key/value tile into it
   (new maximum, rescaled sum, rescaled accumulator plus the tile's contribution) and stores it back. The output's
   staging buffer is not touched. -/
import proofs.«419060_j65541200937045_3_alg».proof.Proof.KI.R1RunA

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- At a middle point, on whole memrefs — the six inputs at their contents, the output's buffer at any contents `xi6`
    (handed back as found), the scratch buffers at the carried state `xs0`, `xs1`, `xs2` — the body runs to a
    continuation that holds the inputs and the output's buffer as they were and each scratch buffer with the updated
    state written into it, as pieces. The pieces are the witness the run finds. -/
noncomputable def kernelRun1_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) :
    Σ' (L6 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi6 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_proj_kernel i arg3 harg3 arg4 harg4 arg5 harg5 arg6 harg6 arg7 harg7 arg8 harg8 arg9 harg9 arg10 harg10 arg11 harg11 arg12 harg12) K } := by
  refine ⟨[], ?_, ?_, ?_, fun xi6 E K => ?run⟩
  case run =>
    simp only [cc1__attn_proj_kernel_eq_skeleton]; unfold cc1__attn_proj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

end Cert.KernelIdeal.Hand

end
-- ==== Proof.KI.R1RunC.lean ====
/- Region 1, the body's whole run at a LAST point (kv = 3): the first conditional is not taken, the second is. The
   body folds the last key/value tile into the carried state as at a middle point, stores it back, and then reads the
   finished accumulator and row sum again: accumulator divided by the sum, times the projection matrix, plus the
   bias, is stored as the output block. -/
import proofs.«419060_j65541200937045_3_alg».proof.Proof.KI.R1RunB

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- At a last point, on whole memrefs — the six inputs at their contents, the output's buffer at anything, the scratch
    buffers at the carried state `xs0`, `xs1`, `xs2` — the body runs to a continuation that holds the inputs as they
    were, the output's buffer with the output block written into it and each scratch buffer with the final state
    written into it, as pieces. The pieces are the witness the run finds. -/
noncomputable def kernelRun1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) :
    Σ' (L6 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_proj_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__attn_proj_kernel_eq_skeleton]; unfold cc1__attn_proj_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexists _; iexact HS0
    isplitl [HS1]; · iexists _; iexact HS1
    iexists _; iexact HS2

end Cert.KernelIdeal.Hand

end
-- ==== Proof.KI.R1.lean ====
/- Region 1, the body obligation. From the three whole-body runs: what each case leaves in the output's staging buffer
   and in the three carried scratch buffers (the runs' pieces read back, and why they cover), the carried state point
   by point by recursion on the linear index, the region invariant that owns the scratch buffers at the previous
   point's state, the proof data, and the obligation at a generic point by cases on the index mod 4. The launch is
   not here: the module stops at the two entailments between the class invariant and this one. -/
import proofs.«419060_j65541200937045_3_alg».proof.Proof.KI.R1RunC

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The inputs are never idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl

/-! ## What each case leaves, and why its stores cover -/

/-- At a reset point (kv = 0) nothing is stored into output 6's buffer: no pieces. The reading below is a placeholder nothing
    consults, since at these points the window is neither written back nor read by the next point. -/
def out1_A_6 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) : Vec F S1x1024x1024 .f32 :=
  VO1_6.read (Elt F) (VO1_6.writes (Elt F) VO1_6.junk (kernelRun1_A c i arg3 harg3 arg4 harg4 arg5 harg5 arg6 harg6 arg7 harg7 arg8 harg8 arg9 harg9 arg10 harg10 arg11 harg11 arg12 harg12 hc0 hc1 x0 x1 x2 x3 x4 x5).1)

/-- The stores a reset point (kv = 0) makes into scratch 0 (the running maximum) are of the whole buffer: the pieces cover it. -/
theorem scover1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (y : S1024x1.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5).2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4 x5).2.1 S1024x1.size (by sl_kernel_rfl) y

/-- What a reset point (kv = 0) leaves in scratch 0 (the running maximum): its pieces read back. -/
def sout1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) : Vec F S1024x1 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 arg12 harg12 hc0 hc1 x0 x1 x2 x3 x4 x5).2.1)

/-- The stores a reset point (kv = 0) makes into scratch 1 (the running sum) are of the whole buffer: the pieces cover it. -/
theorem scover1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (y : S1024x1.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5).2.2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4 x5).2.2.1 S1024x1.size (by sl_kernel_rfl) y

/-- What a reset point (kv = 0) leaves in scratch 1 (the running sum): its pieces read back. -/
def sout1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) : Vec F S1024x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 arg12 harg12 hc0 hc1 x0 x1 x2 x3 x4 x5).2.2.1)

/-- The stores a reset point (kv = 0) makes into scratch 2 (the accumulator) are of the whole buffer: the pieces cover it. -/
theorem scover1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (y : S1024x1024.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5).2.2.2.1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4 x5).2.2.2.1 S1024x1024.size (by sl_kernel_rfl) y

/-- What a reset point (kv = 0) leaves in scratch 2 (the accumulator): its pieces read back. -/
def sout1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) : Vec F S1024x1024 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 arg12 harg12 hc0 hc1 x0 x1 x2 x3 x4 x5).2.2.2.1)

/-- At a middle point (kv = 1, 2) nothing is stored into output 6's buffer: no pieces. The reading below is a placeholder nothing
    consults, since at these points the window is neither written back nor read by the next point. -/
def out1_B_6 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) : Vec F S1x1024x1024 .f32 :=
  VO1_6.read (Elt F) (VO1_6.writes (Elt F) VO1_6.junk (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).1)

/-- The stores a middle point (kv = 1, 2) makes into scratch 0 (the running maximum) are of the whole buffer: the pieces cover it. -/
theorem scover1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.1 S1024x1.size (by sl_kernel_rfl) y

/-- What a middle point (kv = 1, 2) leaves in scratch 0 (the running maximum): its pieces read back. -/
def sout1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.1)

/-- The stores a middle point (kv = 1, 2) makes into scratch 1 (the running sum) are of the whole buffer: the pieces cover it. -/
theorem scover1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1 S1024x1.size (by sl_kernel_rfl) y

/-- What a middle point (kv = 1, 2) leaves in scratch 1 (the running sum): its pieces read back. -/
def sout1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1)

/-- The stores a middle point (kv = 1, 2) makes into scratch 2 (the accumulator) are of the whole buffer: the pieces cover it. -/
theorem scover1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) (y : S1024x1024.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1 S1024x1024.size (by sl_kernel_rfl) y

/-- What a middle point (kv = 1, 2) leaves in scratch 2 (the accumulator): its pieces read back. -/
def sout1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1)

/-- At a last point (kv = 3) the one store into output 6's buffer is of the whole block: its piece covers the buffer. -/
theorem cover1_C_6 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) (y : S1x1024x1024.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).1 S1x1024x1024.size (by sl_kernel_rfl) y

/-- What a last point (kv = 3) leaves in output 6's staging buffer: its piece read back. -/
def out1_C_6 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) : Vec F S1x1024x1024 .f32 :=
  VO1_6.read (Elt F) (VO1_6.writes (Elt F) VO1_6.junk (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).1)

/-- The stores a last point (kv = 3) makes into scratch 0 (the running maximum) are of the whole buffer: the pieces cover it. -/
theorem scover1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.1 S1024x1.size (by sl_kernel_rfl) y

/-- What a last point (kv = 3) leaves in scratch 0 (the running maximum): its pieces read back. -/
def sout1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.1)

/-- The stores a last point (kv = 3) makes into scratch 1 (the running sum) are of the whole buffer: the pieces cover it. -/
theorem scover1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1 S1024x1.size (by sl_kernel_rfl) y

/-- What a last point (kv = 3) leaves in scratch 1 (the running sum): its pieces read back. -/
def sout1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1)

/-- The stores a last point (kv = 3) makes into scratch 2 (the accumulator) are of the whole buffer: the pieces cover it. -/
theorem scover1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) (y : S1024x1024.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1 S1024x1024.size (by sl_kernel_rfl) y

/-- What a last point (kv = 3) leaves in scratch 2 (the accumulator): its pieces read back. -/
def sout1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1)

/-! ## What the output's buffer and the carried scratch hold after each point -/

/-- THE CARRIED STATE, point by point: output 6's staging buffer, then the running maximum, the running sum and the
    accumulator, after the body at position `n`. The closed forms choose the case: a reset point starts from nothing,
    a middle or last point from what the point before left in the three scratch buffers. No point is both ≡ 0 and
    ≡ 3 (mod 4). -/
def outsAt1 (c : Dev nD) : (n : ℕ) → n < cfg1.N → Vec F S1x1024x1024 .f32 × Vec F S1024x1 .f32 × Vec F S1024x1 .f32 × Vec F S1024x1024 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 4 = 0 then
      if h1 : (n + 1) % 4 = 3 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 4 = 3 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2.1 (outsAt1 c n (Nat.lt_of_succ_lt hn)).2.2.2)

/-- The carried state at a reset point: that case's contents, from nothing. -/
theorem outsAt1_A (c : Dev nD) (t : Fin cfg1.N) (h0 : t.val % 4 = 0) (h1 : ¬t.val % 4 = 3) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- The carried state at a middle point: that case's contents, over what the point before left. -/
theorem outsAt1_B (c : Dev nD) (t : Fin cfg1.N) (h0 : ¬t.val % 4 = 0) (h1 : ¬t.val % 4 = 3) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- The carried state at a last point: that case's contents, over what the point before left. -/
theorem outsAt1_C (c : Dev nD) (t : Fin cfg1.N) (h0 : ¬t.val % 4 = 0) (h1 : t.val % 4 = 3) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- The invariant before position `n`: before the first point the class invariant (every scratch buffer at anything);
    afterwards the other call's staging buffers untouched, the three scratch buffers at what the point before left in
    them, and the generator register at some state. -/
def PhiS1 (c : Dev nD) : (n : ℕ) → n ≤ cfg1.N → sProp 𝕄
  | 0, _ => Pipeline.ΦA spec1 c
  | n + 1, hn => iprop(rest1 (F := F) c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch buffers at that point's contents. -/
theorem PhiS1_succ (c : Dev nD) (n : ℕ) (hn : n < cfg1.N) :
    PhiS1 V c (n + 1) hn = iprop(rest1 (F := F) c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ (∃ r, prngReg c r)) := rfl

/-- Before a point that is not the first: the scratch buffers at what the point before left. -/
theorem PhiS1_pos (c : Dev nD) (n : ℕ) (h : n ≤ cfg1.N) (hz : n ≠ 0) :
    PhiS1 V c n h = iprop(rest1 (F := F) c ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2 ∗ (∃ r, prngReg c r)) := by
  cases n with
  | zero => exact absurd rfl hz
  | succ n => rfl

/-! ## The pipeline's proof data -/

/-- The proof data of region 1 on core `c`: the arrays as the region finds them; after the body at point `t` each
    input's buffer still at its block and the output's at the carried state's first component; the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point. The inputs' buffers hold their blocks; the closed forms say which of the three cases the
    point is in. At a reset point the scratch buffers are handed over at anything (as the class invariant has them at the first
    point, the previous tile's final state, forgotten, later on); at a middle or last point at the state the point
    before left. The run applies, and the scratch buffers come back at this point's state because the run's stores
    cover them; the output's buffer comes back untouched where the window is idle and with the covering store's
    contents at a last point. The other call's staging buffers, the generator register and the core's dues ride along. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_A t ((hcond1_0 t).mpr h0) (fun h => h1 ((hcond1_1 t).mp h))) (noFlush1_6_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩, ⟨%d4, H4⟩, ⟨%d5, H5⟩, ⟨%d6, H6⟩⟩
        ihave HΦ' := (PhiA1_in (F := F) c) $$ HΦ
        icases HΦ' with ⟨HR, HS0, HS1, HS2, Hg⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS1_castSucc V c t, PhiS1_pos V c _ _ hz]
        iintro ⟨HΦ, Ho, ⟨%d0, H0⟩, ⟨%d1, H1⟩, ⟨%d2, H2⟩, ⟨%d3, H3⟩, ⟨%d4, H4⟩, ⟨%d5, H5⟩, ⟨%d6, H6⟩⟩
        icases HΦ with ⟨HR, HS0, HS1, HS2, Hg⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        iintro ⟨H0, H1, H2, H3, H4, H5, H6, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_A_2 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6_C t (fun h => h0 ((hcond1_0 t).mp h)) ((hcond1_1 t).mpr h1)], after1_6]
      rw [outsAt1_C V c t h0 h1]
      unfold out1_C_6 sout1_C_0 sout1_C_1 sout1_C_2; (try dsimp only)
      by_cases hz : t.val = 0
      · exfalso; omega
      · rw [PhiS1_castSucc V c t, PhiS1_pos V c _ _ hz]
        iintro ⟨HΦ, Ho, ⟨%d0, H0⟩, ⟨%d1, H1⟩, ⟨%d2, H2⟩, ⟨%d3, H3⟩, ⟨%d4, H4⟩, ⟨%d5, H5⟩, ⟨%d6, H6⟩⟩
        icases HΦ with ⟨HR, HS0, HS1, HS2, Hg⟩
        iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        iintro ⟨H0, H1, H2, H3, H4, H5, ⟨%e6, H6⟩, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_C_2 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover1_C_6 c _ _ _ _ _ _ _ _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6_B t (fun h => h0 ((hcond1_0 t).mp h)) (fun h => h1 ((hcond1_1 t).mp h))) (noFlush1_6_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨HΦ, Ho, ⟨%d0, H0⟩, ⟨%d1, H1⟩, ⟨%d2, H2⟩, ⟨%d3, H3⟩, ⟨%d4, H4⟩, ⟨%d5, H5⟩, ⟨%d6, H6⟩⟩
        icases HΦ with ⟨HR, HS0, HS1, HS2, Hg⟩
        iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover1_B_2 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- With the scratch buffers at any named contents the invariant gives the class invariant back: the names are forgotten. -/
theorem PhiS1_forget (c : Dev nD) (a0 : Vec F S1024x1 .f32) (a1 : Vec F S1024x1 .f32) (a2 : Vec F S1024x1024 .f32) :
    (iprop(rest1 (F := F) c ∗ owns (c : Thread nD τ) scM1_0 fullShare a0 ∗ owns (c : Thread nD τ) scM1_1 fullShare a1 ∗ owns (c : Thread nD τ) scM1_2 fullShare a2 ∗ (∃ r, prngReg c r)) : sProp 𝕄) ⊢ Pipeline.ΦA spec1 c := by
  have h : (iprop(rest1 (F := F) c ∗ owns (c : Thread nD τ) scM1_0 fullShare a0 ∗ owns (c : Thread nD τ) scM1_1 fullShare a1 ∗ owns (c : Thread nD τ) scM1_2 fullShare a2 ∗ (∃ r, prngReg c r)) : sProp 𝕄)
      ⊢ iprop(rest1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
    iintro ⟨HR, HS0, HS1, HS2, Hg⟩
    isplitl [HR]; · iexact HR
    isplitl [HS0]; · iexists _; iexact HS0
    isplitl [HS1]; · iexists _; iexact HS1
    isplitl [HS2]; · iexists _; iexact HS2
    iexact Hg
  exact h.trans (PhiA1_out (F := F) c)

/-- After any point but the first the invariant gives the class invariant back. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  exact PhiS1_forget c _ _ _

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Hand

end
-- ==== Proof.KI.Run.lean ====
/-
  The whole program as four segments — the host lines before the first kernel, the projection kernel, the host lines
  between, the attention kernel — run from the launch memory to the return: every weakly fair execution terminates,
  and at the end every buffer the program's lines name holds what the fold of the segments computes: the host lines'
  operations applied in order, each kernel's output arrays at what its grid points wrote back, every other buffer
  as it was.
-/
import proofs.«419060_j65541200937045_3_alg».proof.Proof.KI.R0
import proofs.«419060_j65541200937045_3_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two segments -/

/-- At launch. -/
abbrev W0 : Dev nD → Valuation τ sig (Elt F) := fun c b => (s₀ m ρ).mem ((c : Dev nD), b)
/-- After the host lines before the projection kernel: x flattened to rows, the fused weight in the narrow format,
    the bias as a row. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection kernel: its three outputs at what its sixteen points wrote back. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host lines between the kernels: queries, keys and values as [4, 2048, 1024], the output weight in the
    narrow format, the output bias as a row. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention kernel: its output at what its grid points wrote back. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The proof data of the two kernels and what rides beside the buffers -/

abbrev adm : (p : Fin 2) → (pcfgs (F := F) p).Adm := fun p => (cfgs p).toPCfg_adm
/-- Each kernel's proof data at the contents it is entered from. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two kernels as segments -/

set_option backward.isDefEq.respectTransparency.types false in
/-- The projection kernel between the contents W1 and W2: its arrays split out of the buffers and put back at
    what the pipeline leaves; the generator register through the kernel's invariant; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel between the contents W3 and W4. Its invariant carries the three running quantities from
    one grid point to the next; it is entered from, and gives back, the scoped buffers at anything. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V3 m ρ) c
    unfold Pipeline.ΦA at h
    iintro ⟨Hp, -, Hr⟩
    iapply (show iprop(Pipeline.scopedRest spec1 c ∗ ∃ r, prngReg c r) ⊢ (pdats m ρ 1 c).Φ 0 from h)
    isplitl [Hr]; · iexact Hr
    iexact Hp
  hout c := by
    have h := hout1 (V3 m ρ) c
    unfold Pipeline.ΦA at h
    have h' : (pdats m ρ 1 c).Φ (Fin.last _) ⊢ iprop(Pipeline.scopedRest spec1 c ∗ ∃ r, prngReg c r) := h
    rw [Pipeline.ownSems0_none]
    iintro HΦ
    ihave H := h' $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory m with zero counters terminates, and the final memory
    holds every buffer the program's lines name at the last boundary's contents W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.KI.Named.lean ====
/-
  What the final memory holds at the buffers the claims speak of: each argument array as launched — no host line
  writes one and no kernel changes one (the bias is an input window of the attention kernel, left as found) — and
  the result at what the attention kernel's grid points wrote back.
-/
import proofs.«419060_j65541200937045_3_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines before the projection kernel write only their own three results. -/
theorem W1_keep (c : Dev nD) (b : Ref sig .tc) (h0 : b ≠ main_v0) (h1 : b ≠ main_v1) (h2 : b ≠ main_v2) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne h0, StableHlo.devRef_ne_of_ne h1, StableHlo.devRef_ne_of_ne h2⟩))

/-- The host lines between the kernels write only their own five results. -/
theorem W3_keep (c : Dev nD) (b : Ref sig .tc) (h4 : b ≠ main_v4) (h5 : b ≠ main_v5) (h6 : b ≠ main_v6) (h7 : b ≠ main_v7) (h8 : b ≠ main_v8) :
    W3 m ρ c (Proc.devRef .tc b) = W2 m ρ c (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne h4, StableHlo.devRef_ne_of_ne h5, StableHlo.devRef_ne_of_ne h6, StableHlo.devRef_ne_of_ne h7, StableHlo.devRef_ne_of_ne h8⟩))

/-- A buffer that is no array of either kernel and no result of a host line ends as launched. -/
theorem W4_keep (c : Dev nD) (b : Ref sig .tc) (hA1 : ∀ w, Pipeline.arrRef spec1 w ≠ b) (hA0 : ∀ w, Pipeline.arrRef spec0 w ≠ b)
    (h0 : b ≠ main_v0) (h1 : b ≠ main_v1) (h2 : b ≠ main_v2)
    (h4 : b ≠ main_v4) (h5 : b ≠ main_v5) (h6 : b ≠ main_v6) (h7 : b ≠ main_v7) (h8 : b ≠ main_v8) :
    W4 m ρ c (Proc.devRef .tc b) = m ((c : Thread nD τ).loc b) :=
  calc W4 m ρ c (Proc.devRef .tc b)
    _ = W3 m ρ c (Proc.devRef .tc b) := W4_of_ne m ρ c b hA1
    _ = W2 m ρ c (Proc.devRef .tc b) := W3_keep m ρ c b h4 h5 h6 h7 h8
    _ = W1 m ρ c (Proc.devRef .tc b) := W2_of_ne m ρ c b hA0
    _ = W0 m ρ c (Proc.devRef .tc b) := W1_keep m ρ c b h0 h1 h2
    _ = m ((c : Thread nD τ).loc b) := rfl

theorem W4_main_arg0 (c : Dev nD) : W4 m ρ c (Proc.devRef .tc main_arg0) = m ((c : Thread nD τ).loc main_arg0) :=
  W4_keep m ρ c main_arg0 (by decide) (by decide) (by decide) (by decide) (by decide) (by decide) (by decide) (by decide) (by decide) (by decide)
theorem W4_main_arg2 (c : Dev nD) : W4 m ρ c (Proc.devRef .tc main_arg2) = m ((c : Thread nD τ).loc main_arg2) :=
  W4_keep m ρ c main_arg2 (by decide) (by decide) (by decide) (by decide) (by decide) (by decide) (by decide) (by decide) (by decide) (by decide)
theorem W4_main_arg3 (c : Dev nD) : W4 m ρ c (Proc.devRef .tc main_arg3) = m ((c : Thread nD τ).loc main_arg3) :=
  W4_keep m ρ c main_arg3 (by decide) (by decide) (by decide) (by decide) (by decide) (by decide) (by decide) (by decide) (by decide) (by decide)
theorem W4_main_arg4 (c : Dev nD) : W4 m ρ c (Proc.devRef .tc main_arg4) = m ((c : Thread nD τ).loc main_arg4) :=
  W4_keep m ρ c main_arg4 (by decide) (by decide) (by decide) (by decide) (by decide) (by decide) (by decide) (by decide) (by decide) (by decide)
theorem W4_main_arg5 (c : Dev nD) : W4 m ρ c (Proc.devRef .tc main_arg5) = m ((c : Thread nD τ).loc main_arg5) :=
  W4_keep m ρ c main_arg5 (by decide) (by decide) (by decide) (by decide) (by decide) (by decide) (by decide) (by decide) (by decide) (by decide)

/-- The bias is the attention kernel's fourth input window: an input array ends as the kernel found it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 3).trans (((dat1 (V3 m ρ) c).arrAt_in 3 rfl _).trans (A_eq1 (V3 m ρ) c 3))
    _ = W2 m ρ c (Proc.devRef .tc main_arg1) := W3_keep m ρ c main_arg1 (by decide) (by decide) (by decide) (by decide) (by decide)
    _ = W1 m ρ c (Proc.devRef .tc main_arg1) := W2_of_ne m ρ c main_arg1 (by decide)
    _ = W0 m ρ c (Proc.devRef .tc main_arg1) := W1_keep m ρ c main_arg1 (by decide) (by decide) (by decide)
    _ = m ((c : Thread nD τ).loc main_arg1) := rfl

/-- The result buffer is the attention kernel's output array. -/
theorem W4_main_v9 (c : Dev nD) : W4 m ρ c (Proc.devRef .tc main_v9) = (dat1 (V3 m ρ) c).arrAt 6 cfg1.N :=
  W4_arr m ρ c 6

/-- The run, read at the result and the six arguments. -/
theorem run_named : θ_run defs (onTc (τ := τ) (main (F := F))) ⟨m, fun _ => 0, ρ⟩ (fun r => ∀ c : Dev nD,
      r.2.mem ((c.tc : Thread nD τ).loc main_v9) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v9 (by decide))).trans (W4_main_v9 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

/-- The frame: the program runs to the end and its six arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_named m ρ)

end Cert.KernelIdeal.Hand

end
-- ==== Proof.Spec.lean ====
/-
  The common specification of the two programs, over the real numbers.

  With x : [4,2048,1024], sw : [4,2048,2048], cw : [1024,3072], cb : [3072], pw : [1024,1024], pb : [1024]:
    proj o b s a = Σ_h x[b,s,h] · cw[h, 1024·o + a] + cb[1024·o + a]            (o = 0, 1, 2: queries, keys, values)
    score b i j  = (Σ_a proj 0 b i a · proj 1 b j a) · (1/32) + sw[b,i,j]
    ctx b i a    = (Σ_j exp(score b i j) · proj 2 b j a) / (Σ_j exp(score b i j))
    out b i p    = Σ_a ctx b i a · pw[a,p] + pb[p]
  Both programs compute `out` when every input entry is a real number: the reference subtracts each row's maximum
  before exponentiating, the kernel a running maximum block by block; either shift cancels in the quotient
  (`softmax_shift`), and 1024^(-1/2) is 1/32.
-/
import Idealize.ShloMosaic.PureOps.Ideal
import Idealize.ShloMosaic.Lib.ValueIdx
import Mathlib.Analysis.SpecialFunctions.Exp
import Mathlib.Analysis.SpecialFunctions.Pow.Real
import Mathlib.Algebra.BigOperators.Field

noncomputable section

open scoped BigOperators

namespace Cert.Spec

open Idealize.ShloMosaic Idealize.ShloMosaic.ValueIdx

abbrev Sx : Shape := ⟨3, ![4, 2048, 1024]⟩
abbrev Ssw : Shape := ⟨3, ![4, 2048, 2048]⟩
abbrev Scw : Shape := ⟨2, ![1024, 3072]⟩
abbrev Scb : Shape := ⟨1, ![3072]⟩
abbrev Spw : Shape := ⟨2, ![1024, 1024]⟩
abbrev Spb : Shape := ⟨1, ![1024]⟩

/-- Column 1024·o + a of the fused weight: the a-th column of the o-th of its three slices. -/
def col (o : Fin 3) (a : Fin 1024) : Fin 3072 := ⟨o.val * 1024 + a.val, by omega⟩

section Real

variable (x : Sx.Idx → ℝ) (sw : Ssw.Idx → ℝ) (cw : Scw.Idx → ℝ) (cb : Scb.Idx → ℝ) (pw : Spw.Idx → ℝ) (pb : Spb.Idx → ℝ)

/-- The o-th projection (queries, keys, values) of row (b, s). -/
def projR (o : Fin 3) (b : Fin 4) (s : Fin 2048) (a : Fin 1024) : ℝ :=
  (∑ h : Fin 1024, x (ix3 b s h) * cw (ix2 h (col o a))) + cb (ix1 (col o a))

/-- The biased, scaled score of query row i against key row j. -/
def scoreR (b : Fin 4) (i j : Fin 2048) : ℝ :=
  (∑ a : Fin 1024, projR x cw cb 0 b i a * projR x cw cb 1 b j a) * (1 / 32) + sw (ix3 b i j)

/-- The softmax-weighted mean of the value rows. -/
def ctxR (b : Fin 4) (i : Fin 2048) (a : Fin 1024) : ℝ :=
  (∑ j : Fin 2048, Real.exp (scoreR x sw cw cb b i j) * projR x cw cb 2 b j a)
    / (∑ j : Fin 2048, Real.exp (scoreR x sw cw cb b i j))

/-- The output projection. -/
def outR (b : Fin 4) (i : Fin 2048) (p : Fin 1024) : ℝ :=
  (∑ a : Fin 1024, ctxR x sw cw cb b i a * pw (ix2 a p)) + pb (ix1 p)

end Real

/-- The result array both programs end with, as extended reals, of argument arrays whose entries are real:
    `outR` of the entries' real values. -/
def G (x : Sx.Idx → EReal) (sw : Ssw.Idx → EReal) (cw : Scw.Idx → EReal) (cb : Scb.Idx → EReal)
    (pw : Spw.Idx → EReal) (pb : Spb.Idx → EReal) : Sx.Idx → EReal := fun idx =>
  ((outR (fun i => (x i).toReal) (fun i => (sw i).toReal) (fun i => (cw i).toReal) (fun i => (cb i).toReal)
      (fun i => (pw i).toReal) (fun i => (pb i).toReal) (idx 0) (idx 1) (idx 2) : ℝ) : EReal)

/-- Every entry of an array is a real number. -/
def AllReal {S : Shape} (v : S.Idx → EReal) : Prop := ∀ i, ∃ r : ℝ, v i = (r : EReal)

theorem AllReal.eq_coe_toReal {S : Shape} {v : S.Idx → EReal} (h : AllReal v) (i : S.Idx) : v i = ((v i).toReal : EReal) := by
  obtain ⟨r, hr⟩ := h i
  rw [hr, EReal.toReal_coe]

/-- A softmax-weighted mean does not see a common shift of the scores: for any real c,
    (Σ_j exp(s j − c) · v j) / (Σ_j exp(s j − c)) = (Σ_j exp(s j) · v j) / (Σ_j exp(s j)). -/
theorem softmax_shift {ι : Type} [Fintype ι] [Nonempty ι] (s v : ι → ℝ) (c : ℝ) :
    (∑ j, Real.exp (s j - c) * v j) / (∑ j, Real.exp (s j - c)) = (∑ j, Real.exp (s j) * v j) / (∑ j, Real.exp (s j)) := by
  have hc : Real.exp (-c) ≠ 0 := (Real.exp_pos _).ne'
  have h1 : ∀ j, Real.exp (s j - c) = Real.exp (s j) * Real.exp (-c) := fun j => by
    rw [sub_eq_add_neg, Real.exp_add]
  have hpos : 0 < ∑ j, Real.exp (s j) := Finset.sum_pos (fun j _ => Real.exp_pos _) Finset.univ_nonempty
  simp only [h1]
  rw [show (∑ j, Real.exp (s j) * Real.exp (-c) * v j) = (∑ j, Real.exp (s j) * v j) * Real.exp (-c) from by
        rw [Finset.sum_mul]; exact Finset.sum_congr rfl fun j _ => by ring,
      ← Finset.sum_mul]
  field_simp

/-- The same with the weights normalised first, as the reference does: Σ_j (exp(s j − c) / L) · v j with
    L = Σ_j exp(s j − c). -/
theorem softmax_shift_normalised {ι : Type} [Fintype ι] [Nonempty ι] (s v : ι → ℝ) (c : ℝ) :
    (∑ j, Real.exp (s j - c) / (∑ k, Real.exp (s k - c)) * v j) = (∑ j, Real.exp (s j) * v j) / (∑ j, Real.exp (s j)) := by
  rw [← softmax_shift s v c, Finset.sum_div]
  exact Finset.sum_congr rfl fun j _ => by ring

/-- 1024^(-1/2) = 1/32 on the extended reals. -/
theorem rsqrt_1024 : Ideal.rsqrt ((1024 : ℝ) : EReal) = ((1 / 32 : ℝ) : EReal) := by
  have h32 : Real.sqrt 1024 = 32 := by
    rw [show (1024 : ℝ) = 32 ^ 2 by norm_num]; exact Real.sqrt_sq (by norm_num)
  rw [Ideal.rsqrt_coe, if_neg (by norm_num), if_neg (by norm_num), h32]
  norm_num

end Cert.Spec

end
-- ==== Proof.KI.Blocks1.lean ====
/-
  Region 1's windows read off the arrays. The grid point with linear index t has coordinates
  (batch, query tile, key/value tile) = (t / 8, t / 4 % 2, t % 4). A window's block at t sits in its array, on each axis,
  at the block index times the block's size plus the coordinate inside the block:
    queries  [1,1024,1024] at (batch, query tile, 0):           block[0, r, a]  = q[batch, 1024·tile + r, a]
    keys     [1,512,1024]  at (batch, key/value tile, 0):       block[0, j, a]  = k[batch, 512·kv + j, a]
    values   the same
    bias     [1,1024,512]  at (batch, query tile, kv tile):     block[0, r, j]  = sw[batch, 1024·tile + r, 512·kv + j]
    the output weight and the output bias whole.
  So the query block does not move along the key/value axis. The output's blocks [1,1024,1024] at (batch, query tile, 0),
  written back at the last key/value step only, cover the output array: index (b, s, p) lies in the block of the
  point (b, s / 1024, 3).
-/
import proofs.«419060_j65541200937045_3_alg».proof.Proof.KI.R1Runs
import proofs.«419060_j65541200937045_3_alg».proof.Proof.Spec
import Idealize.ShloMosaic.Lib.Pipeline.Value
import Idealize.ShloMosaic.Lib.ValueIdx

set_option maxRecDepth 16384

noncomputable section

namespace Cert.KernelIdeal.Hand
open Cert.KernelIdeal Cert.KernelIdeal.Gen
open Idealize.ShloMosaic Idealize.ShloMosaic.TcCoe Idealize.ShloMosaic.ValueIdx
open Idealize.ShloMosaic.Pipeline (Dat)

/-! ## Grid points by coordinates -/

/-- The grid has 4 · 2 · 4 = 32 points. -/
theorem N1_eq : cfg1.N = 32 := N_1

theorem val_lt_32 (t : Fin cfg1.N) : t.val < 32 := lt_of_lt_of_eq t.isLt N1_eq

/-- The point of batch b, query tile qi and key/value tile n (taken mod 4, so that n may be any natural number). -/
def pt (b : Fin 4) (qi : Fin 2) (n : ℕ) : Fin cfg1.N :=
  ⟨8 * b.val + 4 * qi.val + n % 4, by rw [N1_eq]; omega⟩

theorem pt_val (b : Fin 4) (qi : Fin 2) (n : ℕ) : (pt b qi n).val = 8 * b.val + 4 * qi.val + n % 4 := rfl

/-- Every point is the point of its coordinates. -/
theorem eq_pt (t : Fin cfg1.N) :
    t = pt ⟨t.val / 8, by have h := val_lt_32 t; omega⟩ ⟨t.val / 4 % 2, by omega⟩ (t.val % 4) :=
  Fin.ext (by rw [pt_val]; dsimp only; omega)

/-! ## The printed index maps, decided once over the grid -/

theorem idx1_facts : ∀ t : Fin cfg1.N,
    (win1_0.index t (0 : Fin 3) = t.val / 8 ∧ win1_0.index t (1 : Fin 3) = t.val / 4 % 2 ∧ win1_0.index t (2 : Fin 3) = 0)
    ∧ (win1_1.index t (0 : Fin 3) = t.val / 8 ∧ win1_1.index t (1 : Fin 3) = t.val % 4 ∧ win1_1.index t (2 : Fin 3) = 0)
    ∧ (win1_2.index t (0 : Fin 3) = t.val / 8 ∧ win1_2.index t (1 : Fin 3) = t.val % 4 ∧ win1_2.index t (2 : Fin 3) = 0)
    ∧ (win1_3.index t (0 : Fin 3) = t.val / 8 ∧ win1_3.index t (1 : Fin 3) = t.val / 4 % 2 ∧ win1_3.index t (2 : Fin 3) = t.val % 4)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 3) = t.val / 8 ∧ win1_6.index t (1 : Fin 3) = t.val / 4 % 2 ∧ win1_6.index t (2 : Fin 3) = 0) :=
  (by decide +kernel : ∀ t : Fin grid1.N, _)

section AnyFloats

variable {F : FTy → Type} [FloatOps F]
variable (V : (c : Dev nD) → (b : Ref sig .tc) → Buf (Elt F) ((c : Thread nD τ).loc b))

/-! ## The six input blocks at an index -/

/-- The query block: row r of the block is row 1024·(query tile) + r of the batch. -/
theorem qblk_apply (c : Dev nD) (t : Fin cfg1.N) (j : S1x1024x1024.Idx) (i : S4x2048x1024.Idx)
    (h0 : (i 0).val = t.val / 8) (h1 : (i 1).val = 1024 * (t.val / 4 % 2) + (j 1).val) (h2 : (i 2).val = (j 2).val) :
    (iblk1 V c 0 t : Vec F S1x1024x1024 .bf16) j = (V c main_v4 : Vec F S4x2048x1024 .bf16) i := by
  obtain ⟨⟨e0, e1, e2⟩, -⟩ := idx1_facts t
  unfold iblk1
  rw [View.read_apply]
  show V c main_v4 (((cfg1.win 0).blk t).view.emb j) = V c main_v4 i
  refine congrArg (V c main_v4) (funext fun a => Fin.ext ?_)
  have hj0 : (j 0).val < 1 := (j 0).isLt
  match a with
  | ⟨0, _⟩ => show win1_0.index t (0 : Fin 3) * 1 + 1 * (j 0).val = (i 0).val; omega
  | ⟨1, _⟩ => show win1_0.index t (1 : Fin 3) * 1024 + 1 * (j 1).val = (i 1).val; omega
  | ⟨2, _⟩ => show win1_0.index t (2 : Fin 3) * 1024 + 1 * (j 2).val = (i 2).val; omega

/-- The key block: row j of the block is row 512·(key/value tile) + j of the batch. -/
theorem kblk_apply (c : Dev nD) (t : Fin cfg1.N) (j : S1x512x1024.Idx) (i : S4x2048x1024.Idx)
    (h0 : (i 0).val = t.val / 8) (h1 : (i 1).val = 512 * (t.val % 4) + (j 1).val) (h2 : (i 2).val = (j 2).val) :
    (iblk1 V c 1 t : Vec F S1x512x1024 .bf16) j = (V c main_v5 : Vec F S4x2048x1024 .bf16) i := by
  obtain ⟨-, ⟨e0, e1, e2⟩, -⟩ := idx1_facts t
  unfold iblk1
  rw [View.read_apply]
  show V c main_v5 (((cfg1.win 1).blk t).view.emb j) = V c main_v5 i
  refine congrArg (V c main_v5) (funext fun a => Fin.ext ?_)
  have hj0 : (j 0).val < 1 := (j 0).isLt
  match a with
  | ⟨0, _⟩ => show win1_1.index t (0 : Fin 3) * 1 + 1 * (j 0).val = (i 0).val; omega
  | ⟨1, _⟩ => show win1_1.index t (1 : Fin 3) * 512 + 1 * (j 1).val = (i 1).val; omega
  | ⟨2, _⟩ => show win1_1.index t (2 : Fin 3) * 1024 + 1 * (j 2).val = (i 2).val; omega

/-- The value block: the same rows of the value array. -/
theorem vblk_apply (c : Dev nD) (t : Fin cfg1.N) (j : S1x512x1024.Idx) (i : S4x2048x1024.Idx)
    (h0 : (i 0).val = t.val / 8) (h1 : (i 1).val = 512 * (t.val % 4) + (j 1).val) (h2 : (i 2).val = (j 2).val) :
    (iblk1 V c 2 t : Vec F S1x512x1024 .bf16) j = (V c main_v6 : Vec F S4x2048x1024 .bf16) i := by
  obtain ⟨-, -, ⟨e0, e1, e2⟩, -⟩ := idx1_facts t
  unfold iblk1
  rw [View.read_apply]
  show V c main_v6 (((cfg1.win 2).blk t).view.emb j) = V c main_v6 i
  refine congrArg (V c main_v6) (funext fun a => Fin.ext ?_)
  have hj0 : (j 0).val < 1 := (j 0).isLt
  match a with
  | ⟨0, _⟩ => show win1_2.index t (0 : Fin 3) * 1 + 1 * (j 0).val = (i 0).val; omega
  | ⟨1, _⟩ => show win1_2.index t (1 : Fin 3) * 512 + 1 * (j 1).val = (i 1).val; omega
  | ⟨2, _⟩ => show win1_2.index t (2 : Fin 3) * 1024 + 1 * (j 2).val = (i 2).val; omega

/-- The bias block: rows of the query tile against columns of the key/value tile. -/
theorem bblk_apply (c : Dev nD) (t : Fin cfg1.N) (j : S1x1024x512.Idx) (i : S4x2048x2048.Idx)
    (h0 : (i 0).val = t.val / 8) (h1 : (i 1).val = 1024 * (t.val / 4 % 2) + (j 1).val)
    (h2 : (i 2).val = 512 * (t.val % 4) + (j 2).val) :
    (iblk1 V c 3 t : Vec F S1x1024x512 .f32) j = (V c main_arg1 : Vec F S4x2048x2048 .f32) i := by
  obtain ⟨-, -, -, ⟨e0, e1, e2⟩, -⟩ := idx1_facts t
  unfold iblk1
  rw [View.read_apply]
  show V c main_arg1 (((cfg1.win 3).blk t).view.emb j) = V c main_arg1 i
  refine congrArg (V c main_arg1) (funext fun a => Fin.ext ?_)
  have hj0 : (j 0).val < 1 := (j 0).isLt
  match a with
  | ⟨0, _⟩ => show win1_3.index t (0 : Fin 3) * 1 + 1 * (j 0).val = (i 0).val; omega
  | ⟨1, _⟩ => show win1_3.index t (1 : Fin 3) * 1024 + 1 * (j 1).val = (i 1).val; omega
  | ⟨2, _⟩ => show win1_3.index t (2 : Fin 3) * 512 + 1 * (j 2).val = (i 2).val; omega

/-- The output weight's block is the whole weight, at every point. -/
theorem wblk_eq (c : Dev nD) (t : Fin cfg1.N) :
    (iblk1 V c 4 t : Vec F S1024x1024 .bf16) = (V c main_v7 : Vec F S1024x1024 .bf16) := by
  obtain ⟨-, -, -, -, ⟨e0, e1⟩, -⟩ := idx1_facts t
  funext j
  unfold iblk1
  rw [View.read_apply]
  show V c main_v7 (((cfg1.win 4).blk t).view.emb j) = V c main_v7 j
  refine congrArg (V c main_v7) (funext fun a => Fin.ext ?_)
  match a with
  | ⟨0, _⟩ => show win1_4.index t (0 : Fin 2) * 1024 + 1 * (j 0).val = (j 0).val; omega
  | ⟨1, _⟩ => show win1_4.index t (1 : Fin 2) * 1024 + 1 * (j 1).val = (j 1).val; omega

/-- The output bias's block is the whole bias row, at every point. -/
theorem pbblk_eq (c : Dev nD) (t : Fin cfg1.N) :
    (iblk1 V c 5 t : Vec F S1x1024 .f32) = (V c main_v8 : Vec F S1x1024 .f32) := by
  obtain ⟨-, -, -, -, -, ⟨e0, e1⟩, -⟩ := idx1_facts t
  funext j
  unfold iblk1
  rw [View.read_apply]
  show V c main_v8 (((cfg1.win 5).blk t).view.emb j) = V c main_v8 j
  refine congrArg (V c main_v8) (funext fun a => Fin.ext ?_)
  match a with
  | ⟨0, _⟩ => show win1_5.index t (0 : Fin 2) * 1 + 1 * (j 0).val = (j 0).val; omega
  | ⟨1, _⟩ => show win1_5.index t (1 : Fin 2) * 1024 + 1 * (j 1).val = (j 1).val; omega

/-- The query block is the same at the four key/value steps of one (batch, query tile) pair. -/
theorem qblk_const (c : Dev nD) (t t' : Fin cfg1.N) (h : t.val / 4 = t'.val / 4) :
    (iblk1 V c 0 t : Vec F S1x1024x1024 .bf16) = (iblk1 V c 0 t' : Vec F S1x1024x1024 .bf16) := by
  refine funext fun (j : S1x1024x1024.Idx) => ?_
  have ht := val_lt_32 t
  have hj1 : (j 1).val < 1024 := (j 1).isLt
  have hj2 : (j 2).val < 1024 := (j 2).isLt
  have e := qblk_apply V c t j (ix3 (⟨t.val / 8, by omega⟩ : Fin 4) (⟨1024 * (t.val / 4 % 2) + (j 1).val, by omega⟩ : Fin 2048)
    (⟨(j 2).val, hj2⟩ : Fin 1024)) rfl rfl rfl
  have e' := qblk_apply V c t' j (ix3 (⟨t.val / 8, by omega⟩ : Fin 4) (⟨1024 * (t.val / 4 % 2) + (j 1).val, by omega⟩ : Fin 2048)
    (⟨(j 2).val, hj2⟩ : Fin 1024)) (by show t.val / 8 = t'.val / 8; omega)
    (by show 1024 * (t.val / 4 % 2) + (j 1).val = 1024 * (t'.val / 4 % 2) + (j 1).val; rw [h]) rfl
  exact e.trans e'.symm

end AnyFloats

/-! ## Blocks of arrays of real numbers are blocks of real numbers -/

section AtIdeal

open Cert.Spec (AllReal)

variable (V : (c : Dev nD) → (b : Ref sig .tc) → Buf (Elt Ideal) ((c : Thread nD τ).loc b))

theorem qblk_real (c : Dev nD) (t : Fin cfg1.N) (h : AllReal (V c main_v4 : Vec Ideal S4x2048x1024 .bf16)) :
    AllReal (iblk1 V c 0 t : Vec Ideal S1x1024x1024 .bf16) := fun j => by
  have ht := val_lt_32 t
  have hj1 : (j 1).val < 1024 := (j 1).isLt
  have hj2 : (j 2).val < 1024 := (j 2).isLt
  rw [qblk_apply V c t j (ix3 (⟨t.val / 8, by omega⟩ : Fin 4) (⟨1024 * (t.val / 4 % 2) + (j 1).val, by omega⟩ : Fin 2048)
    (⟨(j 2).val, hj2⟩ : Fin 1024)) rfl rfl rfl]
  exact h _

theorem kblk_real (c : Dev nD) (t : Fin cfg1.N) (h : AllReal (V c main_v5 : Vec Ideal S4x2048x1024 .bf16)) :
    AllReal (iblk1 V c 1 t : Vec Ideal S1x512x1024 .bf16) := fun j => by
  have ht := val_lt_32 t
  have hj1 : (j 1).val < 512 := (j 1).isLt
  have hj2 : (j 2).val < 1024 := (j 2).isLt
  rw [kblk_apply V c t j (ix3 (⟨t.val / 8, by omega⟩ : Fin 4) (⟨512 * (t.val % 4) + (j 1).val, by omega⟩ : Fin 2048)
    (⟨(j 2).val, hj2⟩ : Fin 1024)) rfl rfl rfl]
  exact h _

theorem vblk_real (c : Dev nD) (t : Fin cfg1.N) (h : AllReal (V c main_v6 : Vec Ideal S4x2048x1024 .bf16)) :
    AllReal (iblk1 V c 2 t : Vec Ideal S1x512x1024 .bf16) := fun j => by
  have ht := val_lt_32 t
  have hj1 : (j 1).val < 512 := (j 1).isLt
  have hj2 : (j 2).val < 1024 := (j 2).isLt
  rw [vblk_apply V c t j (ix3 (⟨t.val / 8, by omega⟩ : Fin 4) (⟨512 * (t.val % 4) + (j 1).val, by omega⟩ : Fin 2048)
    (⟨(j 2).val, hj2⟩ : Fin 1024)) rfl rfl rfl]
  exact h _

theorem bblk_real (c : Dev nD) (t : Fin cfg1.N) (h : AllReal (V c main_arg1 : Vec Ideal S4x2048x2048 .f32)) :
    AllReal (iblk1 V c 3 t : Vec Ideal S1x1024x512 .f32) := fun j => by
  have ht := val_lt_32 t
  have hj1 : (j 1).val < 1024 := (j 1).isLt
  have hj2 : (j 2).val < 512 := (j 2).isLt
  rw [bblk_apply V c t j (ix3 (⟨t.val / 8, by omega⟩ : Fin 4) (⟨1024 * (t.val / 4 % 2) + (j 1).val, by omega⟩ : Fin 2048)
    (⟨512 * (t.val % 4) + (j 2).val, by omega⟩ : Fin 2048)) rfl rfl rfl]
  exact h _

theorem wblk_real (c : Dev nD) (t : Fin cfg1.N) (h : AllReal (V c main_v7 : Vec Ideal S1024x1024 .bf16)) :
    AllReal (iblk1 V c 4 t : Vec Ideal S1024x1024 .bf16) := by
  rw [wblk_eq V c t]; exact h

theorem pbblk_real (c : Dev nD) (t : Fin cfg1.N) (h : AllReal (V c main_v8 : Vec Ideal S1x1024 .f32)) :
    AllReal (iblk1 V c 5 t : Vec Ideal S1x1024 .f32) := by
  rw [pbblk_eq V c t]; exact h

end AtIdeal

/-! ## The output's blocks cover the output array -/

/-- An index of the output array is in point t's block iff each coordinate is in the block's range on its axis. -/
theorem mem_blk1_6 (t : Fin cfg1.N) (i : S4x2048x1024.Idx) :
    i ∈ ((cfg1.win 6).blk t).view.set ↔ ∀ a : Fin 3, win1_6.index t a * S1x1024x1024.size a ≤ (i a).val
      ∧ (i a).val < win1_6.index t a * S1x1024x1024.size a + S1x1024x1024.size a := by
  show i ∈ ((View.whole main_v9).slice (win1_6.rect t)).set ↔ _
  rw [View.set_slice_whole, Rect.mem_set_unit]
  exact Iff.rfl

/-- Index (b, s, p) is in the block written back at the last key/value step of (b, s / 1024). -/
theorem cover1_6 (i : S4x2048x1024.Idx) :
    ∃ t : Fin cfg1.N, (cfg1.win 6).flush t = true ∧ i ∈ ((cfg1.win 6).blk t).view.set := by
  have h0 : (i 0).val < 4 := (i 0).isLt
  have h1 : (i 1).val < 2048 := (i 1).isLt
  have h2 : (i 2).val < 1024 := (i 2).isLt
  have hv := pt_val ⟨(i 0).val, h0⟩ ⟨(i 1).val / 1024, by omega⟩ 3
  dsimp only at hv
  obtain ⟨-, -, -, -, -, -, ⟨e0, e1, e2⟩⟩ := idx1_facts (pt ⟨(i 0).val, h0⟩ ⟨(i 1).val / 1024, by omega⟩ 3)
  refine ⟨pt ⟨(i 0).val, h0⟩ ⟨(i 1).val / 1024, by omega⟩ 3, (flush1_6 _).mpr (by omega), ?_⟩
  rw [mem_blk1_6]
  intro a
  match a with
  | ⟨0, _⟩ =>
    show win1_6.index _ (0 : Fin 3) * 1 ≤ (i 0).val ∧ (i 0).val < win1_6.index _ (0 : Fin 3) * 1 + 1
    omega
  | ⟨1, _⟩ =>
    show win1_6.index _ (1 : Fin 3) * 1024 ≤ (i 1).val ∧ (i 1).val < win1_6.index _ (1 : Fin 3) * 1024 + 1024
    omega
  | ⟨2, _⟩ =>
    show win1_6.index _ (2 : Fin 3) * 1024 ≤ (i 2).val ∧ (i 2).val < win1_6.index _ (2 : Fin 3) * 1024 + 1024
    omega

end Cert.KernelIdeal.Hand

end
-- ==== Proof.KI.Steps.lean ====
/-
  One grid point of the attention kernel as a function of its blocks, through the named payloads of the body:
  the running row maximum, the running row sum of exponentials and the running weighted sum of value rows
  after a key/value block, from their values before it; and the output block from the last two.
-/
import proofs.«419060_j65541200937045_3_alg».proof.Proof.Gen.KernelIdeal.Skeleton

noncomputable section

namespace Cert.KernelIdeal.Hand

open Cert.KernelIdeal Cert.KernelIdeal.Gen
open Idealize.ShloMosaic

variable {F : FTy → Type} [FloatOps F]

/-- The three quantities carried from one key/value block to the next: the running maximum m (a column over the
    1024 query rows), the running sum l of exponentials, the running weighted sum acc of value rows. -/
abbrev St (F : FTy → Type) [FloatOps F] : Type := Vec F S1024x1 .f32 × Vec F S1024x1 .f32 × Vec F S1024x1024 .f32

/-- m' = max(m, row maxima of the block's scores). -/
def mStep (q : Vec F S1x1024x1024 .bf16) (k : Vec F S1x512x1024 .bf16) (b : Vec F S1x1024x512 .f32)
    (mOld : Vec F S1024x1 .f32) : Vec F S1024x1 .f32 :=
  k1_pay3 (k1_pay10 q k b mOld)

/-- l' = exp(m − m') · l + row sums of exp(scores − m'). -/
def lStep (q : Vec F S1x1024x1024 .bf16) (k : Vec F S1x512x1024 .bf16) (b : Vec F S1x1024x512 .f32)
    (mOld lOld : Vec F S1024x1 .f32) : Vec F S1024x1 .f32 :=
  k1_pay1 (k1_pay13 q k b mOld mOld lOld)

/-- acc' = exp(m − m') · acc + exp(scores − m') · v. -/
def accStep (q : Vec F S1x1024x1024 .bf16) (k v : Vec F S1x512x1024 .bf16) (b : Vec F S1x1024x512 .f32)
    (mOld : Vec F S1024x1 .f32) (accOld : Vec F S1024x1024 .f32) : Vec F S1024x1024 .f32 :=
  k1_pay2 (k1_pay8 v) (k1_pay11 q k b mOld mOld) (k1_pay12 q k b mOld) accOld

/-- The three quantities after a block. -/
def stepSt (q : Vec F S1x1024x1024 .bf16) (k v : Vec F S1x512x1024 .bf16) (b : Vec F S1x1024x512 .f32) (s : St F) : St F :=
  (mStep q k b s.1, lStep q k b s.1 s.2.1, accStep q k v b s.1 s.2.2)

/-- Their values before the first block of a query tile: the finite floor, zero, zero. -/
def st0 : St F := (k1_pay5, k1_pay6, k1_pay7)

/-- Their values after key/value blocks 0 … n of a query tile. -/
def stN (q : Vec F S1x1024x1024 .bf16) (K V : ℕ → Vec F S1x512x1024 .bf16) (B : ℕ → Vec F S1x1024x512 .f32) : ℕ → St F
  | 0 => stepSt q (K 0) (V 0) (B 0) st0
  | n + 1 => stepSt q (K (n + 1)) (V (n + 1)) (B (n + 1)) (stN q K V B n)

/-- The output block: (acc / l) · pw + pb. -/
def outFin (acc : Vec F S1024x1024 .f32) (l : Vec F S1024x1 .f32) (pw : Vec F S1024x1024 .bf16) (pb : Vec F S1x1024 .f32) :
    Vec F S1x1024x1024 .f32 :=
  k1_pay4 acc l pw pb

end Cert.KernelIdeal.Hand

end
-- ==== Proof.KI.R1Steps.lean ====
/- Region 1: the carried state point by point IS the step function of the blocks. Each case's pieces, read back, are
   the named payloads of the body applied to the point's input blocks and to the state before: at a reset point the
   step from the reset state, at a middle or last point the step from what the point before left; and at a last point
   the output block is the finishing function of the state this point leaves and the projection's blocks. -/
import proofs.«419060_j65541200937045_3_alg».proof.Proof.KI.R1
import proofs.«419060_j65541200937045_3_alg».proof.Proof.KI.Steps
import Idealize.ShloMosaic.Lib.Pipeline.Value

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- The stores and loads of this body all start at offset zero of their buffers. -/
theorem off2_zero : (![0, 0] : Fin 2 → Nat) = fun _ => 0 := funext fun a => by fin_cases a <;> rfl
theorem off3_zero : (![0, 0, 0] : Fin 3 → Nat) = fun _ => 0 := funext fun a => by fin_cases a <;> rfl

/-! ## The pieces each case finds, as payloads of the blocks -/

/-- At a reset point scratch 0 ends holding the new running maximum of the step from the reset state: the later of its two stores
    covers the buffer, and the loads between the two stores read the reset values just stored. -/
theorem sout1_A_0_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) :
    sout1_A_0 c i arg3 harg3 arg4 harg4 arg5 harg5 arg6 harg6 arg7 harg7 arg8 harg8 arg9 harg9 arg10 harg10 arg11 harg11 arg12 harg12 hc0 hc1 x0 x1 x2 x3 x4 x5 = mStep x0 x1 x3 k1_pay5 := by
  unfold sout1_A_0
  rw [View.read_writes_eq_canon _ _ _ (scover1_A_0 c i arg3 harg3 arg4 harg4 arg5 harg5 arg6 harg6 arg7 harg7 arg8 harg8 arg9 harg9 arg10 harg10 arg11 harg11 arg12 harg12 hc0 hc1 x0 x1 x2 x3 x4 x5)]
  unfold kernelRun1_A
  dsimp only
  sl_unfold_words
  rw [View.canon_cons_unit_zero (S := S1024x1) off2_zero]
  unfold mStep
  simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x1024) off3_zero, View.ld_unit_zero (S := S1x512x1024) off3_zero, View.ld_unit_zero (S := S1x1024x512) off3_zero, View.ld_unit_zero (S := S1024x1) off2_zero, View.ld_unit_zero (S := S1024x1024) off2_zero, View.ld_unit_zero (S := S1x1024) off2_zero, View.readCov_unit_zero (S := S1024x1) _ off2_zero, View.readCov_unit_zero (S := S1024x1024) _ off2_zero]

/-- At a reset point scratch 1 ends holding the new running sum of the step from the reset state: the later of its two stores
    covers the buffer, and the loads between the two stores read the reset values just stored. -/
theorem sout1_A_1_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) :
    sout1_A_1 c i arg3 harg3 arg4 harg4 arg5 harg5 arg6 harg6 arg7 harg7 arg8 harg8 arg9 harg9 arg10 harg10 arg11 harg11 arg12 harg12 hc0 hc1 x0 x1 x2 x3 x4 x5 = lStep x0 x1 x3 k1_pay5 k1_pay6 := by
  unfold sout1_A_1
  rw [View.read_writes_eq_canon _ _ _ (scover1_A_1 c i arg3 harg3 arg4 harg4 arg5 harg5 arg6 harg6 arg7 harg7 arg8 harg8 arg9 harg9 arg10 harg10 arg11 harg11 arg12 harg12 hc0 hc1 x0 x1 x2 x3 x4 x5)]
  unfold kernelRun1_A
  dsimp only
  sl_unfold_words
  rw [View.canon_cons_unit_zero (S := S1024x1) off2_zero]
  unfold lStep
  simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x1024) off3_zero, View.ld_unit_zero (S := S1x512x1024) off3_zero, View.ld_unit_zero (S := S1x1024x512) off3_zero, View.ld_unit_zero (S := S1024x1) off2_zero, View.ld_unit_zero (S := S1024x1024) off2_zero, View.ld_unit_zero (S := S1x1024) off2_zero, View.readCov_unit_zero (S := S1024x1) _ off2_zero, View.readCov_unit_zero (S := S1024x1024) _ off2_zero]

/-- At a reset point scratch 2 ends holding the new accumulator of the step from the reset state: the later of its two stores
    covers the buffer, and the loads between the two stores read the reset values just stored. -/
theorem sout1_A_2_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) :
    sout1_A_2 c i arg3 harg3 arg4 harg4 arg5 harg5 arg6 harg6 arg7 harg7 arg8 harg8 arg9 harg9 arg10 harg10 arg11 harg11 arg12 harg12 hc0 hc1 x0 x1 x2 x3 x4 x5 = accStep x0 x1 x2 x3 k1_pay5 k1_pay7 := by
  unfold sout1_A_2
  rw [View.read_writes_eq_canon _ _ _ (scover1_A_2 c i arg3 harg3 arg4 harg4 arg5 harg5 arg6 harg6 arg7 harg7 arg8 harg8 arg9 harg9 arg10 harg10 arg11 harg11 arg12 harg12 hc0 hc1 x0 x1 x2 x3 x4 x5)]
  unfold kernelRun1_A
  dsimp only
  sl_unfold_words
  rw [View.canon_cons_unit_zero (S := S1024x1024) off2_zero]
  unfold accStep
  simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x1024) off3_zero, View.ld_unit_zero (S := S1x512x1024) off3_zero, View.ld_unit_zero (S := S1x1024x512) off3_zero, View.ld_unit_zero (S := S1024x1) off2_zero, View.ld_unit_zero (S := S1024x1024) off2_zero, View.ld_unit_zero (S := S1x1024) off2_zero, View.readCov_unit_zero (S := S1024x1) _ off2_zero, View.readCov_unit_zero (S := S1024x1024) _ off2_zero]

/-- At a middle point (kv = 1, 2) scratch 0 ends holding the new running maximum of the step from the carried state: its one covering
    store's payload, whose loads read the whole buffers. -/
theorem sout1_B_0_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) :
    sout1_B_0 c i arg3 harg3 arg4 harg4 arg5 harg5 arg6 harg6 arg7 harg7 arg8 harg8 arg9 harg9 arg10 harg10 arg11 harg11 arg12 harg12 hc0 hc1 x0 x1 x2 x3 x4 x5 xs0 xs1 xs2 = mStep x0 x1 x3 xs0 := by
  unfold sout1_B_0
  rw [View.read_writes_eq_canon _ _ _ (scover1_B_0 c i arg3 harg3 arg4 harg4 arg5 harg5 arg6 harg6 arg7 harg7 arg8 harg8 arg9 harg9 arg10 harg10 arg11 harg11 arg12 harg12 hc0 hc1 x0 x1 x2 x3 x4 x5 xs0 xs1 xs2)]
  unfold kernelRun1_B
  dsimp only
  sl_unfold_words
  rw [View.canon_unit_zero (S := S1024x1) off2_zero]
  unfold mStep
  simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x1024) off3_zero, View.ld_unit_zero (S := S1x512x1024) off3_zero, View.ld_unit_zero (S := S1x1024x512) off3_zero, View.ld_unit_zero (S := S1024x1) off2_zero, View.ld_unit_zero (S := S1024x1024) off2_zero, View.ld_unit_zero (S := S1x1024) off2_zero]

/-- At a middle point (kv = 1, 2) scratch 1 ends holding the new running sum of the step from the carried state: its one covering
    store's payload, whose loads read the whole buffers. -/
theorem sout1_B_1_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) :
    sout1_B_1 c i arg3 harg3 arg4 harg4 arg5 harg5 arg6 harg6 arg7 harg7 arg8 harg8 arg9 harg9 arg10 harg10 arg11 harg11 arg12 harg12 hc0 hc1 x0 x1 x2 x3 x4 x5 xs0 xs1 xs2 = lStep x0 x1 x3 xs0 xs1 := by
  unfold sout1_B_1
  rw [View.read_writes_eq_canon _ _ _ (scover1_B_1 c i arg3 harg3 arg4 harg4 arg5 harg5 arg6 harg6 arg7 harg7 arg8 harg8 arg9 harg9 arg10 harg10 arg11 harg11 arg12 harg12 hc0 hc1 x0 x1 x2 x3 x4 x5 xs0 xs1 xs2)]
  unfold kernelRun1_B
  dsimp only
  sl_unfold_words
  rw [View.canon_unit_zero (S := S1024x1) off2_zero]
  unfold lStep
  simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x1024) off3_zero, View.ld_unit_zero (S := S1x512x1024) off3_zero, View.ld_unit_zero (S := S1x1024x512) off3_zero, View.ld_unit_zero (S := S1024x1) off2_zero, View.ld_unit_zero (S := S1024x1024) off2_zero, View.ld_unit_zero (S := S1x1024) off2_zero]

/-- At a middle point (kv = 1, 2) scratch 2 ends holding the new accumulator of the step from the carried state: its one covering
    store's payload, whose loads read the whole buffers. -/
theorem sout1_B_2_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : ¬cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) :
    sout1_B_2 c i arg3 harg3 arg4 harg4 arg5 harg5 arg6 harg6 arg7 harg7 arg8 harg8 arg9 harg9 arg10 harg10 arg11 harg11 arg12 harg12 hc0 hc1 x0 x1 x2 x3 x4 x5 xs0 xs1 xs2 = accStep x0 x1 x2 x3 xs0 xs2 := by
  unfold sout1_B_2
  rw [View.read_writes_eq_canon _ _ _ (scover1_B_2 c i arg3 harg3 arg4 harg4 arg5 harg5 arg6 harg6 arg7 harg7 arg8 harg8 arg9 harg9 arg10 harg10 arg11 harg11 arg12 harg12 hc0 hc1 x0 x1 x2 x3 x4 x5 xs0 xs1 xs2)]
  unfold kernelRun1_B
  dsimp only
  sl_unfold_words
  rw [View.canon_unit_zero (S := S1024x1024) off2_zero]
  unfold accStep
  simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x1024) off3_zero, View.ld_unit_zero (S := S1x512x1024) off3_zero, View.ld_unit_zero (S := S1x1024x512) off3_zero, View.ld_unit_zero (S := S1024x1) off2_zero, View.ld_unit_zero (S := S1024x1024) off2_zero, View.ld_unit_zero (S := S1x1024) off2_zero]

/-- At a last point (kv = 3) scratch 0 ends holding the new running maximum of the step from the carried state: its one covering
    store's payload, whose loads read the whole buffers. -/
theorem sout1_C_0_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) :
    sout1_C_0 c i arg3 harg3 arg4 harg4 arg5 harg5 arg6 harg6 arg7 harg7 arg8 harg8 arg9 harg9 arg10 harg10 arg11 harg11 arg12 harg12 hc0 hc1 x0 x1 x2 x3 x4 x5 xs0 xs1 xs2 = mStep x0 x1 x3 xs0 := by
  unfold sout1_C_0
  rw [View.read_writes_eq_canon _ _ _ (scover1_C_0 c i arg3 harg3 arg4 harg4 arg5 harg5 arg6 harg6 arg7 harg7 arg8 harg8 arg9 harg9 arg10 harg10 arg11 harg11 arg12 harg12 hc0 hc1 x0 x1 x2 x3 x4 x5 xs0 xs1 xs2)]
  unfold kernelRun1_C
  dsimp only
  sl_unfold_words
  rw [View.canon_unit_zero (S := S1024x1) off2_zero]
  unfold mStep
  simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x1024) off3_zero, View.ld_unit_zero (S := S1x512x1024) off3_zero, View.ld_unit_zero (S := S1x1024x512) off3_zero, View.ld_unit_zero (S := S1024x1) off2_zero, View.ld_unit_zero (S := S1024x1024) off2_zero, View.ld_unit_zero (S := S1x1024) off2_zero]

/-- At a last point (kv = 3) scratch 1 ends holding the new running sum of the step from the carried state: its one covering
    store's payload, whose loads read the whole buffers. -/
theorem sout1_C_1_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) :
    sout1_C_1 c i arg3 harg3 arg4 harg4 arg5 harg5 arg6 harg6 arg7 harg7 arg8 harg8 arg9 harg9 arg10 harg10 arg11 harg11 arg12 harg12 hc0 hc1 x0 x1 x2 x3 x4 x5 xs0 xs1 xs2 = lStep x0 x1 x3 xs0 xs1 := by
  unfold sout1_C_1
  rw [View.read_writes_eq_canon _ _ _ (scover1_C_1 c i arg3 harg3 arg4 harg4 arg5 harg5 arg6 harg6 arg7 harg7 arg8 harg8 arg9 harg9 arg10 harg10 arg11 harg11 arg12 harg12 hc0 hc1 x0 x1 x2 x3 x4 x5 xs0 xs1 xs2)]
  unfold kernelRun1_C
  dsimp only
  sl_unfold_words
  rw [View.canon_unit_zero (S := S1024x1) off2_zero]
  unfold lStep
  simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x1024) off3_zero, View.ld_unit_zero (S := S1x512x1024) off3_zero, View.ld_unit_zero (S := S1x1024x512) off3_zero, View.ld_unit_zero (S := S1024x1) off2_zero, View.ld_unit_zero (S := S1024x1024) off2_zero, View.ld_unit_zero (S := S1x1024) off2_zero]

/-- At a last point (kv = 3) scratch 2 ends holding the new accumulator of the step from the carried state: its one covering
    store's payload, whose loads read the whole buffers. -/
theorem sout1_C_2_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) :
    sout1_C_2 c i arg3 harg3 arg4 harg4 arg5 harg5 arg6 harg6 arg7 harg7 arg8 harg8 arg9 harg9 arg10 harg10 arg11 harg11 arg12 harg12 hc0 hc1 x0 x1 x2 x3 x4 x5 xs0 xs1 xs2 = accStep x0 x1 x2 x3 xs0 xs2 := by
  unfold sout1_C_2
  rw [View.read_writes_eq_canon _ _ _ (scover1_C_2 c i arg3 harg3 arg4 harg4 arg5 harg5 arg6 harg6 arg7 harg7 arg8 harg8 arg9 harg9 arg10 harg10 arg11 harg11 arg12 harg12 hc0 hc1 x0 x1 x2 x3 x4 x5 xs0 xs1 xs2)]
  unfold kernelRun1_C
  dsimp only
  sl_unfold_words
  rw [View.canon_unit_zero (S := S1024x1024) off2_zero]
  unfold accStep
  simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x1024) off3_zero, View.ld_unit_zero (S := S1x512x1024) off3_zero, View.ld_unit_zero (S := S1x1024x512) off3_zero, View.ld_unit_zero (S := S1024x1) off2_zero, View.ld_unit_zero (S := S1024x1024) off2_zero, View.ld_unit_zero (S := S1x1024) off2_zero]

/-- At a last point the output's buffer ends holding the output block computed from the accumulator and the running sum
    THIS point has just stored (the final loads read those stores) and the projection's weight and bias blocks. -/
theorem out1_C_6_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) :
    out1_C_6 c i arg3 harg3 arg4 harg4 arg5 harg5 arg6 harg6 arg7 harg7 arg8 harg8 arg9 harg9 arg10 harg10 arg11 harg11 arg12 harg12 hc0 hc1 x0 x1 x2 x3 x4 x5 xs0 xs1 xs2 = outFin (accStep x0 x1 x2 x3 xs0 xs2) (lStep x0 x1 x3 xs0 xs1) x4 x5 := by
  unfold out1_C_6
  rw [View.read_writes_eq_canon _ _ _ (cover1_C_6 c i arg3 harg3 arg4 harg4 arg5 harg5 arg6 harg6 arg7 harg7 arg8 harg8 arg9 harg9 arg10 harg10 arg11 harg11 arg12 harg12 hc0 hc1 x0 x1 x2 x3 x4 x5 xs0 xs1 xs2)]
  unfold kernelRun1_C
  dsimp only
  sl_unfold_words
  rw [View.canon_unit_zero (S := S1x1024x1024) off3_zero]
  unfold outFin accStep lStep
  simp only [View.readAt_eq_ld, harg3.read_unread, harg4.read_unread, harg5.read_unread, harg6.read_unread, harg7.read_unread, harg8.read_unread, harg9.read_unread, harg10.read_unread, harg11.read_unread, harg12.read_unread, View.ld_unit_zero (S := S1x1024x1024) off3_zero, View.ld_unit_zero (S := S1x512x1024) off3_zero, View.ld_unit_zero (S := S1x1024x512) off3_zero, View.ld_unit_zero (S := S1024x1) off2_zero, View.ld_unit_zero (S := S1024x1024) off2_zero, View.ld_unit_zero (S := S1x1024) off2_zero, View.readCov_unit_zero (S := S1024x1) _ off2_zero, View.readCov_unit_zero (S := S1024x1024) _ off2_zero]

/-- The same over what the point leaves in the two scratch buffers. -/
theorem out1_C_6_eq_sout (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x512 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024x1024 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond1_0 i) (hc1 : cond1_1 i)
    (x0 : Vec F S1x1024x1024 .bf16) (x1 : Vec F S1x512x1024 .bf16) (x2 : Vec F S1x512x1024 .bf16) (x3 : Vec F S1x1024x512 .f32) (x4 : Vec F S1024x1024 .bf16) (x5 : Vec F S1x1024 .f32) (xs0 : Vec F S1024x1 .f32) (xs1 : Vec F S1024x1 .f32) (xs2 : Vec F S1024x1024 .f32) :
    out1_C_6 c i arg3 harg3 arg4 harg4 arg5 harg5 arg6 harg6 arg7 harg7 arg8 harg8 arg9 harg9 arg10 harg10 arg11 harg11 arg12 harg12 hc0 hc1 x0 x1 x2 x3 x4 x5 xs0 xs1 xs2 = outFin (sout1_C_2 c i arg3 harg3 arg4 harg4 arg5 harg5 arg6 harg6 arg7 harg7 arg8 harg8 arg9 harg9 arg10 harg10 arg11 harg11 arg12 harg12 hc0 hc1 x0 x1 x2 x3 x4 x5 xs0 xs1 xs2) (sout1_C_1 c i arg3 harg3 arg4 harg4 arg5 harg5 arg6 harg6 arg7 harg7 arg8 harg8 arg9 harg9 arg10 harg10 arg11 harg11 arg12 harg12 hc0 hc1 x0 x1 x2 x3 x4 x5 xs0 xs1 xs2) x4 x5 :=
  (out1_C_6_eq c i arg3 harg3 arg4 harg4 arg5 harg5 arg6 harg6 arg7 harg7 arg8 harg8 arg9 harg9 arg10 harg10 arg11 harg11 arg12 harg12 hc0 hc1 x0 x1 x2 x3 x4 x5 xs0 xs1 xs2).trans
    (congrArg₂ (fun a l => outFin a l x4 x5) (sout1_C_2_eq c i arg3 harg3 arg4 harg4 arg5 harg5 arg6 harg6 arg7 harg7 arg8 harg8 arg9 harg9 arg10 harg10 arg11 harg11 arg12 harg12 hc0 hc1 x0 x1 x2 x3 x4 x5 xs0 xs1 xs2).symm (sout1_C_1_eq c i arg3 harg3 arg4 harg4 arg5 harg5 arg6 harg6 arg7 harg7 arg8 harg8 arg9 harg9 arg10 harg10 arg11 harg11 arg12 harg12 hc0 hc1 x0 x1 x2 x3 x4 x5 xs0 xs1 xs2).symm)

/-! ## The carried state as steps -/

/-- At the first key/value tile of a query tile the state is one step from the reset state. -/
theorem outsAt1_first (c : Dev nD) (t : Fin cfg1.N) (h0 : t.val % 4 = 0) :
    (outsAt1 V c t.val t.isLt).2 = stepSt (iblk1 V c 0 t) (iblk1 V c 1 t) (iblk1 V c 2 t) (iblk1 V c 3 t) st0 := by
  have h1 : ¬t.val % 4 = 3 := by omega
  rw [outsAt1_A V c t h0 h1]
  unfold stepSt st0
  dsimp only
  exact (congrArg₂ Prod.mk (sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) (congrArg₂ Prod.mk (sout1_A_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) (sout1_A_2_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))))

/-- At a later key/value tile the state is one step from what the point before left. -/
theorem outsAt1_next (c : Dev nD) (t : Fin cfg1.N) (h0 : t.val % 4 ≠ 0) :
    (outsAt1 V c t.val t.isLt).2 = stepSt (iblk1 V c 0 t) (iblk1 V c 1 t) (iblk1 V c 2 t) (iblk1 V c 3 t) (outsAt1 V c (t.val - 1) (Nat.lt_of_le_of_lt (Nat.sub_le _ _) t.isLt)).2 := by
  by_cases h1 : t.val % 4 = 3
  · rw [outsAt1_C V c t h0 h1]
    unfold stepSt
    dsimp only
    exact (congrArg₂ Prod.mk (sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) (congrArg₂ Prod.mk (sout1_C_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) (sout1_C_2_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)))
  · rw [outsAt1_B V c t h0 h1]
    unfold stepSt
    dsimp only
    exact (congrArg₂ Prod.mk (sout1_B_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) (congrArg₂ Prod.mk (sout1_B_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) (sout1_B_2_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2)))

/-- At the last key/value tile the output block is the finishing function of the state the point leaves. -/
theorem outsAt1_out (c : Dev nD) (t : Fin cfg1.N) (h3 : t.val % 4 = 3) :
    (outsAt1 V c t.val t.isLt).1 = outFin (outsAt1 V c t.val t.isLt).2.2.2 (outsAt1 V c t.val t.isLt).2.2.1 (iblk1 V c 4 t) (iblk1 V c 5 t) := by
  have h0 : ¬t.val % 4 = 0 := by omega
  have h1 : t.val % 4 = 3 := h3
  rw [outsAt1_C V c t h0 h1]
  dsimp only
  exact out1_C_6_eq_sout c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2

end Cert.KernelIdeal.Hand

end
-- ==== Proof.KI.StepMath1.lean ====
/-
  The payloads of the attention kernel's body read at an index, at the ideal values (extended reals, every
  operation exact, a format change the identity).

  With q : [1,1024,1024], k, v : [1,512,1024], b : [1,1024,512] one block each, and r a query row, j a key row of
  the block, a, p feature coordinates:
    scores      s(r,j)   = (Σ_a q[0,r,a] · k[0,j,a]) · c + b[0,r,j]          (c the constant word 0x3D000000)
    new maximum m'(r)    = max(m(r), max over j of s(r,j), from -∞)
    rescale     e(r)     = exp(m(r) − m'(r))
    weights     w(r,j)   = exp(s(r,j) − m'(r))
    new sum     l'(r)    = e(r) · l(r) + Σ_j w(r,j)
    new acc     A'(r,a)  = e(r) · A(r,a) + Σ_j w(r,j) · v[0,j,a]
    output      o(0,r,p) = Σ_a (A(r,a) / l(r)) · pw[a,p] + pb[0,p].
  Each product of matrices is read as the sum over its one contracted axis; the three products have their own
  dimension records, and for each the four coordinate facts of the operand indices are stated apart.
-/
import proofs.«419060_j65541200937045_3_alg».proof.Proof.KI.Steps
import proofs.«419060_j65541200937045_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Cert.Spec Idealize.ShloMosaic Idealize.ShloMosaic.ValueIdx

/-! ## Two layout operations on a column -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product q · kᵀ: both operands contracted along their axis 1 -/

theorem lhs_qk_0 (i : S1024x512.Idx) (c : dot_S1024x1024_S512x1024_S1024x512_1_1_0_0_n_n.contr.Idx) :
    (dot_S1024x1024_S512x1024_S1024x512_1_1_0_0_n_n.lhsIdx i c 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhs_qk_1 (i : S1024x512.Idx) (c : dot_S1024x1024_S512x1024_S1024x512_1_1_0_0_n_n.contr.Idx) :
    (dot_S1024x1024_S512x1024_S1024x512_1_1_0_0_n_n.lhsIdx i c 1).val = (c ⟨0, by decide⟩).val :=
  dot_S1024x1024_S512x1024_S1024x512_1_1_0_0_n_n.lhsIdx_val_of_single rfl i c
theorem rhs_qk_0 (i : S1024x512.Idx) (c : dot_S1024x1024_S512x1024_S1024x512_1_1_0_0_n_n.contr.Idx) :
    (dot_S1024x1024_S512x1024_S1024x512_1_1_0_0_n_n.rhsIdx i c 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhs_qk_1 (i : S1024x512.Idx) (c : dot_S1024x1024_S512x1024_S1024x512_1_1_0_0_n_n.contr.Idx) :
    (dot_S1024x1024_S512x1024_S1024x512_1_1_0_0_n_n.rhsIdx i c 1).val = (c ⟨0, by decide⟩).val :=
  dot_S1024x1024_S512x1024_S1024x512_1_1_0_0_n_n.rhsIdx_val_of_single rfl i c

/-- q · kᵀ at (r, j): the sum over the feature coordinate of the two rows' products. -/
theorem matmul_qk_apply (x : FVec Ideal S1024x1024 .bf16) (y : FVec Ideal S512x1024 .bf16) (r : Fin 1024) (j : Fin 512) :
    matmul dot_S1024x1024_S512x1024_S1024x512_1_1_0_0_n_n none x y (constant (F := Ideal) S1024x512 .f32 0x00000000#32) (ix2 r j)
      = ∑ a : Fin 1024, x (ix2 r a) * y (ix2 j a) := by
  simp only [matmul]
  rw [Ideal.matmul_constant_zero_apply, ← Equiv.sum_comp (contrEquiv1 dot_S1024x1024_S512x1024_S1024x512_1_1_0_0_n_n 1024 rfl rfl).symm]
  refine Finset.sum_congr rfl fun a _ => ?_
  have hk := contrEquiv1_symm_val dot_S1024x1024_S512x1024_S1024x512_1_1_0_0_n_n 1024 rfl rfl a
  have el : dot_S1024x1024_S512x1024_S1024x512_1_1_0_0_n_n.lhsIdx (ix2 r j) ((contrEquiv1 dot_S1024x1024_S512x1024_S1024x512_1_1_0_0_n_n 1024 rfl rfl).symm a) = ix2 r a := funext fun c => Fin.ext (by
    match c with
    | ⟨0, _⟩ => exact lhs_qk_0 _ _
    | ⟨1, _⟩ => exact (lhs_qk_1 _ _).trans hk)
  have er : dot_S1024x1024_S512x1024_S1024x512_1_1_0_0_n_n.rhsIdx (ix2 r j) ((contrEquiv1 dot_S1024x1024_S512x1024_S1024x512_1_1_0_0_n_n 1024 rfl rfl).symm a) = ix2 j a := funext fun c => Fin.ext (by
    match c with
    | ⟨0, _⟩ => exact rhs_qk_0 _ _
    | ⟨1, _⟩ => exact (rhs_qk_1 _ _).trans hk)
  rw [el, er]

/-! ## The product weights · v: the weights' axis 1 against the value block's axis 0 -/

theorem lhs_pv_0 (i : S1024x1024.Idx) (c : dot_S1024x512_S512x1024_S1024x1024_1_0_0_1_n_n.contr.Idx) :
    (dot_S1024x512_S512x1024_S1024x1024_1_0_0_1_n_n.lhsIdx i c 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_pv_1 (i : S1024x1024.Idx) (c : dot_S1024x512_S512x1024_S1024x1024_1_0_0_1_n_n.contr.Idx) :
    (dot_S1024x512_S512x1024_S1024x1024_1_0_0_1_n_n.lhsIdx i c 1).val = (c ⟨0, by decide⟩).val :=
  dot_S1024x512_S512x1024_S1024x1024_1_0_0_1_n_n.lhsIdx_val_of_single rfl i c
theorem rhs_pv_0 (i : S1024x1024.Idx) (c : dot_S1024x512_S512x1024_S1024x1024_1_0_0_1_n_n.contr.Idx) :
    (dot_S1024x512_S512x1024_S1024x1024_1_0_0_1_n_n.rhsIdx i c 0).val = (c ⟨0, by decide⟩).val :=
  dot_S1024x512_S512x1024_S1024x1024_1_0_0_1_n_n.rhsIdx_val_of_single rfl i c
theorem rhs_pv_1 (i : S1024x1024.Idx) (c : dot_S1024x512_S512x1024_S1024x1024_1_0_0_1_n_n.contr.Idx) :
    (dot_S1024x512_S512x1024_S1024x1024_1_0_0_1_n_n.rhsIdx i c 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- weights · v at (r, c): the sum over the block's key rows. -/
theorem matmul_pv_apply (x : FVec Ideal S1024x512 .bf16) (y : FVec Ideal S512x1024 .bf16) (r c : Fin 1024) :
    matmul dot_S1024x512_S512x1024_S1024x1024_1_0_0_1_n_n none x y (constant (F := Ideal) S1024x1024 .f32 0x00000000#32) (ix2 r c)
      = ∑ t : Fin 512, x (ix2 r t) * y (ix2 t c) := by
  simp only [matmul]
  rw [Ideal.matmul_constant_zero_apply, ← Equiv.sum_comp (contrEquiv1 dot_S1024x512_S512x1024_S1024x1024_1_0_0_1_n_n 512 rfl rfl).symm]
  refine Finset.sum_congr rfl fun t _ => ?_
  have hk := contrEquiv1_symm_val dot_S1024x512_S512x1024_S1024x1024_1_0_0_1_n_n 512 rfl rfl t
  have el : dot_S1024x512_S512x1024_S1024x1024_1_0_0_1_n_n.lhsIdx (ix2 r c) ((contrEquiv1 dot_S1024x512_S512x1024_S1024x1024_1_0_0_1_n_n 512 rfl rfl).symm t) = ix2 r t := funext fun d => Fin.ext (by
    match d with
    | ⟨0, _⟩ => exact lhs_pv_0 _ _
    | ⟨1, _⟩ => exact (lhs_pv_1 _ _).trans hk)
  have er : dot_S1024x512_S512x1024_S1024x1024_1_0_0_1_n_n.rhsIdx (ix2 r c) ((contrEquiv1 dot_S1024x512_S512x1024_S1024x1024_1_0_0_1_n_n 512 rfl rfl).symm t) = ix2 t c := funext fun d => Fin.ext (by
    match d with
    | ⟨0, _⟩ => exact (rhs_pv_0 _ _).trans hk
    | ⟨1, _⟩ => exact rhs_pv_1 _ _)
  rw [el, er]

/-! ## The output product context · pw -/

theorem lhs_ow_0 (i : S1024x1024.Idx) (c : dot_S1024x1024_S1024x1024_S1024x1024_1_0_0_1_n_n.contr.Idx) :
    (dot_S1024x1024_S1024x1024_S1024x1024_1_0_0_1_n_n.lhsIdx i c 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_ow_1 (i : S1024x1024.Idx) (c : dot_S1024x1024_S1024x1024_S1024x1024_1_0_0_1_n_n.contr.Idx) :
    (dot_S1024x1024_S1024x1024_S1024x1024_1_0_0_1_n_n.lhsIdx i c 1).val = (c ⟨0, by decide⟩).val :=
  dot_S1024x1024_S1024x1024_S1024x1024_1_0_0_1_n_n.lhsIdx_val_of_single rfl i c
theorem rhs_ow_0 (i : S1024x1024.Idx) (c : dot_S1024x1024_S1024x1024_S1024x1024_1_0_0_1_n_n.contr.Idx) :
    (dot_S1024x1024_S1024x1024_S1024x1024_1_0_0_1_n_n.rhsIdx i c 0).val = (c ⟨0, by decide⟩).val :=
  dot_S1024x1024_S1024x1024_S1024x1024_1_0_0_1_n_n.rhsIdx_val_of_single rfl i c
theorem rhs_ow_1 (i : S1024x1024.Idx) (c : dot_S1024x1024_S1024x1024_S1024x1024_1_0_0_1_n_n.contr.Idx) :
    (dot_S1024x1024_S1024x1024_S1024x1024_1_0_0_1_n_n.rhsIdx i c 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- context · pw at (r, c): the sum over the feature coordinate. -/
theorem matmul_ow_apply (x : FVec Ideal S1024x1024 .bf16) (y : FVec Ideal S1024x1024 .bf16) (r c : Fin 1024) :
    matmul dot_S1024x1024_S1024x1024_S1024x1024_1_0_0_1_n_n none x y (constant (F := Ideal) S1024x1024 .f32 0x00000000#32) (ix2 r c)
      = ∑ t : Fin 1024, x (ix2 r t) * y (ix2 t c) := by
  simp only [matmul]
  rw [Ideal.matmul_constant_zero_apply, ← Equiv.sum_comp (contrEquiv1 dot_S1024x1024_S1024x1024_S1024x1024_1_0_0_1_n_n 1024 rfl rfl).symm]
  refine Finset.sum_congr rfl fun t _ => ?_
  have hk := contrEquiv1_symm_val dot_S1024x1024_S1024x1024_S1024x1024_1_0_0_1_n_n 1024 rfl rfl t
  have el : dot_S1024x1024_S1024x1024_S1024x1024_1_0_0_1_n_n.lhsIdx (ix2 r c) ((contrEquiv1 dot_S1024x1024_S1024x1024_S1024x1024_1_0_0_1_n_n 1024 rfl rfl).symm t) = ix2 r t := funext fun d => Fin.ext (by
    match d with
    | ⟨0, _⟩ => exact lhs_ow_0 _ _
    | ⟨1, _⟩ => exact (lhs_ow_1 _ _).trans hk)
  have er : dot_S1024x1024_S1024x1024_S1024x1024_1_0_0_1_n_n.rhsIdx (ix2 r c) ((contrEquiv1 dot_S1024x1024_S1024x1024_S1024x1024_1_0_0_1_n_n 1024 rfl rfl).symm t) = ix2 t c := funext fun d => Fin.ext (by
    match d with
    | ⟨0, _⟩ => exact (rhs_ow_0 _ _).trans hk
    | ⟨1, _⟩ => exact rhs_ow_1 _ _)
  rw [el, er]

/-! ## The payloads at an index -/

/-- The index a reduction along axis 1 of a `[1024, 512]` block reads at row `r` and coordinate `j`. -/
theorem lift_row (r : Fin 1024) (j : Fin 512) :
    reduces_S1024x512_S1024.lift (ix1 r) j = (ix2 r j : S1024x512.Idx) :=
  funext fun c => Fin.ext (by match c with | ⟨0, _⟩ => rfl | ⟨1, _⟩ => rfl)

/-- The scores of a block: (q · kᵀ) · c + bias. -/
theorem pay9_apply (q : Vec Ideal S1x1024x1024 .bf16) (k : Vec Ideal S1x512x1024 .bf16) (b : Vec Ideal S1x1024x512 .f32)
    (r : Fin 1024) (j : Fin 512) :
    k1_pay9 q k b (ix2 r j)
      = (∑ a : Fin 1024, q (ix3 0 r a) * k (ix3 0 j a)) * Ideal.ofBits .f32 0x3D000000#32 + b (ix3 0 r j) := by
  unfold k1_pay9
  show matmul dot_S1024x1024_S512x1024_S1024x512_1_1_0_0_n_n none (shapeCast S1024x1024 q shapeCasts_S1x1024x1024_S1024x1024)
        (shapeCast S512x1024 k shapeCasts_S1x512x1024_S512x1024) (constant (F := Ideal) S1024x512 .f32 0x00000000#32) (ix2 r j)
      * Ideal.ofBits .f32 0x3D000000#32 + shapeCast S1024x512 b shapeCasts_S1x1024x512_S1024x512 (ix2 r j) = _
  rw [matmul_qk_apply, shapeCast_1ab_ab_apply]
  refine congrArg (fun s => s * Ideal.ofBits .f32 0x3D000000#32 + b (ix3 0 r j)) (Finset.sum_congr rfl fun a _ => ?_)
  rw [shapeCast_1ab_ab_apply, shapeCast_1ab_ab_apply]

/-- The new running maximum of row `r`: the old one against the maximum, from -∞, of the block's scores of that row. -/
theorem pay10_apply (q : Vec Ideal S1x1024x1024 .bf16) (k : Vec Ideal S1x512x1024 .bf16) (b : Vec Ideal S1x1024x512 .f32)
    (mOld : Vec Ideal S1024x1 .f32) (r : Fin 1024) (u : Fin 1) :
    k1_pay10 q k b mOld (ix2 r u)
      = max (mOld (ix2 r u)) ((Finset.univ : Finset (Fin 512)).fold max (Ideal.ofBits .f32 0xFF800000#32)
          (fun j => k1_pay9 q k b (ix2 r j))) := by
  unfold k1_pay10
  show max (mOld (ix2 r u)) (shapeCast S1024x1 (multiReduction (F := Ideal) .maximumf [1] S1024 (k1_pay9 q k b) 0xFF800000#32
      reduces_S1024x512_S1024 (.inl rfl) rfl) shapeCasts_S1024_S1024x1 (ix2 r u)) = _
  rw [shapeCast_a_a1_apply]
  refine congrArg (max (mOld (ix2 r u))) ?_
  refine (Ideal.multiReduction_maximumf_single (k1_pay9 q k b) 0xFF800000#32 reduces_S1024x512_S1024 (.inl rfl) rfl (ix1 r)).trans ?_
  exact Finset.fold_congr fun j _ => congrArg (k1_pay9 q k b) (lift_row r j)

/-- The rescaling factor exp(m − m'). -/
theorem pay11_apply (q : Vec Ideal S1x1024x1024 .bf16) (k : Vec Ideal S1x512x1024 .bf16) (b : Vec Ideal S1x1024x512 .f32)
    (mOld m : Vec Ideal S1024x1 .f32) (i : S1024x1.Idx) :
    k1_pay11 q k b mOld m i = Ideal.exp (m i - k1_pay10 q k b mOld i) := by
  unfold k1_pay11
  rfl

/-- The block's weights exp(s − m'). -/
theorem pay12_apply (q : Vec Ideal S1x1024x1024 .bf16) (k : Vec Ideal S1x512x1024 .bf16) (b : Vec Ideal S1x1024x512 .f32)
    (mOld : Vec Ideal S1024x1 .f32) (r : Fin 1024) (j : Fin 512) :
    k1_pay12 q k b mOld (ix2 r j) = Ideal.exp (k1_pay9 q k b (ix2 r j) - k1_pay10 q k b mOld (ix2 r 0)) := by
  unfold k1_pay12
  show Ideal.exp (k1_pay9 q k b (ix2 r j) - broadcastTo S1024x512 (k1_pay10 q k b mOld) broadcasts_S1024x1_S1024x512 (ix2 r j)) = _
  rw [broadcastTo_a1_ab_apply]

/-- The new running sum: exp(m − m') · l + the row sum of the block's weights. -/
theorem pay13_apply (q : Vec Ideal S1x1024x1024 .bf16) (k : Vec Ideal S1x512x1024 .bf16) (b : Vec Ideal S1x1024x512 .f32)
    (mOld m lOld : Vec Ideal S1024x1 .f32) (r : Fin 1024) (u : Fin 1) :
    k1_pay13 q k b mOld m lOld (ix2 r u)
      = k1_pay11 q k b mOld m (ix2 r u) * lOld (ix2 r u) + ∑ j : Fin 512, k1_pay12 q k b mOld (ix2 r j) := by
  unfold k1_pay13
  show k1_pay11 q k b mOld m (ix2 r u) * lOld (ix2 r u) + shapeCast S1024x1 (multiReduction (F := Ideal) .add [1] S1024
      (k1_pay12 q k b mOld) 0x00000000#32 reduces_S1024x512_S1024 (.inl rfl) rfl) shapeCasts_S1024_S1024x1 (ix2 r u) = _
  rw [shapeCast_a_a1_apply]
  refine congrArg (k1_pay11 q k b mOld m (ix2 r u) * lOld (ix2 r u) + ·) ?_
  refine (Ideal.multiReduction_add_single (k1_pay12 q k b mOld) 0x00000000#32 reduces_S1024x512_S1024 (.inl rfl) rfl (ix1 r)).trans ?_
  exact Finset.sum_congr rfl fun j _ => congrArg (k1_pay12 q k b mOld) (lift_row r j)

/-- The value block without its unit axis. -/
theorem pay8_apply (v : Vec Ideal S1x512x1024 .bf16) (j : Fin 512) (a : Fin 1024) : k1_pay8 v (ix2 j a) = v (ix3 0 j a) := by
  unfold k1_pay8
  exact shapeCast_1ab_ab_apply v _ j a

/-- The new weighted sum of value rows: the rescaled old one plus weights · v. -/
theorem pay2_apply (v8 : FVec Ideal S512x1024 .bf16) (e : FVec Ideal S1024x1 .f32) (w : FVec Ideal S1024x512 .f32)
    (acc : Vec Ideal S1024x1024 .f32) (r a : Fin 1024) :
    k1_pay2 v8 e w acc (ix2 r a) = e (ix2 r 0) * acc (ix2 r a) + ∑ j : Fin 512, w (ix2 r j) * v8 (ix2 j a) := by
  unfold k1_pay2
  refine (congrFun (shapeCast_self _ _) _).trans ?_
  show broadcastTo S1024x1024 e broadcasts_S1024x1_S1024x1024 (ix2 r a) * acc (ix2 r a)
      + matmul dot_S1024x512_S512x1024_S1024x1024_1_0_0_1_n_n none (truncf .bf16 w bitsLt_bf16_f32) v8 (constant (F := Ideal) S1024x1024 .f32 0x00000000#32) (ix2 r a) = _
  rw [broadcastTo_a1_ab_apply, matmul_pv_apply]
  rfl

/-- The output block: (acc / l) · pw + pb, with a leading unit axis. -/
theorem pay4_apply (acc : Vec Ideal S1024x1024 .f32) (l : Vec Ideal S1024x1 .f32) (pw : Vec Ideal S1024x1024 .bf16)
    (pb : Vec Ideal S1x1024 .f32) (u : Fin 1) (r p : Fin 1024) :
    k1_pay4 acc l pw pb (ix3 u r p)
      = (∑ a : Fin 1024, Ideal.div (acc (ix2 r a)) (l (ix2 r 0)) * pw (ix2 a p)) + pb (ix2 0 p) := by
  unfold k1_pay4
  refine (shapeCast_ab_1ab_apply _ _ u r p).trans ?_
  show matmul dot_S1024x1024_S1024x1024_S1024x1024_1_0_0_1_n_n none (truncf .bf16 (divf acc (broadcastTo S1024x1024 l broadcasts_S1024x1_S1024x1024)) bitsLt_bf16_f32)
        (shapeCast S1024x1024 pw shapeCasts_S1024x1024_S1024x1024) (constant (F := Ideal) S1024x1024 .f32 0x00000000#32) (ix2 r p)
      + broadcastTo S1024x1024 (shapeCast S1x1024 (shapeCast S1x1024 pb shapeCasts_S1x1024_S1x1024) shapeCasts_S1x1024_S1x1024)
          broadcasts_S1x1024_S1024x1024 (ix2 r p) = _
  rw [matmul_ow_apply, broadcastTo_1b_ab_apply, shapeCast_self, shapeCast_self, shapeCast_self]
  refine congrArg (· + pb (ix2 0 p)) (Finset.sum_congr rfl fun a _ => ?_)
  show Ideal.div (acc (ix2 r a)) (broadcastTo S1024x1024 l broadcasts_S1024x1_S1024x1024 (ix2 r a)) * pw (ix2 a p) = _
  rw [broadcastTo_a1_ab_apply]

/-- A stored column is the column. -/
theorem pay1_eq (v : FVec Ideal S1024x1 .f32) : k1_pay1 v = v := by
  unfold k1_pay1
  exact shapeCast_self _ _
theorem pay3_eq (v : FVec Ideal S1024x1 .f32) : k1_pay3 v = v := by
  unfold k1_pay3
  exact shapeCast_self _ _

/-- The three starting values: the floor word, zero, zero. -/
theorem pay5_apply (i : S1024x1.Idx) : (k1_pay5 (F := Ideal)) i = Ideal.ofBits .f32 0xFF333332#32 := by
  unfold k1_pay5
  exact congrFun (shapeCast_self _ _) i
theorem pay6_apply (i : S1024x1.Idx) : (k1_pay6 (F := Ideal)) i = 0 := by
  unfold k1_pay6
  exact (congrFun (shapeCast_self _ _) i).trans Ideal.ofBits_zero_f32
theorem pay7_apply (i : S1024x1024.Idx) : (k1_pay7 (F := Ideal)) i = 0 := by
  unfold k1_pay7
  exact (congrFun (shapeCast_self _ _) i).trans Ideal.ofBits_zero_f32

end Cert.KernelIdeal.Hand

end
-- ==== Proof.LibCoe.lean ====
/-
  Real numbers inside the extended reals: general lemmas, none about a particular program.

  The programs compute over the extended reals; their specification is stated over the reals. An entry that is a
  real is the coercion of its real part (rl, coe_rl); the coercion commutes with finite sums and with max
  (coe_sum, coe_max); sums, differences, products, maxima, exponentials and finite sums of reals are reals
  (real_add … real_sum), and so is a maximum folded from −∞ over a nonempty family of reals, or from a real over
  any family (exists_real_fold_max, exists_real_fold_max_from). Last, two array indices are equal when their
  coordinates have equal values (ext1, ext2, ext3).
-/
import proofs.«419060_j65541200937045_3_alg».proof.Proof.Spec
import Idealize.ShloMosaic.PureOps.Ideal
import Mathlib.Data.EReal.Operations
import Mathlib.Data.Finset.Fold
import Mathlib.Algebra.BigOperators.Group.Finset.Basic

noncomputable section

open scoped BigOperators

namespace Cert.Coe

open Idealize.ShloMosaic Cert.Spec

/-! ## The coercion and the operations -/

/-- The coercion of a finite sum of reals is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The coercion is monotone, so it commutes with max. -/
theorem coe_max (a b : ℝ) : ((max a b : ℝ) : EReal) = max (a : EReal) (b : EReal) :=
  EReal.coe_strictMono.monotone.map_max

/-! ## Being a real is closed under the operations -/

/-- An extended real that is a real is the coercion of its real part. -/
theorem eq_coe_toReal {a : EReal} (h : ∃ r : ℝ, a = (r : EReal)) : a = ((a.toReal : ℝ) : EReal) := by
  obtain ⟨r, rfl⟩ := h
  rw [EReal.toReal_coe]

/-- The sum of two reals is a real. -/
theorem real_add {a b : EReal} (ha : ∃ r : ℝ, a = (r : EReal)) (hb : ∃ r : ℝ, b = (r : EReal)) :
    ∃ r : ℝ, a + b = (r : EReal) := by
  obtain ⟨r, rfl⟩ := ha
  obtain ⟨t, rfl⟩ := hb
  exact ⟨r + t, (EReal.coe_add r t).symm⟩

/-- The difference of two reals is a real. -/
theorem real_sub {a b : EReal} (ha : ∃ r : ℝ, a = (r : EReal)) (hb : ∃ r : ℝ, b = (r : EReal)) :
    ∃ r : ℝ, a - b = (r : EReal) := by
  obtain ⟨r, rfl⟩ := ha
  obtain ⟨t, rfl⟩ := hb
  exact ⟨r - t, (EReal.coe_sub r t).symm⟩

/-- The product of two reals is a real. -/
theorem real_mul {a b : EReal} (ha : ∃ r : ℝ, a = (r : EReal)) (hb : ∃ r : ℝ, b = (r : EReal)) :
    ∃ r : ℝ, a * b = (r : EReal) := by
  obtain ⟨r, rfl⟩ := ha
  obtain ⟨t, rfl⟩ := hb
  exact ⟨r * t, (EReal.coe_mul r t).symm⟩

/-- The maximum of two reals is a real. -/
theorem real_max {a b : EReal} (ha : ∃ r : ℝ, a = (r : EReal)) (hb : ∃ r : ℝ, b = (r : EReal)) :
    ∃ r : ℝ, max a b = (r : EReal) := by
  obtain ⟨r, rfl⟩ := ha
  obtain ⟨t, rfl⟩ := hb
  exact ⟨max r t, (coe_max r t).symm⟩

/-- The exponential of a real is a real. -/
theorem real_exp {a : EReal} (ha : ∃ r : ℝ, a = (r : EReal)) : ∃ r : ℝ, Ideal.exp a = (r : EReal) := by
  obtain ⟨r, rfl⟩ := ha
  exact ⟨Real.exp r, Ideal.exp_coe r⟩

/-- A finite sum of reals is a real. -/
theorem real_sum {ι : Type} (s : Finset ι) (f : ι → EReal) (h : ∀ k ∈ s, ∃ r : ℝ, f k = (r : EReal)) :
    ∃ r : ℝ, ∑ k ∈ s, f k = (r : EReal) := by
  refine ⟨∑ k ∈ s, (f k).toReal, ?_⟩
  rw [coe_sum]
  exact Finset.sum_congr rfl fun k hk => eq_coe_toReal (h k hk)

/-- A fold of max from −∞ over a nonempty family of reals is a real. -/
theorem exists_real_fold_max {ι : Type} (s : Finset ι) (hs : s.Nonempty) (f : ι → ℝ) :
    ∃ M : ℝ, s.fold max (⊥ : EReal) (fun k => (f k : EReal)) = (M : EReal) := by
  induction hs using Finset.Nonempty.cons_induction with
  | singleton a => exact ⟨f a, by rw [Finset.fold_singleton, max_bot_right]⟩
  | cons a s ha hs ih =>
    obtain ⟨M, hM⟩ := ih
    exact ⟨max (f a) M, by rw [Finset.fold_cons, hM, coe_max]⟩

/-- A fold of max from a real over any family of reals, empty or not, is a real. -/
theorem exists_real_fold_max_from {ι : Type} (s : Finset ι) (c : ℝ) (f : ι → ℝ) :
    ∃ M : ℝ, s.fold max (c : EReal) (fun k => (f k : EReal)) = (M : EReal) := by
  induction s using Finset.cons_induction with
  | empty => exact ⟨c, Finset.fold_empty⟩
  | cons a s ha ih =>
    obtain ⟨M, hM⟩ := ih
    exact ⟨max (f a) M, by rw [Finset.fold_cons, hM, coe_max]⟩

/-! ## Arrays of reals -/

/-- The real values of an array of extended reals. -/
abbrev rl {S : Shape} (v : S.Idx → EReal) : S.Idx → ℝ := fun i => (v i).toReal

/-- An entry of an array of reals is the coercion of its real value. -/
theorem coe_rl {S : Shape} {v : S.Idx → EReal} (h : AllReal v) (i : S.Idx) : ((rl v i : ℝ) : EReal) = v i :=
  (h.eq_coe_toReal i).symm

/-! ## Indices with equal coordinates -/

/-- Two rank-3 indices whose coordinates have equal values are equal. -/
theorem ext3 {n0 n1 n2 : Nat} {i j : (⟨3, ![n0, n1, n2]⟩ : Shape).Idx} (h0 : (i 0).val = (j 0).val)
    (h1 : (i 1).val = (j 1).val) (h2 : (i 2).val = (j 2).val) : i = j :=
  funext fun a => Fin.ext (by match a with | ⟨0, _⟩ => exact h0 | ⟨1, _⟩ => exact h1 | ⟨2, _⟩ => exact h2)

/-- Two rank-2 indices whose coordinates have equal values are equal. -/
theorem ext2 {n0 n1 : Nat} {i j : (⟨2, ![n0, n1]⟩ : Shape).Idx} (h0 : (i 0).val = (j 0).val)
    (h1 : (i 1).val = (j 1).val) : i = j :=
  funext fun a => Fin.ext (by match a with | ⟨0, _⟩ => exact h0 | ⟨1, _⟩ => exact h1)

/-- Two rank-1 indices whose coordinate has equal values are equal. -/
theorem ext1 {n0 : Nat} {i j : (⟨1, ![n0]⟩ : Shape).Idx} (h0 : (i 0).val = (j 0).val) : i = j :=
  funext fun a => Fin.ext (by match a with | ⟨0, _⟩ => exact h0)

end Cert.Coe

end
-- ==== Proof.Consts.lean ====
/-
  The float patterns this certificate's programs spell, as the extended reals they denote.

  An f32 pattern is a sign bit, eight exponent bits (bias 127) and twenty-three fraction bits; with the exponent
  field E neither 0 nor 255 and the fraction field T it denotes ±(2^23 + T) · 2^(E − 150), a real number, and the
  pattern with E = 255, T = 0 and the sign bit set denotes −∞. Stated here once for the whole certificate:
    0x44800000   E = 137, T = 0               2^23 · 2^(-13) = 1024, the constant whose reciprocal square root scales the scores,
    0x3D000000   E = 122, T = 0               2^23 · 2^(-28) = 1/32, that scale as a literal,
    0xFF800000   sign set, E = 255, T = 0     −∞, the value a row maximum starts from,
    0xFF333332   sign set, E = 254            a negative real (about −0.7 · 2^128), a finite floor in place of −∞.
-/
import Idealize.ShloMosaic.PureOps.Ideal

noncomputable section

namespace Cert.Consts

open Idealize.ShloMosaic

/-- The pattern of 1024.0 denotes the real 1024. -/
theorem ofBits_1024 : Ideal.ofBits .f32 0x44800000#32 = ((1024 : ℝ) : EReal) := by
  simp [Ideal.ofBits, Ideal.ieee, -EReal.coe_mul]; norm_num

/-- The pattern of 0.03125 denotes the real 1/32. -/
theorem ofBits_inv32 : Ideal.ofBits .f32 0x3D000000#32 = ((1 / 32 : ℝ) : EReal) := by
  simp [Ideal.ofBits, Ideal.ieee, -EReal.coe_mul]; norm_num

/-- The pattern of −∞ denotes ⊥. -/
theorem ofBits_neg_inf : Ideal.ofBits .f32 0xFF800000#32 = (⊥ : EReal) := by
  simp [Ideal.ofBits, Ideal.ieee]

/-- The pattern 0xFF333332 has exponent field 254, not 255: it denotes a real number (a large negative one). -/
theorem ofBits_floor : ∃ r : ℝ, Ideal.ofBits .f32 0xFF333332#32 = (r : EReal) := by
  refine ⟨-((2 ^ 23 + 3355442 : ℕ) * (2 : ℝ) ^ (104 : ℤ)), ?_⟩
  simp [Ideal.ofBits, Ideal.ieee, -EReal.coe_mul]

end Cert.Consts

end
-- ==== Proof.KI.StepMath2.lean ====
/-
  The arithmetic of the running softmax, apart from the kernel: extended reals that are coercions of reals, and the
  real identities behind the block recurrence.

  For scores s(n, j) of blocks n = 0, 1, … and a running shift M, the kernel keeps
    l = Σ_{n < N} Σ_j exp(s(n,j) − M)     and     A = Σ_{n < N} Σ_j exp(s(n,j) − M) · v(n,j).
  Moving the shift from M to M' multiplies every term by exp(M − M') (exp(M − M') · exp(s − M) = exp(s − M')), and the
  next block adds its own terms at the new shift. After four blocks A / l is the softmax-weighted mean, the common
  shift cancelling.
-/
import proofs.«419060_j65541200937045_3_alg».proof.Proof.Spec
import proofs.«419060_j65541200937045_3_alg».proof.Proof.LibCoe
import proofs.«419060_j65541200937045_3_alg».proof.Proof.Consts
import Mathlib.Data.EReal.Basic
import Mathlib.Data.EReal.Operations
import Mathlib.Data.Finset.Fold
import Mathlib.Algebra.BigOperators.Fin
import Mathlib.Algebra.BigOperators.Ring.Finset
import Mathlib.Algebra.Order.BigOperators.Ring.Finset
import Mathlib.Analysis.SpecialFunctions.Exp

set_option maxRecDepth 16384

noncomputable section

open scoped BigOperators

namespace Cert.KernelIdeal.Hand

open Cert.Spec Cert.Coe Idealize.ShloMosaic

/-! ## Coercions -/

/-- The maximum of a real with the maximum, from -∞, of finitely many reals is a real. -/
theorem max_fold_coe {ι : Type} (s : Finset ι) (f : ι → ℝ) (M : ℝ) :
    ∃ M' : ℝ, max (M : EReal) (s.fold max ⊥ fun j => (f j : EReal)) = (M' : EReal) := by
  classical
  refine Finset.induction_on s ⟨M, by rw [Finset.fold_empty]; exact max_eq_left bot_le⟩ fun a s ha ih => ?_
  obtain ⟨M', h⟩ := ih
  refine ⟨max (f a) M', ?_⟩
  rw [Finset.fold_insert ha, max_left_comm, h]
  exact (coe_max (f a) M').symm

/-! ## Sums of exponentials as coercions -/

section CoeSums
variable {ι : Type} [Fintype ι]

/-- A scaled, biased inner product of real rows is the coercion of the real one. -/
theorem score_coe (qr kr : ι → ℝ) (b : ℝ) :
    (∑ a, (qr a : EReal) * (kr a : EReal)) * ((1 / 32 : ℝ) : EReal) + (b : EReal)
      = (((∑ a, qr a * kr a) * (1 / 32) + b : ℝ) : EReal) := by
  rw [EReal.coe_add, EReal.coe_mul, coe_sum]
  simp only [EReal.coe_mul]

/-- The update of the running sum, all of whose operands are real. -/
theorem row_sum_coe (sN : ι → ℝ) (M L M' : ℝ) :
    Ideal.exp ((M : EReal) - (M' : EReal)) * (L : EReal) + ∑ j, Ideal.exp ((sN j : EReal) - (M' : EReal))
      = ((Real.exp (M - M') * L + ∑ j, Real.exp (sN j - M') : ℝ) : EReal) := by
  simp only [← EReal.coe_sub, Ideal.exp_coe]
  rw [EReal.coe_add, EReal.coe_mul, coe_sum]

/-- The update of the running weighted sum, all of whose operands are real. -/
theorem row_acc_coe (sN vN : ι → ℝ) (M A M' : ℝ) :
    Ideal.exp ((M : EReal) - (M' : EReal)) * (A : EReal) + ∑ j, Ideal.exp ((sN j : EReal) - (M' : EReal)) * (vN j : EReal)
      = ((Real.exp (M - M') * A + ∑ j, Real.exp (sN j - M') * vN j : ℝ) : EReal) := by
  simp only [← EReal.coe_sub, Ideal.exp_coe]
  rw [EReal.coe_add, EReal.coe_mul, coe_sum]
  simp only [EReal.coe_mul]

/-- The output row: quotients by a nonzero real, projected and biased. -/
theorem out_coe (A w : ι → ℝ) (L c : ℝ) (hL : L ≠ 0) :
    (∑ a, Ideal.div (A a : EReal) (L : EReal) * (w a : EReal)) + (c : EReal)
      = (((∑ a, A a / L * w a) + c : ℝ) : EReal) := by
  rw [EReal.coe_add, coe_sum]
  refine congrArg (· + (c : EReal)) (Finset.sum_congr rfl fun a _ => ?_)
  rw [Ideal.div_coe hL, ← EReal.coe_mul, ← EReal.coe_mul, mul_one_div]

end CoeSums

/-! ## The real identities -/

section Real
variable {ι : Type} [Fintype ι]

/-- Moving the shift from M to M' and adding block N's terms: the weighted sum over blocks 0 … N at shift M'. -/
theorem rescale_sum (N : ℕ) (s w : ℕ → ι → ℝ) (M M' : ℝ) :
    Real.exp (M - M') * (∑ n ∈ Finset.range N, ∑ j, Real.exp (s n j - M) * w n j) + ∑ j, Real.exp (s N j - M') * w N j
      = ∑ n ∈ Finset.range (N + 1), ∑ j, Real.exp (s n j - M') * w n j := by
  rw [Finset.sum_range_succ, Finset.mul_sum]
  refine congrArg (· + ∑ j, Real.exp (s N j - M') * w N j) (Finset.sum_congr rfl fun n _ => ?_)
  rw [Finset.mul_sum]
  refine Finset.sum_congr rfl fun j _ => ?_
  rw [← mul_assoc, ← Real.exp_add]
  congr 2
  ring

/-- The same without weights. -/
theorem rescale_sum_one (N : ℕ) (s : ℕ → ι → ℝ) (M M' : ℝ) :
    Real.exp (M - M') * (∑ n ∈ Finset.range N, ∑ j, Real.exp (s n j - M)) + ∑ j, Real.exp (s N j - M')
      = ∑ n ∈ Finset.range (N + 1), ∑ j, Real.exp (s n j - M') := by
  have h := rescale_sum N s (fun _ _ => 1) M M'
  simp only [mul_one] at h
  exact h

/-- A sum of exponentials over four nonempty blocks is positive. -/
theorem blocks_sum_pos [Nonempty ι] (s : ℕ → ι → ℝ) (M : ℝ) :
    0 < ∑ n ∈ Finset.range 4, ∑ j, Real.exp (s n j - M) :=
  Finset.sum_pos (fun n _ => Finset.sum_pos (fun j _ => Real.exp_pos _) Finset.univ_nonempty) ⟨0, by simp⟩

/-- After four blocks the quotient of the two running sums is the softmax-weighted mean over all four: the shift
    cancels. -/
theorem softmax_blocks [Nonempty ι] (s v : ℕ → ι → ℝ) (M : ℝ) :
    (∑ n ∈ Finset.range 4, ∑ j, Real.exp (s n j - M) * v n j) / (∑ n ∈ Finset.range 4, ∑ j, Real.exp (s n j - M))
      = (∑ n : Fin 4, ∑ j, Real.exp (s n j) * v n j) / (∑ n : Fin 4, ∑ j, Real.exp (s n j)) := by
  rw [← Fin.sum_univ_eq_sum_range (fun n => ∑ j, Real.exp (s n j - M) * v n j) 4,
    ← Fin.sum_univ_eq_sum_range (fun n => ∑ j, Real.exp (s n j - M)) 4]
  have h := softmax_shift (ι := Fin 4 × ι) (fun p => s p.1 p.2) (fun p => v p.1 p.2) M
  simp only [Fintype.sum_prod_type] at h
  exact h

end Real

end Cert.KernelIdeal.Hand

end
-- ==== Proof.KI.StepMath.lean ====
/-
  The attention kernel's recurrence over the four key/value blocks of a query tile, at the ideal values, when
  every block entry is a real number.

  With s(n,j) the real score of query row r against key row j of block n, the three running quantities after
  blocks 0 … N−1 are, for some real shift M(r) (the running maximum, itself a real),
    m(r) = M,   l(r) = Σ_{n<N} Σ_j exp(s(n,j) − M),   A(r,a) = Σ_{n<N} Σ_j exp(s(n,j) − M) · v(n,j,a);
  they start from (floor, 0, 0), where the sums are empty, and a block keeps the form: the new maximum is a real,
  exp(M − M') rescales the old sums to the new shift and the block adds its own terms. After four blocks
  A / l is the softmax-weighted mean of the value rows — the common shift cancels —, and the output block is its
  projection by pw plus pb.
-/
import proofs.«419060_j65541200937045_3_alg».proof.Proof.KI.StepMath1
import proofs.«419060_j65541200937045_3_alg».proof.Proof.KI.StepMath2

set_option maxRecDepth 16384

noncomputable section

open scoped BigOperators

namespace Cert.KernelIdeal.Hand

open Cert.KernelIdeal Cert.KernelIdeal.Gen Cert.Spec Cert.Consts Idealize.ShloMosaic Idealize.ShloMosaic.ValueIdx

/-! ## The specification of one query tile over its four key/value blocks, in the reals -/

section
variable (Q : S1x1024x1024.Idx → ℝ) (K Vv : ℕ → S1x512x1024.Idx → ℝ) (B : ℕ → S1x1024x512.Idx → ℝ)
  (pw : S1024x1024.Idx → ℝ) (pb : S1x1024.Idx → ℝ)

/-- The biased, scaled score of query row r against key row j of block n. -/
def blkScoreR (r : Fin 1024) (n : ℕ) (j : Fin 512) : ℝ :=
  (∑ a : Fin 1024, Q (ix3 0 r a) * K n (ix3 0 j a)) * (1 / 32) + B n (ix3 0 r j)

/-- The softmax-weighted mean of the value rows of the four blocks. -/
def blkCtxR (r a : Fin 1024) : ℝ :=
  (∑ n : Fin 4, ∑ j : Fin 512, Real.exp (blkScoreR Q K B r n j) * Vv n (ix3 0 j a))
    / (∑ n : Fin 4, ∑ j : Fin 512, Real.exp (blkScoreR Q K B r n j))

/-- The output projection. -/
def blkOutR (r p : Fin 1024) : ℝ :=
  (∑ a : Fin 1024, blkCtxR Q K Vv B r a * pw (ix2 a p)) + pb (ix2 0 p)

end

/-! ## The form the three running quantities keep -/

section Inv
variable (q : Vec Ideal S1x1024x1024 .bf16) (K V : ℕ → Vec Ideal S1x512x1024 .bf16) (B : ℕ → Vec Ideal S1x1024x512 .f32)

/-- The real score of query row r against key row j of block n, of the blocks' real values. -/
def sR (r : Fin 1024) (n : ℕ) (j : Fin 512) : ℝ :=
  blkScoreR (fun i => (q i).toReal) (fun n i => (K n i).toReal) (fun n i => (B n i).toReal) r n j

/-- After the first N blocks: each row's maximum is a real M, and its two sums are the sums over those blocks at
    the shift M. -/
def Inv (N : ℕ) (st : St Ideal) : Prop :=
  ∀ r : Fin 1024, ∃ M : ℝ,
    st.1 (ix2 r 0) = (M : EReal)
    ∧ st.2.1 (ix2 r 0) = ((∑ n ∈ Finset.range N, ∑ j : Fin 512, Real.exp (sR q K B r n j - M) : ℝ) : EReal)
    ∧ ∀ a : Fin 1024, st.2.2 (ix2 r a)
        = ((∑ n ∈ Finset.range N, ∑ j : Fin 512, Real.exp (sR q K B r n j - M) * (V n (ix3 0 j a)).toReal : ℝ) : EReal)

/-- A block's scores are the coercions of the real scores. -/
theorem score_real (hq : AllReal q) (n : ℕ) (hK : AllReal (K n)) (hB : AllReal (B n)) (r : Fin 1024) (j : Fin 512) :
    k1_pay9 q (K n) (B n) (ix2 r j) = ((sR q K B r n j : ℝ) : EReal) := by
  have e1 : (∑ a : Fin 1024, q (ix3 0 r a) * K n (ix3 0 j a))
      = ∑ a : Fin 1024, (((q (ix3 0 r a)).toReal : ℝ) : EReal) * (((K n (ix3 0 j a)).toReal : ℝ) : EReal) :=
    Finset.sum_congr rfl fun a _ => congrArg₂ (· * ·) (hq.eq_coe_toReal _) (hK.eq_coe_toReal _)
  rw [pay9_apply, ofBits_inv32, e1, hB.eq_coe_toReal (ix3 0 r j)]
  exact score_coe (fun a => (q (ix3 0 r a)).toReal) (fun a => (K n (ix3 0 j a)).toReal) ((B n (ix3 0 r j)).toReal)

/-- Before the first block: the floor, and two empty sums. -/
theorem inv_zero : Inv q K V B 0 (st0 (F := Ideal)) := by
  intro r
  obtain ⟨f, hf⟩ := ofBits_floor
  refine ⟨f, ?_, ?_, fun a => ?_⟩
  · show (k1_pay5 (F := Ideal)) (ix2 r 0) = _
    rw [pay5_apply, hf]
  · show (k1_pay6 (F := Ideal)) (ix2 r 0) = _
    rw [pay6_apply, Finset.range_zero, Finset.sum_empty, EReal.coe_zero]
  · show (k1_pay7 (F := Ideal)) (ix2 r a) = _
    rw [pay7_apply, Finset.range_zero, Finset.sum_empty, EReal.coe_zero]

/-- A block keeps the form. -/
theorem inv_step (hq : AllReal q) (N : ℕ) (hK : AllReal (K N)) (hV : AllReal (V N)) (hB : AllReal (B N)) (st : St Ideal)
    (h : Inv q K V B N st) : Inv q K V B (N + 1) (stepSt q (K N) (V N) (B N) st) := by
  intro r
  obtain ⟨M, hm, hl, hacc⟩ := h r
  have hs : ∀ j : Fin 512, k1_pay9 q (K N) (B N) (ix2 r j) = ((sR q K B r N j : ℝ) : EReal) :=
    score_real q K B hq N hK hB r
  obtain ⟨M', hM'⟩ := max_fold_coe Finset.univ (fun j : Fin 512 => sR q K B r N j) M
  have h10 : k1_pay10 q (K N) (B N) st.1 (ix2 r 0) = (M' : EReal) := by
    rw [pay10_apply, hm, ofBits_neg_inf]
    simp only [hs]
    exact hM'
  have he : k1_pay11 q (K N) (B N) st.1 st.1 (ix2 r 0) = Ideal.exp ((M : EReal) - (M' : EReal)) := by
    rw [pay11_apply, h10, hm]
  have hw : ∀ j : Fin 512, k1_pay12 q (K N) (B N) st.1 (ix2 r j)
      = Ideal.exp (((sR q K B r N j : ℝ) : EReal) - (M' : EReal)) := fun j => by
    rw [pay12_apply, hs, h10]
  refine ⟨M', ?_, ?_, fun a => ?_⟩
  · show mStep q (K N) (B N) st.1 (ix2 r 0) = _
    unfold mStep
    rw [pay3_eq]
    exact h10
  · show lStep q (K N) (B N) st.1 st.2.1 (ix2 r 0) = _
    have hsum : (∑ j : Fin 512, k1_pay12 q (K N) (B N) st.1 (ix2 r j))
        = ∑ j : Fin 512, Ideal.exp (((sR q K B r N j : ℝ) : EReal) - (M' : EReal)) :=
      Finset.sum_congr rfl fun j _ => hw j
    unfold lStep
    rw [pay1_eq, pay13_apply, he, hl, hsum]
    refine (row_sum_coe (fun j : Fin 512 => sR q K B r N j) M _ M').trans ?_
    exact congrArg Real.toEReal (rescale_sum_one N (fun n (j : Fin 512) => sR q K B r n j) M M')
  · show accStep q (K N) (V N) (B N) st.1 st.2.2 (ix2 r a) = _
    have hsum : (∑ j : Fin 512, k1_pay12 q (K N) (B N) st.1 (ix2 r j) * k1_pay8 (V N) (ix2 j a))
        = ∑ j : Fin 512, Ideal.exp (((sR q K B r N j : ℝ) : EReal) - (M' : EReal)) * (((V N (ix3 0 j a)).toReal : ℝ) : EReal) :=
      Finset.sum_congr rfl fun j _ => congrArg₂ (· * ·) (hw j) ((pay8_apply (V N) j a).trans (hV.eq_coe_toReal _))
    unfold accStep
    rw [pay2_apply, he, hacc a, hsum]
    refine (row_acc_coe (fun j : Fin 512 => sR q K B r N j) (fun j : Fin 512 => (V N (ix3 0 j a)).toReal) M _ M').trans ?_
    exact congrArg Real.toEReal
      (rescale_sum N (fun n (j : Fin 512) => sR q K B r n j) (fun n (j : Fin 512) => (V n (ix3 0 j a)).toReal) M M')

/-- So after blocks 0 … n the form holds with n + 1 blocks summed. -/
theorem inv_stN (hq : AllReal q) (hK : ∀ n, AllReal (K n)) (hV : ∀ n, AllReal (V n)) (hB : ∀ n, AllReal (B n)) (n : ℕ) :
    Inv q K V B (n + 1) (stN q K V B n) := by
  induction n with
  | zero =>
    rw [stN]
    exact inv_step q K V B hq 0 (hK 0) (hV 0) (hB 0) _ (inv_zero q K V B)
  | succ n ih =>
    rw [stN]
    exact inv_step q K V B hq (n + 1) (hK _) (hV _) (hB _) _ ih

end Inv

/-! ## The output block after the four blocks -/

/-- The output block of a query tile is the softmax-weighted mean of the four blocks' value rows, projected by pw,
    plus pb. -/
theorem outFin_stN (q : Vec Ideal S1x1024x1024 .bf16) (K V : ℕ → Vec Ideal S1x512x1024 .bf16) (B : ℕ → Vec Ideal S1x1024x512 .f32)
    (pw : Vec Ideal S1024x1024 .bf16) (pb : Vec Ideal S1x1024 .f32)
    (hq : AllReal q) (hK : ∀ n, AllReal (K n)) (hV : ∀ n, AllReal (V n)) (hB : ∀ n, AllReal (B n)) (hpw : AllReal pw)
    (hpb : AllReal pb) (y : S1x1024x1024.Idx) :
    outFin (stN q K V B 3).2.2 (stN q K V B 3).2.1 pw pb y
      = ((blkOutR (fun i => (q i).toReal) (fun n i => (K n i).toReal) (fun n i => (V n i).toReal) (fun n i => (B n i).toReal)
          (fun i => (pw i).toReal) (fun i => (pb i).toReal) (y 1) (y 2) : ℝ) : EReal) := by
  obtain ⟨u, r, p, rfl⟩ : ∃ (u : Fin 1) (r p : Fin 1024), y = ix3 u r p := ⟨y 0, y 1, y 2, eq_ix3 y⟩
  have hinv : Inv q K V B 4 (stN q K V B 3) := inv_stN q K V B hq hK hV hB 3
  generalize stN q K V B 3 = st at hinv ⊢
  obtain ⟨M, hm, hl, hacc⟩ := hinv r
  have hL : (∑ n ∈ Finset.range 4, ∑ j : Fin 512, Real.exp (sR q K B r n j - M)) ≠ 0 :=
    (blocks_sum_pos (fun n (j : Fin 512) => sR q K B r n j) M).ne'
  have hsum : (∑ a : Fin 1024, Ideal.div (st.2.2 (ix2 r a)) (st.2.1 (ix2 r 0)) * pw (ix2 a p))
      = ∑ a : Fin 1024, Ideal.div
          ((∑ n ∈ Finset.range 4, ∑ j : Fin 512, Real.exp (sR q K B r n j - M) * (V n (ix3 0 j a)).toReal : ℝ) : EReal)
          ((∑ n ∈ Finset.range 4, ∑ j : Fin 512, Real.exp (sR q K B r n j - M) : ℝ) : EReal)
        * (((pw (ix2 a p)).toReal : ℝ) : EReal) :=
    Finset.sum_congr rfl fun a _ => congrArg₂ (· * ·) (congrArg₂ Ideal.div (hacc a) hl) (hpw.eq_coe_toReal _)
  unfold outFin
  rw [pay4_apply, hsum, hpb.eq_coe_toReal (ix2 0 p)]
  refine (out_coe (fun a : Fin 1024 => ∑ n ∈ Finset.range 4, ∑ j : Fin 512, Real.exp (sR q K B r n j - M) * (V n (ix3 0 j a)).toReal)
    (fun a : Fin 1024 => (pw (ix2 a p)).toReal) _ ((pb (ix2 0 p)).toReal) hL).trans ?_
  refine congrArg Real.toEReal ?_
  show _ = blkOutR (fun i => (q i).toReal) (fun n i => (K n i).toReal) (fun n i => (V n i).toReal) (fun n i => (B n i).toReal)
      (fun i => (pw i).toReal) (fun i => (pb i).toReal) r p
  unfold blkOutR blkCtxR
  refine congrArg (· + (pb (ix2 0 p)).toReal) (Finset.sum_congr rfl fun a _ => congrArg (· * (pw (ix2 a p)).toReal) ?_)
  exact softmax_blocks (fun n (j : Fin 512) => sR q K B r n j) (fun n (j : Fin 512) => (V n (ix3 0 j a)).toReal) M

end Cert.KernelIdeal.Hand

end
-- ==== Proof.Spec2.lean ====
/-
  The attention stage by itself, over the real numbers: for queries q, keys k, values v given by coordinates
  (batch, row, feature), a bias sw, an output weight pw and an output bias pb,
    out b i p = Σ_a ( (Σ_j exp(s b i j) · v b j a) / (Σ_j exp(s b i j)) ) · pw[a,p] + pb p,
    s b i j = (Σ_a q b i a · k b j a) · (1/32) + sw[b,i,j].
  The specification `outR` is this stage applied to the three projections.
-/
import proofs.«419060_j65541200937045_3_alg».proof.Proof.Spec

noncomputable section

open scoped BigOperators

namespace Cert.Spec

open Idealize.ShloMosaic Idealize.ShloMosaic.ValueIdx

section

variable (q k v : Fin 4 → Fin 2048 → Fin 1024 → ℝ) (sw : Ssw.Idx → ℝ) (pw : Spw.Idx → ℝ) (pb : Fin 1024 → ℝ)

def attnScoreR (b : Fin 4) (i j : Fin 2048) : ℝ :=
  (∑ a : Fin 1024, q b i a * k b j a) * (1 / 32) + sw (ix3 b i j)

def attnCtxR (b : Fin 4) (i : Fin 2048) (a : Fin 1024) : ℝ :=
  (∑ j : Fin 2048, Real.exp (attnScoreR q k sw b i j) * v b j a) / (∑ j : Fin 2048, Real.exp (attnScoreR q k sw b i j))

def attnOutR (b : Fin 4) (i : Fin 2048) (p : Fin 1024) : ℝ :=
  (∑ a : Fin 1024, attnCtxR q k v sw b i a * pw (ix2 a p)) + pb p

end

/-- The specification is the attention stage of the three projections. -/
theorem outR_eq_attn (x : Sx.Idx → ℝ) (sw : Ssw.Idx → ℝ) (cw : Scw.Idx → ℝ) (cb : Scb.Idx → ℝ) (pw : Spw.Idx → ℝ) (pb : Spb.Idx → ℝ)
    (b : Fin 4) (i : Fin 2048) (p : Fin 1024) :
    outR x sw cw cb pw pb b i p
      = attnOutR (projR x cw cb 0) (projR x cw cb 1) (projR x cw cb 2) sw pw (fun p => pb (ix1 p)) b i p := rfl

/-- A sum over the 2048 rows is the sum over four blocks of 512 rows. -/
theorem sum_blocks (f : Fin 2048 → ℝ) :
    (∑ j : Fin 2048, f j) = ∑ n : Fin 4, ∑ jj : Fin 512, f ⟨n.val * 512 + jj.val, by omega⟩ := by
  refine Eq.trans ?_ (Fintype.sum_prod_type' (fun (n : Fin 4) (jj : Fin 512) => f ⟨n.val * 512 + jj.val, by omega⟩))
  refine (Fintype.sum_equiv (finProdFinEquiv (m := 4) (n := 512)) (fun x => f ⟨x.1.val * 512 + x.2.val, by omega⟩)
    (fun j : Fin (4 * 512) => f j) (fun x => ?_)).symm
  refine congrArg f (Fin.ext ?_)
  show x.1.val * 512 + x.2.val = (finProdFinEquiv x).val
  simp only [finProdFinEquiv, Equiv.coe_fn_mk]
  omega

end Cert.Spec

end
-- ==== Proof.KI.Val1.lean ====
/-
  THE VALUE OF REGION 1'S OUTPUT ARRAY at the ideal instance (floats are extended reals, operations exact): after the
  32 grid points of the attention kernel, index by index, the attention formula of its six input arrays when their
  entries are real numbers,
    out[b, s, p] = Σ_a ( (Σ_j exp(sc b s j) · v[b,j,a]) / (Σ_j exp(sc b s j)) ) · pw[a,p] + pb[0,p],
    sc b s j = (Σ_a q[b,s,a] · k[b,j,a]) · (1/32) + sw[b,s,j].
  Three things are composed. The carried state after the four key/value steps of a (batch, query tile) pair is the
  four-fold step function of the pair's blocks (induction on the step: the first step starts from the initial state,
  each later one from what the step before left, and the query block does not move along the key/value axis). The
  output block the last step stores is the output formula over the pair's blocks, whose double sums over
  (key/value block, column) are the sums over the 2048 key rows cut into four blocks of 512, each block entry read off
  its array at the shifted index. And only the last steps write the output block back; their blocks cover the array.
-/
import proofs.«419060_j65541200937045_3_alg».proof.Proof.KI.Blocks1
import proofs.«419060_j65541200937045_3_alg».proof.Proof.KI.R1Steps
import proofs.«419060_j65541200937045_3_alg».proof.Proof.KI.StepMath
import proofs.«419060_j65541200937045_3_alg».proof.Proof.Spec2

set_option maxRecDepth 16384

noncomputable section

open scoped BigOperators

namespace Cert.KernelIdeal.Hand
open Cert.KernelIdeal Cert.KernelIdeal.Gen
open Idealize.ShloMosaic Idealize.ShloMosaic.TcCoe Idealize.ShloMosaic.ValueIdx
open Idealize.ShloMosaic.Pipeline (Dat)

/-! ## The carried state after the key/value steps of one (batch, query tile) pair -/

section AnyFloats

variable {F : FTy → Type} [FloatOps F]
variable (V : (c : Dev nD) → (b : Ref sig .tc) → Buf (Elt F) ((c : Thread nD τ).loc b))

/-- The carried state depends on the position only, not on the proof that it is inside the grid. -/
theorem outsAt1_congr (c : Dev nD) {n n' : ℕ} (e : n = n') (h : n < cfg1.N) (h' : n' < cfg1.N) :
    outsAt1 V c n h = outsAt1 V c n' h' := by
  subst e; rfl

/-- The running maximum, running sum and accumulator after key/value steps 0 … n of the pair (b, qi) are the n-fold
    step function of the pair's query block and of its key, value and bias blocks at steps 0 … n: the first step starts
    from the initial state, every later one from the state the step before left, and the query block is the same
    at all four steps. -/
theorem state1 (c : Dev nD) (b : Fin 4) (qi : Fin 2) : ∀ n : ℕ, n ≤ 3 →
    (outsAt1 V c (pt b qi n).val (pt b qi n).isLt).2
      = stN (iblk1 V c 0 (pt b qi 0)) (fun m => iblk1 V c 1 (pt b qi m)) (fun m => iblk1 V c 2 (pt b qi m))
          (fun m => iblk1 V c 3 (pt b qi m)) n
  | 0, _ => outsAt1_first V c (pt b qi 0) (by rw [pt_val]; omega)
  | n + 1, hn => by
    have hv : (pt b qi (n + 1)).val = 8 * b.val + 4 * qi.val + (n + 1) := by rw [pt_val, Nat.mod_eq_of_lt (by omega)]
    have hv' : (pt b qi n).val = 8 * b.val + 4 * qi.val + n := by rw [pt_val, Nat.mod_eq_of_lt (by omega)]
    have hv0 : (pt b qi 0).val = 8 * b.val + 4 * qi.val := by rw [pt_val]; omega
    refine (outsAt1_next V c (pt b qi (n + 1)) (by rw [hv]; omega)).trans ?_
    rw [qblk_const V c (pt b qi (n + 1)) (pt b qi 0) (by rw [hv, hv0]; omega),
      outsAt1_congr V c (show (pt b qi (n + 1)).val - 1 = (pt b qi n).val by omega) _ (pt b qi n).isLt,
      state1 c b qi n (by omega)]
    rfl

end AnyFloats

/-! ## Blocks against arrays, over the real numbers -/

section Real

open Cert.Spec

/-- The output block's formula over the blocks of a (batch, query tile) pair is the attention formula over the arrays,
    at the row the block's row sits at: each score of block n, column j is the score against key row 512·n + j, and
    the double sums over (block, column) are the sums over the 2048 key rows cut into four blocks of 512. -/
theorem blk_eq_attn (q k v : Fin 4 → Fin 2048 → Fin 1024 → ℝ) (sw : Ssw.Idx → ℝ) (pw : Spw.Idx → ℝ) (pb : Fin 1024 → ℝ)
    (Q : S1x1024x1024.Idx → ℝ) (K Vv : ℕ → S1x512x1024.Idx → ℝ) (B : ℕ → S1x1024x512.Idx → ℝ)
    (pw' : S1024x1024.Idx → ℝ) (pb' : S1x1024.Idx → ℝ) (b : Fin 4) (i : Fin 2048) (r p : Fin 1024)
    (hQ : ∀ a : Fin 1024, Q (ix3 0 r a) = q b i a)
    (hK : ∀ (n : Fin 4) (j : Fin 512) (a : Fin 1024), K n (ix3 0 j a) = k b ⟨n.val * 512 + j.val, by omega⟩ a)
    (hV : ∀ (n : Fin 4) (j : Fin 512) (a : Fin 1024), Vv n (ix3 0 j a) = v b ⟨n.val * 512 + j.val, by omega⟩ a)
    (hB : ∀ (n : Fin 4) (j : Fin 512), B n (ix3 0 r j) = sw (ix3 b i ⟨n.val * 512 + j.val, by omega⟩))
    (hpw : ∀ a : Fin 1024, pw' (ix2 a p) = pw (ix2 a p)) (hpb : pb' (ix2 0 p) = pb p) :
    blkOutR Q K Vv B pw' pb' r p = attnOutR q k v sw pw pb b i p := by
  have hs : ∀ (n : Fin 4) (j : Fin 512),
      blkScoreR Q K B r n j = attnScoreR q k sw b i ⟨n.val * 512 + j.val, by omega⟩ := by
    intro n j
    unfold blkScoreR attnScoreR
    rw [hB n j, Finset.sum_congr rfl fun a _ => by rw [hQ a, hK n j a]]
  unfold blkOutR attnOutR
  rw [hpb]
  refine congrArg (· + pb p) (Finset.sum_congr rfl fun a _ => ?_)
  rw [hpw a]
  refine congrArg (· * pw (ix2 a p)) ?_
  unfold blkCtxR attnCtxR
  rw [sum_blocks, sum_blocks]
  refine congrArg₂ (· / ·) (Finset.sum_congr rfl fun n _ => Finset.sum_congr rfl fun j _ => ?_)
    (Finset.sum_congr rfl fun n _ => Finset.sum_congr rfl fun j _ => ?_)
  · rw [hs n j, hV n j a]
  · rw [hs n j]

end Real

/-! ## The output array at the ideal instance -/

section AtIdeal

open Cert.Spec

variable (V : (c : Dev nD) → (b : Ref sig .tc) → Buf (Elt Ideal) ((c : Thread nD τ).loc b))

/-- The six arrays region 1 reads, at their literal types. -/
abbrev qA (c : Dev nD) : Vec Ideal S4x2048x1024 .bf16 := V c main_v4
abbrev kA (c : Dev nD) : Vec Ideal S4x2048x1024 .bf16 := V c main_v5
abbrev vA (c : Dev nD) : Vec Ideal S4x2048x1024 .bf16 := V c main_v6
abbrev swA (c : Dev nD) : Vec Ideal S4x2048x2048 .f32 := V c main_arg1
abbrev pwA (c : Dev nD) : Vec Ideal S1024x1024 .bf16 := V c main_v7
abbrev pbA (c : Dev nD) : Vec Ideal S1x1024 .f32 := V c main_v8

/-- What the output array ends holding: the attention formula of the six arrays' real values. -/
abbrev out1 (c : Dev nD) : Vec Ideal S4x2048x1024 .f32 := fun y =>
  ((attnOutR (fun b s a => (qA V c (ix3 b s a)).toReal) (fun b s a => (kA V c (ix3 b s a)).toReal)
      (fun b s a => (vA V c (ix3 b s a)).toReal) (fun i => (swA V c i).toReal) (fun i => (pwA V c i).toReal)
      (fun p => (pbA V c (ix2 0 p)).toReal) (y 0) (y 1) (y 2) : ℝ) : EReal)

variable (c : Dev nD)
variable (hq : AllReal (qA V c)) (hk : AllReal (kA V c)) (hv : AllReal (vA V c)) (hsw : AllReal (swA V c))
  (hpw : AllReal (pwA V c)) (hpb : AllReal (pbA V c))

include hq hk hv hsw hpw hpb

/-- The block the last key/value step of the pair (b, qi) leaves in the output's buffer, entry (r, p): the output
    formula over the pair's blocks. -/
theorem out_block (b : Fin 4) (qi : Fin 2) (r p : Fin 1024) :
    (outsAt1 V c (pt b qi 3).val (pt b qi 3).isLt).1 (ix3 0 r p)
      = ((blkOutR (fun i => ((iblk1 V c 0 (pt b qi 0) : Vec Ideal S1x1024x1024 .bf16) i).toReal)
          (fun n i => ((iblk1 V c 1 (pt b qi n) : Vec Ideal S1x512x1024 .bf16) i).toReal)
          (fun n i => ((iblk1 V c 2 (pt b qi n) : Vec Ideal S1x512x1024 .bf16) i).toReal)
          (fun n i => ((iblk1 V c 3 (pt b qi n) : Vec Ideal S1x1024x512 .f32) i).toReal)
          (fun i => (pwA V c i).toReal) (fun i => (pbA V c i).toReal) r p : ℝ) : EReal) := by
  rw [outsAt1_out V c (pt b qi 3) (by rw [pt_val]; omega), state1 V c b qi 3 le_rfl, wblk_eq V c (pt b qi 3),
    pbblk_eq V c (pt b qi 3)]
  exact outFin_stN (iblk1 V c 0 (pt b qi 0)) (fun m => iblk1 V c 1 (pt b qi m)) (fun m => iblk1 V c 2 (pt b qi m))
    (fun m => iblk1 V c 3 (pt b qi m)) (pwA V c) (pbA V c) (qblk_real V c _ hq) (fun n => kblk_real V c _ hk)
    (fun n => vblk_real V c _ hv) (fun n => bblk_real V c _ hsw) hpw hpb (ix3 0 r p)

/-- The same entry is the attention formula over the arrays at (b, 1024·qi + r, p). -/
theorem out_entry (b : Fin 4) (qi : Fin 2) (r p : Fin 1024) :
    (outsAt1 V c (pt b qi 3).val (pt b qi 3).isLt).1 (ix3 0 r p)
      = out1 V c (ix3 b (⟨1024 * qi.val + r.val, by omega⟩ : Fin 2048) p) := by
  rw [out_block V c hq hk hv hsw hpw hpb b qi r p]
  have hpt : ∀ n : Fin 4, (pt b qi n).val = 8 * b.val + 4 * qi.val + n.val := fun n => by
    rw [pt_val, Nat.mod_eq_of_lt n.isLt]
  have hpt0 : (pt b qi 0).val = 8 * b.val + 4 * qi.val := by rw [pt_val]; omega
  refine congrArg (fun x : ℝ => (x : EReal)) (blk_eq_attn _ _ _ _ _ _ _ _ _ _ _ _ b ⟨1024 * qi.val + r.val, by omega⟩ r p
    (fun a => congrArg EReal.toReal (qblk_apply V c (pt b qi 0) (ix3 0 r a) (ix3 b ⟨1024 * qi.val + r.val, by omega⟩ a)
      (by show b.val = _; rw [hpt0]; omega) (by show 1024 * qi.val + r.val = 1024 * (_ / 4 % 2) + r.val; rw [hpt0]; omega) rfl))
    (fun n j a => congrArg EReal.toReal (kblk_apply V c (pt b qi n) (ix3 0 j a) (ix3 b ⟨n.val * 512 + j.val, by omega⟩ a)
      (by show b.val = _; rw [hpt n]; omega) (by show n.val * 512 + j.val = 512 * (_ % 4) + j.val; rw [hpt n]; omega) rfl))
    (fun n j a => congrArg EReal.toReal (vblk_apply V c (pt b qi n) (ix3 0 j a) (ix3 b ⟨n.val * 512 + j.val, by omega⟩ a)
      (by show b.val = _; rw [hpt n]; omega) (by show n.val * 512 + j.val = 512 * (_ % 4) + j.val; rw [hpt n]; omega) rfl))
    (fun n j => congrArg EReal.toReal (bblk_apply V c (pt b qi n) (ix3 0 r j)
      (ix3 b ⟨1024 * qi.val + r.val, by omega⟩ ⟨n.val * 512 + j.val, by omega⟩)
      (by show b.val = _; rw [hpt n]; omega) (by show 1024 * qi.val + r.val = 1024 * (_ / 4 % 2) + r.val; rw [hpt n]; omega)
      (by show n.val * 512 + j.val = 512 * (_ % 4) + j.val; rw [hpt n]; omega)))
    (fun a => rfl) rfl)

/-- What a point that writes the output block back (the last key/value step of its pair) writes is that block of
    the attention formula's array. -/
theorem flushed1_6 (t : Fin cfg1.N) (hf : (cfg1.win 6).flush t = true) :
    (dat1 V c).flushed 6 t = ((cfg1.win 6).blk t).view.read (Elt Ideal) (out1 V c) := by
  have h3 : t.val % 4 = 3 := (flush1_6 t).mp hf
  have ht := val_lt_32 t
  obtain ⟨b, qi, rfl⟩ : ∃ (b : Fin 4) (qi : Fin 2), t = pt b qi 3 :=
    ⟨⟨t.val / 8, by omega⟩, ⟨t.val / 4 % 2, by omega⟩, Fin.ext (by rw [pt_val]; dsimp only; omega)⟩
  have hpt : (pt b qi 3).val = 8 * b.val + 4 * qi.val + 3 := pt_val b qi 3
  obtain ⟨-, -, -, -, -, -, ⟨e0, e1, e2⟩⟩ := idx1_facts (pt b qi 3)
  show (cfg1.win 6).cut (grid1.coords (pt b qi 3)) ((dat1 V c).after 6 (pt b qi 3)) = _
  rw [after1_6]
  refine funext fun (j : S1x1024x1024.Idx) => ?_
  rw [View.read_apply]
  show (outsAt1 V c (pt b qi 3).val (pt b qi 3).isLt).1 j = out1 V c (((cfg1.win 6).blk (pt b qi 3)).view.emb j)
  have hj0 : (j 0).val < 1 := (j 0).isLt
  have hj1 : (j 1).val < 1024 := (j 1).isLt
  have hj2 : (j 2).val < 1024 := (j 2).isLt
  have ej : j = ix3 0 (⟨(j 1).val, hj1⟩ : Fin 1024) (⟨(j 2).val, hj2⟩ : Fin 1024) := by
    funext a
    match a with
    | ⟨0, _⟩ => exact Fin.ext (by show (j 0).val = 0; omega)
    | ⟨1, _⟩ => rfl
    | ⟨2, _⟩ => rfl
  have ei : ((cfg1.win 6).blk (pt b qi 3)).view.emb j
      = ix3 b (⟨1024 * qi.val + (j 1).val, by omega⟩ : Fin 2048) (⟨(j 2).val, hj2⟩ : Fin 1024) := by
    funext a
    refine Fin.ext ?_
    match a with
    | ⟨0, _⟩ => show win1_6.index (pt b qi 3) (0 : Fin 3) * 1 + 1 * (j 0).val = b.val; omega
    | ⟨1, _⟩ => show win1_6.index (pt b qi 3) (1 : Fin 3) * 1024 + 1 * (j 1).val = 1024 * qi.val + (j 1).val; omega
    | ⟨2, _⟩ => show win1_6.index (pt b qi 3) (2 : Fin 3) * 1024 + 1 * (j 2).val = (j 2).val; omega
  rw [ei]
  refine Eq.trans (congrArg (outsAt1 V c (pt b qi 3).val (pt b qi 3).isLt).1 ej) ?_
  exact out_entry V c hq hk hv hsw hpw hpb b qi ⟨(j 1).val, hj1⟩ ⟨(j 2).val, hj2⟩

/-- REGION 1'S OUTPUT ARRAY after its 32 grid points, index by index: the attention formula of the six input arrays'
    real values. The blocks written back at the last key/value steps cover the array. -/
theorem arr1_6 (y : S4x2048x1024.Idx) :
    (dat1 V c).arrAt 6 cfg1.N y
      = ((attnOutR (fun b s a => (qA V c (ix3 b s a)).toReal) (fun b s a => (kA V c (ix3 b s a)).toReal)
          (fun b s a => (vA V c (ix3 b s a)).toReal) (fun i => (swA V c i).toReal) (fun i => (pwA V c i).toReal)
          (fun p => (pbA V c (ix2 0 p)).toReal) (y 0) (y 1) (y 2) : ℝ) : EReal) :=
  congrFun ((dat1 V c).arrAt_eq_of_cover 6 (out1 V c) (flushed1_6 V c hq hk hv hsw hpw hpb) cover1_6) y

end AtIdeal

end Cert.KernelIdeal.Hand

end
-- ==== Proof.KI.Val0.lean ====
/- The values of the first pallas_call's three results, on the extended reals (every operation exact, a change of
   float format the identity): after the sixteen points, result o (o = 0, 1, 2) holds at (r, a)
       Σ_h x[r, h] · w[h, 1024 o + a]  +  b[0, 1024 o + a],
   x, w, b the activations, the fused weight and the bias row as the region finds them.

   First the stored payload at an entry: a 512x1024 by 1024x1024 product into the zero accumulator is the sum over the
   one contracted axis, the bias row is spread over the rows, the casts are the identity. Then a point's three loaded
   operands: the activations' block at point t is rows 512 t … 512 t + 511; the weight's and the bias's blocks are the
   whole arrays, of which the body reads the o-th column third. Then from blocks to the array: point t writes back
   rows 512 t … 512 t + 511 of the projection, and row r is written by point r / 512, so the sixteen blocks cover the
   array. -/
import proofs.«419060_j65541200937045_3_alg».proof.Proof.KI.R0
import proofs.«419060_j65541200937045_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The body's payload at an index -/

/-- The whole-block rectangle's offsets are zero on both axes. -/
theorem zero_offsets : (![0, 0] : Fin 2 → Nat) = fun _ => 0 := funext fun a => by fin_cases a <;> rfl

theorem lhs_qkv_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_qkv_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_qkv_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_qkv_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A 512x1024 by 1024x1024 product into the zero accumulator, entry (p, q): row p of the left factor against column q
    of the right one. -/
theorem matmul_qkv_apply (a : FVec Ideal S512x1024 .bf16) (w : FVec Ideal S1024x1024 .bf16) (p : Fin 512) (q : Fin 1024) :
    matmul dot_S512x1024_S1024x1024_S512x1024_1_0_0_1_n_n none a w (constant (F := Ideal) S512x1024 .f32 0x00000000#32) (ix2 p q) = ∑ h : Fin 1024, a (ix2 p h) * w (ix2 h q) := by
  refine (Ideal.matmul_constant_zero_apply dot_S512x1024_S1024x1024_S512x1024_1_0_0_1_n_n none a w (ix2 p q)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact lhs_qkv_0 _ _
    | ⟨1, _⟩ => exact (lhs_qkv_1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (rhs_qkv_0 _ _).trans hk
    | ⟨1, _⟩ => exact rhs_qkv_1 _ _)
  rw [el, er]

/-- The bias row spread over the 512 rows, entry (p, q): the row's entry q. -/
theorem bias_row_apply (b : FVec Ideal S1x1024 .f32) (p : Fin 512) (q : Fin 1024) :
    broadcastTo S512x1024 b broadcasts_S1x1024_S512x1024 (ix2 p q) = b (ix2 0 q) := by
  refine broadcastTo_apply b _ (ix2 p q) (ix2 0 q) fun a => ?_
  match a with
  | ⟨0, _⟩ => rfl
  | ⟨1, _⟩ => rfl

/-- The stored payload at entry (p, q), all format changes being the identity on extended reals: row p of the
    activations against column q of the weight slice, plus the bias slice's entry q. -/
theorem qkv_pay2_apply (x0 : Vec Ideal S512x1024 .f32) (w : Vec Ideal S1024x1024 .bf16) (b : Vec Ideal S1x1024 .f32) (p : Fin 512) (q : Fin 1024) :
    k0_pay2 (F := Ideal) x0 w b (ix2 p q) = (∑ h : Fin 1024, x0 (ix2 p h) * w (ix2 h q)) + b (ix2 0 q) := by
  unfold k0_pay2 k0_pay1
  simp only [shapeCast_self]
  rw [truncf_apply, addf_apply, matmul_qkv_apply, bias_row_apply]
  rfl

/-- The three payloads are one function of their operands. -/
theorem qkv_pay3_eq : k0_pay3 (F := Ideal) = k0_pay2 := rfl
theorem qkv_pay4_eq : k0_pay4 (F := Ideal) = k0_pay2 := rfl

/-! ## The weight's and the bias's column thirds read at an index -/

theorem ldW0_apply (x1 : Vec Ideal S1024x3072 .bf16) (h q : Fin 1024) : View.ld x1 rW0 (ix2 h q) = x1 (ix2 h (col 0 q)) := by
  refine congrArg x1 (funext fun a => Fin.ext ?_)
  match a with
  | ⟨0, _⟩ => show 0 + 1 * h.val = h.val; omega
  | ⟨1, _⟩ => show 0 + 1 * q.val = 0 * 1024 + q.val; omega
theorem ldW1_apply (x1 : Vec Ideal S1024x3072 .bf16) (h q : Fin 1024) : View.ld x1 rW1 (ix2 h q) = x1 (ix2 h (col 1 q)) := by
  refine congrArg x1 (funext fun a => Fin.ext ?_)
  match a with
  | ⟨0, _⟩ => show 0 + 1 * h.val = h.val; omega
  | ⟨1, _⟩ => show 1024 + 1 * q.val = 1 * 1024 + q.val; omega
theorem ldW2_apply (x1 : Vec Ideal S1024x3072 .bf16) (h q : Fin 1024) : View.ld x1 rW2 (ix2 h q) = x1 (ix2 h (col 2 q)) := by
  refine congrArg x1 (funext fun a => Fin.ext ?_)
  match a with
  | ⟨0, _⟩ => show 0 + 1 * h.val = h.val; omega
  | ⟨1, _⟩ => show 2048 + 1 * q.val = 2 * 1024 + q.val; omega
theorem ldB0_apply (x2 : Vec Ideal S1x3072 .f32) (q : Fin 1024) : View.ld x2 rB0 (ix2 0 q) = x2 (ix2 0 (col 0 q)) := by
  refine congrArg x2 (funext fun a => Fin.ext ?_)
  match a with
  | ⟨0, _⟩ => rfl
  | ⟨1, _⟩ => show 0 + 1 * q.val = 0 * 1024 + q.val; omega
theorem ldB1_apply (x2 : Vec Ideal S1x3072 .f32) (q : Fin 1024) : View.ld x2 rB1 (ix2 0 q) = x2 (ix2 0 (col 1 q)) := by
  refine congrArg x2 (funext fun a => Fin.ext ?_)
  match a with
  | ⟨0, _⟩ => rfl
  | ⟨1, _⟩ => show 1024 + 1 * q.val = 1 * 1024 + q.val; omega
theorem ldB2_apply (x2 : Vec Ideal S1x3072 .f32) (q : Fin 1024) : View.ld x2 rB2 (ix2 0 q) = x2 (ix2 0 (col 2 q)) := by
  refine congrArg x2 (funext fun a => Fin.ext ?_)
  match a with
  | ⟨0, _⟩ => rfl
  | ⟨1, _⟩ => show 2048 + 1 * q.val = 2 * 1024 + q.val; omega

/-! ## The projections as functions of the whole arrays -/

/-- Entry (r, a) of the o-th projection of the arrays x : [8192, 1024], w : [1024, 3072], b : [1, 3072]:
    Σ_h x[r, h] · w[h, 1024 o + a] + b[0, 1024 o + a]. -/
def proj0 (o : Fin 3) (x : S8192x1024.Idx → EReal) (w : S1024x3072.Idx → EReal) (b : S1x3072.Idx → EReal) : S8192x1024.Idx → EReal :=
  fun y => (∑ h : Fin 1024, x (ix2 (y 0) h) * w (ix2 h (col o (y 1)))) + b (ix2 0 (col o (y 1)))

/-- The same, with the definition opened. -/
theorem proj0_apply (o : Fin 3) (x : S8192x1024.Idx → EReal) (w : S1024x3072.Idx → EReal) (b : S1x3072.Idx → EReal) (y : S8192x1024.Idx) :
    proj0 o x w b y = (∑ h : Fin 1024, x (ix2 (y 0) h) * w (ix2 h (col o (y 1)))) + b (ix2 0 (col o (y 1))) := rfl

/-- The call's index maps, decided over the grid: the activations' and the results' block index is (t, 0) at point t,
    the weight's and the bias's (0, 0) at every point. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The activations' block at point t is rows 512 t … 512 t + 511 of the array. -/
theorem iblk0_0_apply (c : Dev nD) (t : Fin cfg0.N) (x : S512x1024.Idx) (k : S8192x1024.Idx)
    (hk0 : (k 0).val = 512 * t.val + (x 0).val) (hk1 : (k 1).val = (x 1).val) :
    (iblk0 V c 0 t : Vec Ideal S512x1024 .f32) x = (V c main_v0 : S8192x1024.Idx → EReal) k := by
  obtain ⟨e0, e1, -⟩ := idx_facts0 t
  unfold iblk0
  rw [View.read_apply]
  show V c main_v0 _ = V c main_v0 _
  congr 1
  funext a
  apply Fin.ext
  match a with
  | ⟨0, _⟩ => show win0_0.index t (0 : Fin 2) * 512 + 1 * (x 0).val = (k 0).val; rw [e0, hk0]; omega
  | ⟨1, _⟩ => show win0_0.index t (1 : Fin 2) * 1024 + 1 * (x 1).val = (k 1).val; rw [e1, hk1]; omega

/-- The weight's block at every point is the whole weight, -/
theorem iblk0_1_apply (c : Dev nD) (t : Fin cfg0.N) (x : S1024x3072.Idx) :
    (iblk0 V c 1 t : Vec Ideal S1024x3072 .bf16) x = (V c main_v1 : S1024x3072.Idx → EReal) x := by
  obtain ⟨-, -, e0, e1, -⟩ := idx_facts0 t
  unfold iblk0
  rw [View.read_apply]
  show V c main_v1 _ = V c main_v1 _
  congr 1
  funext a
  apply Fin.ext
  match a with
  | ⟨0, _⟩ => show win0_1.index t (0 : Fin 2) * 1024 + 1 * (x 0).val = (x 0).val; rw [e0]; omega
  | ⟨1, _⟩ => show win0_1.index t (1 : Fin 2) * 3072 + 1 * (x 1).val = (x 1).val; rw [e1]; omega

/-- and the bias's the whole bias. -/
theorem iblk0_2_apply (c : Dev nD) (t : Fin cfg0.N) (x : S1x3072.Idx) :
    (iblk0 V c 2 t : Vec Ideal S1x3072 .f32) x = (V c main_v2 : S1x3072.Idx → EReal) x := by
  obtain ⟨-, -, -, -, e0, e1, -⟩ := idx_facts0 t
  unfold iblk0
  rw [View.read_apply]
  show V c main_v2 _ = V c main_v2 _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 3072 + 1 * (x 1).val = (x 1).val; rw [e1]; omega

/-! ## One point's payload as the projection of the whole arrays -/

/-- When a point's three loaded operands are the arrays' row r (as row p of the block), the o-th column third of the
    weight and of the bias, the payload's entry (p, a) is the o-th projection's entry (r, a). -/
theorem point_value (o : Fin 3) (X : S8192x1024.Idx → EReal) (W : S1024x3072.Idx → EReal) (B : S1x3072.Idx → EReal)
    (x0 : Vec Ideal S512x1024 .f32) (w : Vec Ideal S1024x1024 .bf16) (b : Vec Ideal S1x1024 .f32) (r : Fin 8192) (p : Fin 512) (q : Fin 1024)
    (hx : ∀ h : Fin 1024, x0 (ix2 p h) = X (ix2 r h)) (hw : ∀ h : Fin 1024, w (ix2 h q) = W (ix2 h (col o q)))
    (hb : b (ix2 0 q) = B (ix2 0 (col o q))) :
    k0_pay2 (F := Ideal) x0 w b (ix2 p q) = proj0 o X W B (ix2 r q) := by
  rw [qkv_pay2_apply, hb]
  unfold proj0
  exact congrArg (· + B (ix2 0 (col o q))) (Finset.sum_congr rfl fun h _ => by rw [hx h, hw h])

/-! ## From blocks to the arrays -/

/-- What point t writes back of result 0: block t — rows 512 t … 512 t + 511 — of the projection of the arrays as the
    region finds them. -/
theorem flushed0_3_eq (c : Dev nD) (t : Fin cfg0.N) :
    (dat0 V c).flushed 3 t = ((cfg0.win 3).blk t).view.read (Elt Ideal) (proj0 0 (V c main_v0) (V c main_v1) (V c main_v2)) := by
  show (cfg0.win 3).cut (grid0.coords t) ((dat0 V c).after 3 t) = _
  rw [after0_3]
  unfold out0_3
  rw [View.canon_unit_zero zero_offsets]
  simp only [View.ld_unit_zero (S := S512x1024) zero_offsets]
  obtain ⟨-, -, -, -, -, -, e0, e1, -⟩ := idx_facts0 t
  have hN : cfg0.N = 16 := N_0
  have ht : t.val < 16 := hN ▸ t.isLt
  funext j
  obtain ⟨p, q, rfl⟩ : ∃ (p : Fin 512) (q : Fin 1024), j = ix2 p q := ⟨j 0, j 1, eq_ix2 j⟩
  refine (point_value 0 (V c main_v0) (V c main_v1) (V c main_v2) (iblk0 V c 0 t) (View.ld (iblk0 V c 1 t) rW0) (View.ld (iblk0 V c 2 t) rB0)
    ⟨512 * t.val + p.val, by omega⟩ p q (fun h => iblk0_0_apply V c t _ _ rfl rfl)
    (fun h => (ldW0_apply _ h q).trans (iblk0_1_apply V c t _)) ((ldB0_apply _ q).trans (iblk0_2_apply V c t _))).trans ?_
  show proj0 0 (V c main_v0) (V c main_v1) (V c main_v2) _ = proj0 0 (V c main_v0) (V c main_v1) (V c main_v2) (((cfg0.win 3).blk t).view.emb (ix2 p q))
  congr 1
  funext a
  apply Fin.ext
  match a with
  | ⟨0, _⟩ => show 512 * t.val + p.val = win0_3.index t (0 : Fin 2) * 512 + 1 * p.val; rw [e0]; omega
  | ⟨1, _⟩ => show q.val = win0_3.index t (1 : Fin 2) * 1024 + 1 * q.val; rw [e1]; omega

/-- An index of the array is in point t's block iff each coordinate is in the block's range on its axis. -/
theorem mem_blk0_3 (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v3_0).slice (win0_3.rect t)).set ↔ _
  rw [View.set_slice_whole, Rect.mem_set_unit]
  exact Iff.rfl

/-- Every row of the array is written back: row r by point r / 512. -/
theorem cover0_3 (i : S8192x1024.Idx) : ∃ t : Fin cfg0.N, (cfg0.win 3).flush t = true ∧ i ∈ ((cfg0.win 3).blk t).view.set := by
  have hN : cfg0.N = 16 := N_0
  have hi0 : (i 0).val < 8192 := (i 0).isLt
  have hi1 : (i 1).val < 1024 := (i 1).isLt
  refine ⟨⟨(i 0).val / 512, by omega⟩, flush0_3 _, ?_⟩
  obtain ⟨-, -, -, -, -, -, e0, e1, -⟩ := idx_facts0 ⟨(i 0).val / 512, by omega⟩
  rw [mem_blk0_3]
  intro a
  match a with
  | ⟨0, _⟩ => show win0_3.index _ (0 : Fin 2) * 512 ≤ (i 0).val ∧ (i 0).val < win0_3.index _ (0 : Fin 2) * 512 + 512; rw [e0]; show (i 0).val / 512 * 512 ≤ (i 0).val ∧ (i 0).val < (i 0).val / 512 * 512 + 512; omega
  | ⟨1, _⟩ => show win0_3.index _ (1 : Fin 2) * 1024 ≤ (i 1).val ∧ (i 1).val < win0_3.index _ (1 : Fin 2) * 1024 + 1024; rw [e1]; omega

/-- Result 0's array after the sixteen points: the projection of the arrays as the region finds them, -/
theorem arr0_3_eq (c : Dev nD) : (dat0 V c).arrAt 3 cfg0.N = proj0 0 (V c main_v0) (V c main_v1) (V c main_v2) :=
  (dat0 V c).arrAt_eq_of_cover 3 (proj0 0 (V c main_v0) (V c main_v1) (V c main_v2)) (fun t _ => flushed0_3_eq V c t) (cover0_3)

/-- index by index. -/
theorem arr0_3 (c : Dev nD) (y : S8192x1024.Idx) :
    (dat0 V c).arrAt 3 cfg0.N y = proj0 0 (V c main_v0) (V c main_v1) (V c main_v2) y :=
  congrFun (arr0_3_eq V c) y

/-- What point t writes back of result 1: block t — rows 512 t … 512 t + 511 — of the projection of the arrays as the
    region finds them. -/
theorem flushed0_4_eq (c : Dev nD) (t : Fin cfg0.N) :
    (dat0 V c).flushed 4 t = ((cfg0.win 4).blk t).view.read (Elt Ideal) (proj0 1 (V c main_v0) (V c main_v1) (V c main_v2)) := by
  show (cfg0.win 4).cut (grid0.coords t) ((dat0 V c).after 4 t) = _
  rw [after0_4]
  unfold out0_4
  rw [View.canon_unit_zero zero_offsets]
  simp only [View.ld_unit_zero (S := S512x1024) zero_offsets]
  rw [qkv_pay3_eq]
  obtain ⟨-, -, -, -, -, -, -, -, e0, e1, -⟩ := idx_facts0 t
  have hN : cfg0.N = 16 := N_0
  have ht : t.val < 16 := hN ▸ t.isLt
  funext j
  obtain ⟨p, q, rfl⟩ : ∃ (p : Fin 512) (q : Fin 1024), j = ix2 p q := ⟨j 0, j 1, eq_ix2 j⟩
  refine (point_value 1 (V c main_v0) (V c main_v1) (V c main_v2) (iblk0 V c 0 t) (View.ld (iblk0 V c 1 t) rW1) (View.ld (iblk0 V c 2 t) rB1)
    ⟨512 * t.val + p.val, by omega⟩ p q (fun h => iblk0_0_apply V c t _ _ rfl rfl)
    (fun h => (ldW1_apply _ h q).trans (iblk0_1_apply V c t _)) ((ldB1_apply _ q).trans (iblk0_2_apply V c t _))).trans ?_
  show proj0 1 (V c main_v0) (V c main_v1) (V c main_v2) _ = proj0 1 (V c main_v0) (V c main_v1) (V c main_v2) (((cfg0.win 4).blk t).view.emb (ix2 p q))
  congr 1
  funext a
  apply Fin.ext
  match a with
  | ⟨0, _⟩ => show 512 * t.val + p.val = win0_4.index t (0 : Fin 2) * 512 + 1 * p.val; rw [e0]; omega
  | ⟨1, _⟩ => show q.val = win0_4.index t (1 : Fin 2) * 1024 + 1 * q.val; rw [e1]; omega

/-- An index of the array is in point t's block iff each coordinate is in the block's range on its axis. -/
theorem mem_blk0_4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v3_1).slice (win0_4.rect t)).set ↔ _
  rw [View.set_slice_whole, Rect.mem_set_unit]
  exact Iff.rfl

/-- Every row of the array is written back: row r by point r / 512. -/
theorem cover0_4 (i : S8192x1024.Idx) : ∃ t : Fin cfg0.N, (cfg0.win 4).flush t = true ∧ i ∈ ((cfg0.win 4).blk t).view.set := by
  have hN : cfg0.N = 16 := N_0
  have hi0 : (i 0).val < 8192 := (i 0).isLt
  have hi1 : (i 1).val < 1024 := (i 1).isLt
  refine ⟨⟨(i 0).val / 512, by omega⟩, flush0_4 _, ?_⟩
  obtain ⟨-, -, -, -, -, -, -, -, e0, e1, -⟩ := idx_facts0 ⟨(i 0).val / 512, by omega⟩
  rw [mem_blk0_4]
  intro a
  match a with
  | ⟨0, _⟩ => show win0_4.index _ (0 : Fin 2) * 512 ≤ (i 0).val ∧ (i 0).val < win0_4.index _ (0 : Fin 2) * 512 + 512; rw [e0]; show (i 0).val / 512 * 512 ≤ (i 0).val ∧ (i 0).val < (i 0).val / 512 * 512 + 512; omega
  | ⟨1, _⟩ => show win0_4.index _ (1 : Fin 2) * 1024 ≤ (i 1).val ∧ (i 1).val < win0_4.index _ (1 : Fin 2) * 1024 + 1024; rw [e1]; omega

/-- Result 1's array after the sixteen points: the projection of the arrays as the region finds them, -/
theorem arr0_4_eq (c : Dev nD) : (dat0 V c).arrAt 4 cfg0.N = proj0 1 (V c main_v0) (V c main_v1) (V c main_v2) :=
  (dat0 V c).arrAt_eq_of_cover 4 (proj0 1 (V c main_v0) (V c main_v1) (V c main_v2)) (fun t _ => flushed0_4_eq V c t) (cover0_4)

/-- index by index. -/
theorem arr0_4 (c : Dev nD) (y : S8192x1024.Idx) :
    (dat0 V c).arrAt 4 cfg0.N y = proj0 1 (V c main_v0) (V c main_v1) (V c main_v2) y :=
  congrFun (arr0_4_eq V c) y

/-- What point t writes back of result 2: block t — rows 512 t … 512 t + 511 — of the projection of the arrays as the
    region finds them. -/
theorem flushed0_5_eq (c : Dev nD) (t : Fin cfg0.N) :
    (dat0 V c).flushed 5 t = ((cfg0.win 5).blk t).view.read (Elt Ideal) (proj0 2 (V c main_v0) (V c main_v1) (V c main_v2)) := by
  show (cfg0.win 5).cut (grid0.coords t) ((dat0 V c).after 5 t) = _
  rw [after0_5]
  unfold out0_5
  rw [View.canon_unit_zero zero_offsets]
  simp only [View.ld_unit_zero (S := S512x1024) zero_offsets]
  rw [qkv_pay4_eq]
  obtain ⟨-, -, -, -, -, -, -, -, -, -, e0, e1⟩ := idx_facts0 t
  have hN : cfg0.N = 16 := N_0
  have ht : t.val < 16 := hN ▸ t.isLt
  funext j
  obtain ⟨p, q, rfl⟩ : ∃ (p : Fin 512) (q : Fin 1024), j = ix2 p q := ⟨j 0, j 1, eq_ix2 j⟩
  refine (point_value 2 (V c main_v0) (V c main_v1) (V c main_v2) (iblk0 V c 0 t) (View.ld (iblk0 V c 1 t) rW2) (View.ld (iblk0 V c 2 t) rB2)
    ⟨512 * t.val + p.val, by omega⟩ p q (fun h => iblk0_0_apply V c t _ _ rfl rfl)
    (fun h => (ldW2_apply _ h q).trans (iblk0_1_apply V c t _)) ((ldB2_apply _ q).trans (iblk0_2_apply V c t _))).trans ?_
  show proj0 2 (V c main_v0) (V c main_v1) (V c main_v2) _ = proj0 2 (V c main_v0) (V c main_v1) (V c main_v2) (((cfg0.win 5).blk t).view.emb (ix2 p q))
  congr 1
  funext a
  apply Fin.ext
  match a with
  | ⟨0, _⟩ => show 512 * t.val + p.val = win0_5.index t (0 : Fin 2) * 512 + 1 * p.val; rw [e0]; omega
  | ⟨1, _⟩ => show q.val = win0_5.index t (1 : Fin 2) * 1024 + 1 * q.val; rw [e1]; omega

/-- An index of the array is in point t's block iff each coordinate is in the block's range on its axis. -/
theorem mem_blk0_5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v3_2).slice (win0_5.rect t)).set ↔ _
  rw [View.set_slice_whole, Rect.mem_set_unit]
  exact Iff.rfl

/-- Every row of the array is written back: row r by point r / 512. -/
theorem cover0_5 (i : S8192x1024.Idx) : ∃ t : Fin cfg0.N, (cfg0.win 5).flush t = true ∧ i ∈ ((cfg0.win 5).blk t).view.set := by
  have hN : cfg0.N = 16 := N_0
  have hi0 : (i 0).val < 8192 := (i 0).isLt
  have hi1 : (i 1).val < 1024 := (i 1).isLt
  refine ⟨⟨(i 0).val / 512, by omega⟩, flush0_5 _, ?_⟩
  obtain ⟨-, -, -, -, -, -, -, -, -, -, e0, e1⟩ := idx_facts0 ⟨(i 0).val / 512, by omega⟩
  rw [mem_blk0_5]
  intro a
  match a with
  | ⟨0, _⟩ => show win0_5.index _ (0 : Fin 2) * 512 ≤ (i 0).val ∧ (i 0).val < win0_5.index _ (0 : Fin 2) * 512 + 512; rw [e0]; show (i 0).val / 512 * 512 ≤ (i 0).val ∧ (i 0).val < (i 0).val / 512 * 512 + 512; omega
  | ⟨1, _⟩ => show win0_5.index _ (1 : Fin 2) * 1024 ≤ (i 1).val ∧ (i 1).val < win0_5.index _ (1 : Fin 2) * 1024 + 1024; rw [e1]; omega

/-- Result 2's array after the sixteen points: the projection of the arrays as the region finds them, -/
theorem arr0_5_eq (c : Dev nD) : (dat0 V c).arrAt 5 cfg0.N = proj0 2 (V c main_v0) (V c main_v1) (V c main_v2) :=
  (dat0 V c).arrAt_eq_of_cover 5 (proj0 2 (V c main_v0) (V c main_v1) (V c main_v2)) (fun t _ => flushed0_5_eq V c t) (cover0_5)

/-- index by index. -/
theorem arr0_5 (c : Dev nD) (y : S8192x1024.Idx) :
    (dat0 V c).arrAt 5 cfg0.N y = proj0 2 (V c main_v0) (V c main_v1) (V c main_v2) y :=
  congrFun (arr0_5_eq V c) y

end Cert.KernelIdeal.Hand

end
-- ==== Proof.KI.Host.lean ====
/-
  What the host lines of the program leave in their result buffers, read at one index, at the ideal instance:
  floats are extended reals and a change of format is the identity. Before the projection kernel: x with its batch
  and sequence axes merged into rows (row b·2048 + s), the fused weight unchanged, the bias as a one-row array.
  Between the kernels: each projection output with its rows split back into batch and sequence, the output weight
  unchanged, the output bias as a one-row array; the mask is written by no line.
-/
import proofs.«419060_j65541200937045_3_alg».proof.Proof.KI.Named
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

/-! ## The three regroupings of indices, each for any array of extended reals -/

/-- [4, 2048, 1024] read as [8192, 1024]: row b·2048 + s is the element (b, s). -/
theorem merge_apply (x : S4x2048x1024.Idx → EReal) (b : Fin 4) (s : Fin 2048) (h : Fin 1024) :
    shapeCast S8192x1024 x shapeCasts_S4x2048x1024_S8192x1024 (ix2 (⟨b.val * 2048 + s.val, by omega⟩ : Fin 8192) h)
      = x (ix3 b s h) :=
  shapeCast_apply x _ _ _ (by rw [Shape.rowMajor_val_three, Shape.rowMajor_val_two]; rfl)

/-- [8192, 1024] read as [4, 2048, 1024]: the element (b, s) is row b·2048 + s. -/
theorem split_apply (x : S8192x1024.Idx → EReal) (b : Fin 4) (s : Fin 2048) (a : Fin 1024) :
    shapeCast S4x2048x1024 x shapeCasts_S8192x1024_S4x2048x1024 (ix3 b s a)
      = x (ix2 (⟨b.val * 2048 + s.val, by omega⟩ : Fin 8192) a) :=
  shapeCast_apply x _ _ _ (by rw [Shape.rowMajor_val_two, Shape.rowMajor_val_three]; rfl)

/-- [3072] read as [1, 3072]. -/
theorem row3072_apply (x : S3072.Idx → EReal) (j : Fin 3072) :
    shapeCast S1x3072 x shapeCasts_S3072_S1x3072 (ix2 (0 : Fin 1) j) = x (ix1 j) :=
  shapeCast_apply x _ _ _ (by rw [Shape.rowMajor_val_one, Shape.rowMajor_val_two]; show j.val = 0 * 3072 + j.val; omega)

/-- [1024] read as [1, 1024]. -/
theorem row1024_apply (x : S1024.Idx → EReal) (p : Fin 1024) :
    shapeCast S1x1024 x shapeCasts_S1024_S1x1024 (ix2 (0 : Fin 1) p) = x (ix1 p) :=
  shapeCast_apply x _ _ _ (by rw [Shape.rowMajor_val_one, Shape.rowMajor_val_two]; show p.val = 0 * 1024 + p.val; omega)

/-! ## Before the projection kernel -/

/-- The first line's result as a whole array: x regrouped. -/
theorem V1_v0_eq (c : Dev nD) :
    (V1 m ρ c main_v0 : S8192x1024.Idx → EReal)
      = shapeCast S8192x1024 (m ((c : Thread nD τ).loc main_arg0) : S4x2048x1024.Idx → EReal) shapeCasts_S4x2048x1024_S8192x1024 := by
  show StableHlo.after hostOps0 (W0 m ρ c) (Proc.devRef .tc main_v0) = _
  after_results
  rfl

theorem V1_v0 (c : Dev nD) (b : Fin 4) (s : Fin 2048) (h : Fin 1024) :
    V1 m ρ c main_v0 (ix2 (⟨b.val * 2048 + s.val, by omega⟩ : Fin 8192) h) = m ((c : Thread nD τ).loc main_arg0) (ix3 b s h) :=
  (congrFun (V1_v0_eq m ρ c) _).trans (merge_apply _ b s h)

/-- The second line's result: the fused weight, the change of format being the identity. -/
theorem V1_v1_eq (c : Dev nD) :
    (V1 m ρ c main_v1 : S1024x3072.Idx → EReal) = (m ((c : Thread nD τ).loc main_arg2) : S1024x3072.Idx → EReal) := by
  show StableHlo.after hostOps0 (W0 m ρ c) (Proc.devRef .tc main_v1) = _
  after_results
  rfl

theorem V1_v1 (c : Dev nD) (i : S1024x3072.Idx) : V1 m ρ c main_v1 i = m ((c : Thread nD τ).loc main_arg2) i :=
  congrFun (V1_v1_eq m ρ c) i

/-- The third line's result: the bias as one row. -/
theorem V1_v2_eq (c : Dev nD) :
    (V1 m ρ c main_v2 : S1x3072.Idx → EReal)
      = shapeCast S1x3072 (m ((c : Thread nD τ).loc main_arg3) : S3072.Idx → EReal) shapeCasts_S3072_S1x3072 := by
  show StableHlo.after hostOps0 (W0 m ρ c) (Proc.devRef .tc main_v2) = _
  after_results
  rfl

theorem V1_v2 (c : Dev nD) (j : Fin 3072) :
    V1 m ρ c main_v2 (ix2 (0 : Fin 1) j) = m ((c : Thread nD τ).loc main_arg3) (ix1 j) :=
  (congrFun (V1_v2_eq m ρ c) _).trans (row3072_apply _ j)

/-! ## Between the kernels -/

/-- The three outputs of the projection kernel are its windows 3, 4 and 5. -/
theorem arrRef0_3 : Pipeline.arrRef spec0 3 = main_v3_0 := rfl
theorem arrRef0_4 : Pipeline.arrRef spec0 4 = main_v3_1 := rfl
theorem arrRef0_5 : Pipeline.arrRef spec0 5 = main_v3_2 := rfl

/-- A buffer that is no output of the projection kernel and no result of the first three lines is, when the
    lines between the kernels start, as launched. -/
theorem W2_launch (c : Dev nD) (b : Ref sig .tc) (hA0 : ∀ w, Pipeline.arrRef spec0 w ≠ b)
    (h0 : b ≠ main_v0) (h1 : b ≠ main_v1) (h2 : b ≠ main_v2) :
    W2 m ρ c (Proc.devRef .tc b) = m ((c : Thread nD τ).loc b) :=
  calc W2 m ρ c (Proc.devRef .tc b)
    _ = W1 m ρ c (Proc.devRef .tc b) := W2_of_ne m ρ c b hA0
    _ = W0 m ρ c (Proc.devRef .tc b) := W1_keep m ρ c b h0 h1 h2
    _ = m ((c : Thread nD τ).loc b) := rfl

/-- The queries: the projection kernel's first output with its rows split into batch and sequence. -/
theorem V3_v4_eq (c : Dev nD) :
    (V3 m ρ c main_v4 : S4x2048x1024.Idx → EReal)
      = shapeCast S4x2048x1024 ((dat0 (V1 m ρ) c).arrAt 3 cfg0.N : S8192x1024.Idx → EReal) shapeCasts_S8192x1024_S4x2048x1024 := by
  show StableHlo.after hostOps1 (W2 m ρ c) (Proc.devRef .tc main_v4) = _
  after_results
  rw [show W2 m ρ c (Proc.devRef .tc main_v3_0) = (dat0 (V1 m ρ) c).arrAt 3 cfg0.N from W2_arr m ρ c 3]
  rfl

theorem V3_v4 (c : Dev nD) (b : Fin 4) (s : Fin 2048) (a : Fin 1024) :
    V3 m ρ c main_v4 (ix3 b s a) = (dat0 (V1 m ρ) c).arrAt 3 cfg0.N (ix2 (⟨b.val * 2048 + s.val, by omega⟩ : Fin 8192) a) :=
  (congrFun (V3_v4_eq m ρ c) _).trans (split_apply _ b s a)

/-- The keys: the second output, likewise. -/
theorem V3_v5_eq (c : Dev nD) :
    (V3 m ρ c main_v5 : S4x2048x1024.Idx → EReal)
      = shapeCast S4x2048x1024 ((dat0 (V1 m ρ) c).arrAt 4 cfg0.N : S8192x1024.Idx → EReal) shapeCasts_S8192x1024_S4x2048x1024 := by
  show StableHlo.after hostOps1 (W2 m ρ c) (Proc.devRef .tc main_v5) = _
  after_results
  rw [show W2 m ρ c (Proc.devRef .tc main_v3_1) = (dat0 (V1 m ρ) c).arrAt 4 cfg0.N from W2_arr m ρ c 4]
  rfl

theorem V3_v5 (c : Dev nD) (b : Fin 4) (s : Fin 2048) (a : Fin 1024) :
    V3 m ρ c main_v5 (ix3 b s a) = (dat0 (V1 m ρ) c).arrAt 4 cfg0.N (ix2 (⟨b.val * 2048 + s.val, by omega⟩ : Fin 8192) a) :=
  (congrFun (V3_v5_eq m ρ c) _).trans (split_apply _ b s a)

/-- The values: the third output, likewise. -/
theorem V3_v6_eq (c : Dev nD) :
    (V3 m ρ c main_v6 : S4x2048x1024.Idx → EReal)
      = shapeCast S4x2048x1024 ((dat0 (V1 m ρ) c).arrAt 5 cfg0.N : S8192x1024.Idx → EReal) shapeCasts_S8192x1024_S4x2048x1024 := by
  show StableHlo.after hostOps1 (W2 m ρ c) (Proc.devRef .tc main_v6) = _
  after_results
  rw [show W2 m ρ c (Proc.devRef .tc main_v3_2) = (dat0 (V1 m ρ) c).arrAt 5 cfg0.N from W2_arr m ρ c 5]
  rfl

theorem V3_v6 (c : Dev nD) (b : Fin 4) (s : Fin 2048) (a : Fin 1024) :
    V3 m ρ c main_v6 (ix3 b s a) = (dat0 (V1 m ρ) c).arrAt 5 cfg0.N (ix2 (⟨b.val * 2048 + s.val, by omega⟩ : Fin 8192) a) :=
  (congrFun (V3_v6_eq m ρ c) _).trans (split_apply _ b s a)

/-- The output weight, the change of format being the identity: no earlier line and no kernel wrote it. -/
theorem V3_v7_eq (c : Dev nD) :
    (V3 m ρ c main_v7 : S1024x1024.Idx → EReal) = (m ((c : Thread nD τ).loc main_arg4) : S1024x1024.Idx → EReal) := by
  show StableHlo.after hostOps1 (W2 m ρ c) (Proc.devRef .tc main_v7) = _
  after_results
  rw [W2_launch m ρ c main_arg4 (by decide) (by decide) (by decide) (by decide)]
  rfl

theorem V3_v7 (c : Dev nD) (i : S1024x1024.Idx) : V3 m ρ c main_v7 i = m ((c : Thread nD τ).loc main_arg4) i :=
  congrFun (V3_v7_eq m ρ c) i

/-- The output bias as one row. -/
theorem V3_v8_eq (c : Dev nD) :
    (V3 m ρ c main_v8 : S1x1024.Idx → EReal)
      = shapeCast S1x1024 (m ((c : Thread nD τ).loc main_arg5) : S1024.Idx → EReal) shapeCasts_S1024_S1x1024 := by
  show StableHlo.after hostOps1 (W2 m ρ c) (Proc.devRef .tc main_v8) = _
  after_results
  rw [W2_launch m ρ c main_arg5 (by decide) (by decide) (by decide) (by decide)]
  rfl

theorem V3_v8 (c : Dev nD) (p : Fin 1024) :
    V3 m ρ c main_v8 (ix2 (0 : Fin 1) p) = m ((c : Thread nD τ).loc main_arg5) (ix1 p) :=
  (congrFun (V3_v8_eq m ρ c) _).trans (row1024_apply _ p)

/-- The mask: written by no line and by no kernel before the attention kernel. -/
theorem V3_arg1 (c : Dev nD) : V3 m ρ c main_arg1 = m ((c : Thread nD τ).loc main_arg1) :=
  calc W3 m ρ c (Proc.devRef .tc main_arg1)
    _ = W2 m ρ c (Proc.devRef .tc main_arg1) := W3_keep m ρ c main_arg1 (by decide) (by decide) (by decide) (by decide) (by decide)
    _ = m ((c : Thread nD τ).loc main_arg1) := W2_launch m ρ c main_arg1 (by decide) (by decide) (by decide) (by decide)

end Cert.KernelIdeal.Hand

end
-- ==== Proof.KI.Bridge0.lean ====
/- The three inputs of the attention kernel — queries, keys, values — as the three projections of the program's
   ARGUMENTS, on the extended reals: with x : [4, 2048, 1024], cw : [1024, 3072], cb : [3072],
       input o at (b, s, a)  =  Σ_h x[b, s, h] · cw[h, 1024 o + a]  +  cb[1024 o + a]        (o = 0, 1, 2).
   The lines before the first kernel hand it x with batch and sequence merged into rows (row 2048 b + s), the fused
   weight unchanged and the bias as one row; the first kernel leaves in its o-th result, at row r and column a, the
   o-th projection of those three arrays; the lines between the kernels split the rows back into batch and sequence. -/
import proofs.«419060_j65541200937045_3_alg».proof.Proof.KI.Val0
import proofs.«419060_j65541200937045_3_alg».proof.Proof.KI.Host
import proofs.«419060_j65541200937045_3_alg».proof.Proof.Spec

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- Entry (b, s, a) of the o-th projection of the arguments x : [4, 2048, 1024], cw : [1024, 3072], cb : [3072]:
    Σ_h x[b, s, h] · cw[h, 1024 o + a] + cb[1024 o + a]. -/
def projE (o : Fin 3) (x : Sx.Idx → EReal) (cw : Scw.Idx → EReal) (cb : Scb.Idx → EReal) (b : Fin 4) (s : Fin 2048) (a : Fin 1024) : EReal :=
  (∑ h : Fin 1024, x (ix3 b s h) * cw (ix2 h (col o a))) + cb (ix1 (col o a))

/-- The projection of the row arrays at row r and column a, the index given by its coordinates. -/
theorem proj0_ix2 (o : Fin 3) (x : S8192x1024.Idx → EReal) (w : S1024x3072.Idx → EReal) (b : S1x3072.Idx → EReal) (r : Fin 8192) (a : Fin 1024) :
    proj0 o x w b (ix2 r a) = (∑ h : Fin 1024, x (ix2 r h) * w (ix2 h (col o a))) + b (ix2 0 (col o a)) := rfl

/-- The projection of the three arrays the first kernel is entered with, at row 2048 b + s, is the projection of the
    arguments at (b, s): the rows are x's (batch, sequence) pairs in order, the weight is the argument's, the bias row is
    the argument's entries. -/
theorem proj0_V1 (o : Fin 3) (c : Dev nD) (b : Fin 4) (s : Fin 2048) (a : Fin 1024) :
    proj0 o (V1 m ρ c main_v0) (V1 m ρ c main_v1) (V1 m ρ c main_v2) (ix2 (⟨b.val * 2048 + s.val, by omega⟩ : Fin 8192) a)
      = projE o (m ((c : Thread nD τ).loc main_arg0)) (m ((c : Thread nD τ).loc main_arg2)) (m ((c : Thread nD τ).loc main_arg3)) b s a := by
  rw [proj0_ix2]
  unfold projE
  rw [V1_v2 m ρ c (col o a)]
  refine congrArg (· + _) (Finset.sum_congr rfl fun h _ => ?_)
  rw [V1_v0 m ρ c b s h, V1_v1 m ρ c (ix2 h (col o a))]

/-- The queries at (b, s, a). -/
theorem V3_v4_proj (c : Dev nD) (b : Fin 4) (s : Fin 2048) (a : Fin 1024) :
    V3 m ρ c main_v4 (ix3 b s a) = projE 0 (m ((c : Thread nD τ).loc main_arg0)) (m ((c : Thread nD τ).loc main_arg2)) (m ((c : Thread nD τ).loc main_arg3)) b s a :=
  ((V3_v4 m ρ c b s a).trans (arr0_3 (V1 m ρ) c _)).trans (proj0_V1 m ρ 0 c b s a)

/-- The keys at (b, s, a). -/
theorem V3_v5_proj (c : Dev nD) (b : Fin 4) (s : Fin 2048) (a : Fin 1024) :
    V3 m ρ c main_v5 (ix3 b s a) = projE 1 (m ((c : Thread nD τ).loc main_arg0)) (m ((c : Thread nD τ).loc main_arg2)) (m ((c : Thread nD τ).loc main_arg3)) b s a :=
  ((V3_v5 m ρ c b s a).trans (arr0_4 (V1 m ρ) c _)).trans (proj0_V1 m ρ 1 c b s a)

/-- The values at (b, s, a). -/
theorem V3_v6_proj (c : Dev nD) (b : Fin 4) (s : Fin 2048) (a : Fin 1024) :
    V3 m ρ c main_v6 (ix3 b s a) = projE 2 (m ((c : Thread nD τ).loc main_arg0)) (m ((c : Thread nD τ).loc main_arg2)) (m ((c : Thread nD τ).loc main_arg3)) b s a :=
  ((V3_v6 m ρ c b s a).trans (arr0_5 (V1 m ρ) c _)).trans (proj0_V1 m ρ 2 c b s a)

end Cert.KernelIdeal.Hand

end
-- ==== Proof.KI.Bridge.lean ====
/-
  The idealized kernel program computes the common specification.

  The program is two kernels with host lines around them. The first leaves the three projections of the arguments,
      input o at (b, s, a)  =  Σ_h x[b, s, h] · cw[h, 1024 o + a]  +  cb[1024 o + a]        (o = 0, 1, 2),
  which the lines between the kernels hand to the second as its queries, keys and values, beside the mask, the output
  weight and the output bias as launched. The second leaves the attention stage of its six inputs' real values when
  their entries are real. With real arguments the projections are real — the coercion passes through the sum, the
  products and the added bias — so all six inputs are real; their real values are the real projections, the mask, the
  weight and the bias; and the attention stage of those is, by definition, the specification.
-/
import proofs.«419060_j65541200937045_3_alg».proof.Proof.KI.Val1
import proofs.«419060_j65541200937045_3_alg».proof.Proof.KI.Bridge0
import proofs.«419060_j65541200937045_3_alg».proof.Proof.KI.Host
import proofs.«419060_j65541200937045_3_alg».proof.Proof.Spec2
import proofs.«419060_j65541200937045_3_alg».proof.Proof.LibCoe
import Idealize.ShloMosaic.Lib.ValueIdx

set_option maxRecDepth 16384

noncomputable section

open scoped BigOperators

namespace Cert.KernelIdeal.Hand

open Cert.KernelIdeal Cert.KernelIdeal.Gen Cert.Spec Cert.Coe Idealize.ShloMosaic Idealize.ShloMosaic.TcCoe
  Idealize.ShloMosaic.ValueIdx Idealize.SL.Sem

variable (m : (ℓ : Loc nD τ sig) → Buf (Elt Ideal) ℓ) (ρ : Dev nD → PrngReg)

/-! ## The projections of real arrays are real -/

/-- With real entries, the projection computed on the extended reals is the coercion of the projection of the real
    values: the coercion passes through the sum, the products and the added bias. -/
theorem projE_coe (o : Fin 3) (x : Sx.Idx → EReal) (cw : Scw.Idx → EReal) (cb : Scb.Idx → EReal)
    (hx : AllReal x) (hcw : AllReal cw) (hcb : AllReal cb) (b : Fin 4) (s : Fin 2048) (a : Fin 1024) :
    projE o x cw cb b s a = ((projR (rl x) (rl cw) (rl cb) o b s a : ℝ) : EReal) := by
  unfold projE projR
  rw [EReal.coe_add, coe_sum]
  simp only [EReal.coe_mul, coe_rl hx, coe_rl hcw, coe_rl hcb]

/-- An array every entry of which, by coordinates, is the coercion of a real has real entries. -/
theorem allReal_of_ix3 {n0 n1 n2 : Nat} {v : (⟨3, ![n0, n1, n2]⟩ : Shape).Idx → EReal} {f : Fin n0 → Fin n1 → Fin n2 → ℝ}
    (h : ∀ b s a, v (ix3 b s a) = ((f b s a : ℝ) : EReal)) : AllReal v :=
  fun i => ⟨f (i 0) (i 1) (i 2), (congrArg v (eq_ix3 i)).trans (h (i 0) (i 1) (i 2))⟩

/-- The attention stage depends on its six inputs only through their values. -/
theorem attnOutR_congr {q q' k k' v v' : Fin 4 → Fin 2048 → Fin 1024 → ℝ} {sw sw' : Ssw.Idx → ℝ} {pw pw' : Spw.Idx → ℝ}
    {pb pb' : Fin 1024 → ℝ} (hq : ∀ b s a, q b s a = q' b s a) (hk : ∀ b s a, k b s a = k' b s a)
    (hv : ∀ b s a, v b s a = v' b s a) (hsw : ∀ i, sw i = sw' i) (hpw : ∀ i, pw i = pw' i) (hpb : ∀ p, pb p = pb' p)
    (b : Fin 4) (i : Fin 2048) (p : Fin 1024) :
    attnOutR q k v sw pw pb b i p = attnOutR q' k' v' sw' pw' pb' b i p := by
  obtain rfl : q = q' := funext fun b => funext fun s => funext fun a => hq b s a
  obtain rfl : k = k' := funext fun b => funext fun s => funext fun a => hk b s a
  obtain rfl : v = v' := funext fun b => funext fun s => funext fun a => hv b s a
  obtain rfl : sw = sw' := funext hsw
  obtain rfl : pw = pw' := funext hpw
  obtain rfl : pb = pb' := funext hpb
  rfl

/-! ## The attention kernel's result is the specification -/

/-- The attention kernel is entered with the three projections of the arguments as its queries, keys and values, and
    with the mask, the output weight and the output bias as launched. With real arguments all six are real, the
    kernel's result is the attention stage of their real values, and that stage applied to the three projections is
    the specification. -/
theorem result_eq_G (c : Dev nD)
    (h : AllReal (m ((c.tc : Thread nD τ).loc main_arg0)) ∧ AllReal (m ((c.tc : Thread nD τ).loc main_arg1))
      ∧ AllReal (m ((c.tc : Thread nD τ).loc main_arg2)) ∧ AllReal (m ((c.tc : Thread nD τ).loc main_arg3))
      ∧ AllReal (m ((c.tc : Thread nD τ).loc main_arg4)) ∧ AllReal (m ((c.tc : Thread nD τ).loc main_arg5))) :
    (dat1 (V3 m ρ) c).arrAt 6 cfg1.N
      = Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  obtain ⟨h0, h1, h2, h3, h4, h5⟩ := h
  -- queries, keys, values: the coerced real projections
  have eq : ∀ b s a, V3 m ρ c main_v4 (ix3 b s a)
      = ((projR (rl (m ((c.tc : Thread nD τ).loc main_arg0))) (rl (m ((c.tc : Thread nD τ).loc main_arg2)))
          (rl (m ((c.tc : Thread nD τ).loc main_arg3))) 0 b s a : ℝ) : EReal) :=
    fun b s a => (V3_v4_proj m ρ c b s a).trans (projE_coe 0 _ _ _ h0 h2 h3 b s a)
  have ek : ∀ b s a, V3 m ρ c main_v5 (ix3 b s a)
      = ((projR (rl (m ((c.tc : Thread nD τ).loc main_arg0))) (rl (m ((c.tc : Thread nD τ).loc main_arg2)))
          (rl (m ((c.tc : Thread nD τ).loc main_arg3))) 1 b s a : ℝ) : EReal) :=
    fun b s a => (V3_v5_proj m ρ c b s a).trans (projE_coe 1 _ _ _ h0 h2 h3 b s a)
  have ev : ∀ b s a, V3 m ρ c main_v6 (ix3 b s a)
      = ((projR (rl (m ((c.tc : Thread nD τ).loc main_arg0))) (rl (m ((c.tc : Thread nD τ).loc main_arg2)))
          (rl (m ((c.tc : Thread nD τ).loc main_arg3))) 2 b s a : ℝ) : EReal) :=
    fun b s a => (V3_v6_proj m ρ c b s a).trans (projE_coe 2 _ _ _ h0 h2 h3 b s a)
  -- so all six inputs of the attention kernel have real entries
  have hq : AllReal (V3 m ρ c main_v4) := allReal_of_ix3 eq
  have hk : AllReal (V3 m ρ c main_v5) := allReal_of_ix3 ek
  have hv : AllReal (V3 m ρ c main_v6) := allReal_of_ix3 ev
  have hsw : AllReal (V3 m ρ c main_arg1) := by rw [V3_arg1]; exact h1
  have hpw : AllReal (V3 m ρ c main_v7) := fun i => ⟨_, (V3_v7 m ρ c i).trans (h4.eq_coe_toReal i)⟩
  have hpb : AllReal (V3 m ρ c main_v8) := fun i => by
    obtain ⟨z, p, rfl⟩ : ∃ (z : Fin 1) (p : Fin 1024), i = ix2 z p := ⟨i 0, i 1, eq_ix2 i⟩
    obtain rfl : z = 0 := Subsingleton.elim _ _
    exact ⟨_, (V3_v8 m ρ c p).trans (h5.eq_coe_toReal _)⟩
  -- over explicit coordinates, the attention stage of the kernel's inputs is the specification's real term:
  -- the six coordinate functions the kernel's result is stated over agree with the specification's pointwise
  have key : ∀ (b : Fin 4) (i : Fin 2048) (p : Fin 1024),
      attnOutR (fun b s a => (V3 m ρ c main_v4 (ix3 b s a)).toReal) (fun b s a => (V3 m ρ c main_v5 (ix3 b s a)).toReal)
          (fun b s a => (V3 m ρ c main_v6 (ix3 b s a)).toReal) (fun i => (V3 m ρ c main_arg1 i).toReal)
          (fun i => (V3 m ρ c main_v7 i).toReal) (fun p => (V3 m ρ c main_v8 (ix2 0 p)).toReal) b i p
        = outR (rl (m ((c.tc : Thread nD τ).loc main_arg0))) (rl (m ((c.tc : Thread nD τ).loc main_arg1)))
            (rl (m ((c.tc : Thread nD τ).loc main_arg2))) (rl (m ((c.tc : Thread nD τ).loc main_arg3)))
            (rl (m ((c.tc : Thread nD τ).loc main_arg4))) (rl (m ((c.tc : Thread nD τ).loc main_arg5))) b i p :=
    fun b i p => (attnOutR_congr
      (fun b s a => (congrArg EReal.toReal (eq b s a)).trans (EReal.toReal_coe _))
      (fun b s a => (congrArg EReal.toReal (ek b s a)).trans (EReal.toReal_coe _))
      (fun b s a => (congrArg EReal.toReal (ev b s a)).trans (EReal.toReal_coe _))
      (fun i => congrArg EReal.toReal (congrFun (V3_arg1 m ρ c) i))
      (fun i => congrArg EReal.toReal (V3_v7 m ρ c i))
      (fun p => congrArg EReal.toReal (V3_v8 m ρ c p)) b i p).trans
      (outR_eq_attn (rl (m ((c.tc : Thread nD τ).loc main_arg0))) (rl (m ((c.tc : Thread nD τ).loc main_arg1)))
        (rl (m ((c.tc : Thread nD τ).loc main_arg2))) (rl (m ((c.tc : Thread nD τ).loc main_arg3)))
        (rl (m ((c.tc : Thread nD τ).loc main_arg4))) (rl (m ((c.tc : Thread nD τ).loc main_arg5))) b i p).symm
  -- and the specification reads its index by its three coordinates
  refine funext fun (y : S4x2048x1024.Idx) => ?_
  exact (arr1_6 (V3 m ρ) c hq hk hv hsw hpw hpb y).trans
    (congrArg (fun r : ℝ => (r : EReal)) (key (y 0) (y 1) (y 2)))

end Cert.KernelIdeal.Hand

end
-- ==== Proof.Ref.lean ====
/-
  The reference program computes the common specification.

  With every entry of the six argument arrays a real number, the reference's result is Cert.Spec.G of them:
  stage by stage, at an index given by its coordinates, each intermediate array is the coercion of a real —
    the fused projection   x·cw + cb                        (column 1024·o + a is the a-th column of slice o),
    the scale              1024^(-1/2) = 1/32,
    the scores             (q·kᵀ)·(1/32) + sw,
    the row maximum        a fold of max from −∞ over 2048 reals: some real M (which one does not matter),
    the weights            exp(s − M) / Σ_k exp(s_k − M)      (the divisor is a positive real),
    the context            Σ_j weight_j · v_j, which is Σ_j exp(s_j)·v_j / Σ_j exp(s_j): the shift cancels,
    the output projection  ctx·pw + pb.
  A coerced real is produced at every stage by pushing the coercion of the specification's real term inwards
  (over +, ·, −, finite sums, exp and the quotient by a nonzero real) until it meets the arguments' own entries.
  The facts about reals inside the extended reals used on the way are Cert.Coe's; what the float patterns denote
  is Cert.Consts's.
-/
import proofs.«419060_j65541200937045_3_alg».proof.Proof.Gen.ReferenceIdeal.Run
import proofs.«419060_j65541200937045_3_alg».proof.Proof.Gen.ReferenceIdeal.Read
import proofs.«419060_j65541200937045_3_alg».proof.Proof.Spec
import proofs.«419060_j65541200937045_3_alg».proof.Proof.LibCoe
import proofs.«419060_j65541200937045_3_alg».proof.Proof.Consts
import Idealize.ShloMosaic.Lib.ValueIdx
import Idealize.ShloMosaic.Lib.Pipeline.Value
import Idealize.ShloMosaic.PureOps.Ideal.Laws

set_option maxRecDepth 16384

noncomputable section

open scoped BigOperators

namespace Cert.RefSide

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec Cert.Coe Cert.Consts

variable (x0 : (⟨S4x2048x1024, .f32⟩ : BufTy).Contents (Elt Ideal)) (x1 : (⟨S4x2048x2048, .f32⟩ : BufTy).Contents (Elt Ideal))
  (x2 : (⟨S1024x3072, .f32⟩ : BufTy).Contents (Elt Ideal)) (x3 : (⟨S3072, .f32⟩ : BufTy).Contents (Elt Ideal))
  (x4 : (⟨S1024x1024, .f32⟩ : BufTy).Contents (Elt Ideal)) (x5 : (⟨S1024, .f32⟩ : BufTy).Contents (Elt Ideal))

/-! ## The fused projection and its three slices -/

/-- Entry (b, s, c) of x·cw + cb, over the extended reals as the program computes it. -/
theorem fused_at (b : Fin 4) (s : Fin 2048) (c : Fin 3072) :
    val_main_v3 (F := Ideal) x0 x2 x3 (ix3 b s c) = (∑ h : Fin 1024, x0 (ix3 b s h) * x2 (ix2 h c)) + x3 (ix1 c) := by
  rw [val_main_v3_apply, val_main_v0_apply, val_main_v2_apply, val_main_v1_apply, Ideal.addf_def]
  refine congrArg₂ (· + ·) (Finset.sum_congr rfl fun k _ => congrArg₂ (· * ·) (congrArg x0 ?_) (congrArg x2 ?_)) (congrArg x3 ?_)
  · exact ext3 rfl rfl rfl
  · exact ext2 rfl rfl
  · exact ext1 rfl

/-- With real entries, column 1024·o + a of the fused projection is the o-th projection's column a. -/
theorem fused_col (h0 : AllReal x0) (h2 : AllReal x2) (h3 : AllReal x3) (o : Fin 3) (b : Fin 4) (s : Fin 2048) (a : Fin 1024) :
    val_main_v3 (F := Ideal) x0 x2 x3 (ix3 b s (col o a)) = ((projR (rl x0) (rl x2) (rl x3) o b s a : ℝ) : EReal) := by
  rw [fused_at]
  unfold projR
  rw [EReal.coe_add, coe_sum]
  simp only [EReal.coe_mul, coe_rl h0, coe_rl h2, coe_rl h3]

theorem queries_at (h0 : AllReal x0) (h2 : AllReal x2) (h3 : AllReal x3) (b : Fin 4) (s : Fin 2048) (a : Fin 1024) :
    val_main_v4 (F := Ideal) x0 x2 x3 (ix3 b s a) = ((projR (rl x0) (rl x2) (rl x3) 0 b s a : ℝ) : EReal) := by
  rw [val_main_v4_apply, ← fused_col x0 x2 x3 h0 h2 h3 0 b s a]
  exact congrArg _ (ext3 rfl rfl (by show a.val = 0 * 1024 + a.val; omega))

theorem keys_at (h0 : AllReal x0) (h2 : AllReal x2) (h3 : AllReal x3) (b : Fin 4) (s : Fin 2048) (a : Fin 1024) :
    val_main_v5 (F := Ideal) x0 x2 x3 (ix3 b s a) = ((projR (rl x0) (rl x2) (rl x3) 1 b s a : ℝ) : EReal) := by
  rw [val_main_v5_apply, ← fused_col x0 x2 x3 h0 h2 h3 1 b s a]
  exact congrArg _ (ext3 rfl rfl (by show 1024 + a.val = 1 * 1024 + a.val; omega))

theorem values_at (h0 : AllReal x0) (h2 : AllReal x2) (h3 : AllReal x3) (b : Fin 4) (s : Fin 2048) (a : Fin 1024) :
    val_main_v6 (F := Ideal) x0 x2 x3 (ix3 b s a) = ((projR (rl x0) (rl x2) (rl x3) 2 b s a : ℝ) : EReal) := by
  rw [val_main_v6_apply, ← fused_col x0 x2 x3 h0 h2 h3 2 b s a]
  exact congrArg _ (ext3 rfl rfl (by show 2048 + a.val = 2 * 1024 + a.val; omega))

/-! ## The scores -/

/-- The scale: the reciprocal square root of the constant 1024.0 is 1/32. -/
theorem scale_at (i : S4x2048x2048.Idx) : val_main_v9 (F := Ideal) i = ((1 / 32 : ℝ) : EReal) := by
  rw [val_main_v9_apply, val_main_v7_apply, val_main_cst_apply, Ideal.hostUnary_rsqrt_def, Ideal.ofBits_def, ofBits_1024,
    rsqrt_1024]

theorem scores_at (h0 : AllReal x0) (h1 : AllReal x1) (h2 : AllReal x2) (h3 : AllReal x3) (b : Fin 4) (i j : Fin 2048) :
    val_main_v11 (F := Ideal) x0 x1 x2 x3 (ix3 b i j)
      = ((scoreR (rl x0) (rl x1) (rl x2) (rl x3) b i j : ℝ) : EReal) := by
  rw [val_main_v11_apply, val_main_v10_apply, val_main_v8_apply, scale_at, Ideal.addf_def, Ideal.mulf_def]
  unfold scoreR
  rw [EReal.coe_add, EReal.coe_mul, coe_sum, coe_rl h1]
  refine congrArg₂ (· + ·) (congrArg₂ (· * ·) (Finset.sum_congr rfl fun k _ => ?_) rfl) rfl
  rw [EReal.coe_mul, ← queries_at x0 x2 x3 h0 h2 h3 b i k, ← keys_at x0 x2 x3 h0 h2 h3 b j k]
  exact congrArg₂ (· * ·) (congrArg _ (ext3 rfl rfl rfl)) (congrArg _ (ext3 rfl rfl rfl))

/-! ## The row maximum -/

/-- The max-reduce over the last axis, at row (b, i): a fold of max from the initial value over the row's 2048 scores. -/
theorem rowmax_fold (b : Fin 4) (i : Fin 2048) :
    val_main_v12 (F := Ideal) x0 x1 x2 x3 (ix2 b i)
      = (Finset.univ : Finset (Fin 2048)).fold max (Ideal.ofBits .f32 0xFF800000#32)
          (fun k => val_main_v11 (F := Ideal) x0 x1 x2 x3 (ix3 b i k)) := by
  have h : S4x2048x2048.Reduces [2] S4x2048 := by decide
  unfold val_main_v12
  rw [Host.reduce_eq_fold_single FloatOps.maximumf _ _ reducesTo_S4x2048x2048_S4x2048_d2 h h_S_]
  have e : (val_main_v11 (F := Ideal) x0 x1 x2 x3 ∘ h.lift (ix2 b i))
      = fun k : Fin 2048 => val_main_v11 (F := Ideal) x0 x1 x2 x3 (ix3 b i k) :=
    funext fun k => show val_main_v11 (F := Ideal) x0 x1 x2 x3 (h.lift (ix2 b i) k) = _ from
      congrArg (val_main_v11 (F := Ideal) x0 x1 x2 x3) (ext3 rfl rfl rfl)
  rw [e]
  rfl

/-- With real entries the maximum, taken once more against −∞, is a real. -/
theorem exists_rowmax (h0 : AllReal x0) (h1 : AllReal x1) (h2 : AllReal x2) (h3 : AllReal x3) (b : Fin 4) (i : Fin 2048) :
    ∃ M : ℝ, val_main_v14 (F := Ideal) x0 x1 x2 x3 (ix2 b i) = (M : EReal) := by
  obtain ⟨M, hM⟩ := exists_real_fold_max (Finset.univ : Finset (Fin 2048)) Finset.univ_nonempty
    (fun k => scoreR (rl x0) (rl x1) (rl x2) (rl x3) b i k)
  refine ⟨M, ?_⟩
  rw [val_main_v14_apply, val_main_v13_apply, val_main_cst_1_apply, rowmax_fold, Ideal.ofBits_def, ofBits_neg_inf,
    Ideal.maximumf_def]
  simp only [scores_at x0 x1 x2 x3 h0 h1 h2 h3]
  rw [hM, max_bot_left]

/-- The real the row maximum is. -/
def rowShift (b : Fin 4) (i : Fin 2048) : ℝ := (val_main_v14 (F := Ideal) x0 x1 x2 x3 (ix2 b i)).toReal

theorem rowmax_at (h0 : AllReal x0) (h1 : AllReal x1) (h2 : AllReal x2) (h3 : AllReal x3) (b : Fin 4) (i : Fin 2048) :
    val_main_v14 (F := Ideal) x0 x1 x2 x3 (ix2 b i) = ((rowShift x0 x1 x2 x3 b i : ℝ) : EReal) := by
  obtain ⟨M, hM⟩ := exists_rowmax x0 x1 x2 x3 h0 h1 h2 h3 b i
  unfold rowShift
  rw [hM, EReal.toReal_coe]

/-! ## The softmax weights -/

/-- The shifted, exponentiated score. -/
theorem expd_at (h0 : AllReal x0) (h1 : AllReal x1) (h2 : AllReal x2) (h3 : AllReal x3) (b : Fin 4) (i j : Fin 2048) :
    val_main_v18 (F := Ideal) x0 x1 x2 x3 (ix3 b i j)
      = ((Real.exp (scoreR (rl x0) (rl x1) (rl x2) (rl x3) b i j - rowShift x0 x1 x2 x3 b i) : ℝ) : EReal) := by
  rw [val_main_v18_apply, val_main_v17_apply, val_main_v16_apply, val_main_v15_apply, Ideal.hostUnary_exp_def, Ideal.subf_def,
    scores_at x0 x1 x2 x3 h0 h1 h2 h3]
  rw [show idx_main_v15 (idx_main_v16 (ix3 b i j)) = ix2 b i from ext2 rfl rfl, rowmax_at x0 x1 x2 x3 h0 h1 h2 h3,
    ← EReal.coe_sub, Ideal.exp_coe]

/-- The row sum of the exponentials. -/
theorem rowsum_at (h0 : AllReal x0) (h1 : AllReal x1) (h2 : AllReal x2) (h3 : AllReal x3) (b : Fin 4) (i : Fin 2048) :
    val_main_v19 (F := Ideal) x0 x1 x2 x3 (ix2 b i)
      = ((∑ k : Fin 2048, Real.exp (scoreR (rl x0) (rl x1) (rl x2) (rl x3) b i k - rowShift x0 x1 x2 x3 b i) : ℝ) : EReal) := by
  rw [val_main_v19_apply, val_main_cst_2_apply, Ideal.ofBits_def, Ideal.ofBits_zero_f32, zero_add, coe_sum]
  refine Finset.sum_congr rfl fun k _ => ?_
  rw [← expd_at x0 x1 x2 x3 h0 h1 h2 h3 b i k]
  exact congrArg _ (ext3 rfl rfl rfl)

/-- The normalised weight: the divisor is a positive real, so the quotient is the real quotient. -/
theorem weight_at (h0 : AllReal x0) (h1 : AllReal x1) (h2 : AllReal x2) (h3 : AllReal x3) (b : Fin 4) (i j : Fin 2048) :
    val_main_v22 (F := Ideal) x0 x1 x2 x3 (ix3 b i j)
      = ((Real.exp (scoreR (rl x0) (rl x1) (rl x2) (rl x3) b i j - rowShift x0 x1 x2 x3 b i)
          / (∑ k : Fin 2048, Real.exp (scoreR (rl x0) (rl x1) (rl x2) (rl x3) b i k - rowShift x0 x1 x2 x3 b i)) : ℝ) : EReal) := by
  have hL : (∑ k : Fin 2048, Real.exp (scoreR (rl x0) (rl x1) (rl x2) (rl x3) b i k - rowShift x0 x1 x2 x3 b i)) ≠ 0 :=
    (Finset.sum_pos (fun k _ => Real.exp_pos _) Finset.univ_nonempty).ne'
  rw [val_main_v22_apply, val_main_v21_apply, val_main_v20_apply, Ideal.hostDivf_def, expd_at x0 x1 x2 x3 h0 h1 h2 h3]
  rw [show idx_main_v20 (idx_main_v21 (ix3 b i j)) = ix2 b i from ext2 rfl rfl, rowsum_at x0 x1 x2 x3 h0 h1 h2 h3,
    Ideal.div_coe hL, ← EReal.coe_mul, mul_one_div]

/-! ## The context and the output projection -/

/-- The weighted mean of the value rows: the common shift cancels in the quotient. -/
theorem context_at (h0 : AllReal x0) (h1 : AllReal x1) (h2 : AllReal x2) (h3 : AllReal x3) (b : Fin 4) (i : Fin 2048)
    (a : Fin 1024) :
    val_main_v23 (F := Ideal) x0 x1 x2 x3 (ix3 b i a) = ((ctxR (rl x0) (rl x1) (rl x2) (rl x3) b i a : ℝ) : EReal) := by
  rw [val_main_v23_apply]
  unfold ctxR
  rw [← softmax_shift_normalised (fun j => scoreR (rl x0) (rl x1) (rl x2) (rl x3) b i j)
    (fun j => projR (rl x0) (rl x2) (rl x3) 2 b j a) (rowShift x0 x1 x2 x3 b i), coe_sum]
  refine Finset.sum_congr rfl fun k _ => ?_
  rw [EReal.coe_mul, ← weight_at x0 x1 x2 x3 h0 h1 h2 h3 b i k, ← values_at x0 x2 x3 h0 h2 h3 b k a]
  exact congrArg₂ (· * ·) (congrArg _ (ext3 rfl rfl rfl)) (congrArg _ (ext3 rfl rfl rfl))

theorem out_at (h0 : AllReal x0) (h1 : AllReal x1) (h2 : AllReal x2) (h3 : AllReal x3) (h4 : AllReal x4) (h5 : AllReal x5)
    (b : Fin 4) (i : Fin 2048) (p : Fin 1024) :
    val_main_v27 (F := Ideal) x0 x1 x2 x3 x4 x5 (ix3 b i p)
      = ((outR (rl x0) (rl x1) (rl x2) (rl x3) (rl x4) (rl x5) b i p : ℝ) : EReal) := by
  rw [val_main_v27_apply, val_main_v24_apply, val_main_v26_apply, val_main_v25_apply, Ideal.addf_def]
  unfold outR
  rw [EReal.coe_add, coe_sum, coe_rl h5]
  refine congrArg₂ (· + ·) (Finset.sum_congr rfl fun k _ => ?_) (congrArg x5 (ext1 rfl))
  rw [EReal.coe_mul, coe_rl h4, ← context_at x0 x1 x2 x3 h0 h1 h2 h3 b i k]
  exact congrArg₂ (· * ·) (congrArg _ (ext3 rfl rfl rfl)) (congrArg x4 (ext2 rfl rfl))

/-! ## The result array is the specification -/

theorem result_eq_G (h0 : AllReal x0) (h1 : AllReal x1) (h2 : AllReal x2) (h3 : AllReal x3) (h4 : AllReal x4) (h5 : AllReal x5) :
    val_main_v27 (F := Ideal) x0 x1 x2 x3 x4 x5 = G x0 x1 x2 x3 x4 x5 := by
  funext idx
  obtain ⟨b, i, p, rfl⟩ : ∃ (b : Fin 4) (i : Fin 2048) (p : Fin 1024), idx = ix3 b i p := ⟨idx 0, idx 1, idx 2, eq_ix3 idx⟩
  exact out_at x0 x1 x2 x3 x4 x5 h0 h1 h2 h3 h4 h5 b i p

/-! ## The run -/

/-- Every weakly fair execution of the reference terminates with its result array at the specification of its argument
    arrays, when their entries are real, and with the arguments unchanged. -/
theorem run_G (m' : (ℓ : Loc Cert.ReferenceIdeal.nD Cert.ReferenceIdeal.τ Cert.ReferenceIdeal.sig) → Buf (Elt Ideal) ℓ)
    (ρ' : Dev Cert.ReferenceIdeal.nD → PrngReg)
    (hreal : ∀ c : Dev Cert.ReferenceIdeal.nD,
      Cert.Spec.AllReal (m' ((c.tc : Thread Cert.ReferenceIdeal.nD Cert.ReferenceIdeal.τ).loc Cert.ReferenceIdeal.main_arg0))
      ∧ Cert.Spec.AllReal (m' ((c.tc : Thread Cert.ReferenceIdeal.nD Cert.ReferenceIdeal.τ).loc Cert.ReferenceIdeal.main_arg1))
      ∧ Cert.Spec.AllReal (m' ((c.tc : Thread Cert.ReferenceIdeal.nD Cert.ReferenceIdeal.τ).loc Cert.ReferenceIdeal.main_arg2))
      ∧ Cert.Spec.AllReal (m' ((c.tc : Thread Cert.ReferenceIdeal.nD Cert.ReferenceIdeal.τ).loc Cert.ReferenceIdeal.main_arg3))
      ∧ Cert.Spec.AllReal (m' ((c.tc : Thread Cert.ReferenceIdeal.nD Cert.ReferenceIdeal.τ).loc Cert.ReferenceIdeal.main_arg4))
      ∧ Cert.Spec.AllReal (m' ((c.tc : Thread Cert.ReferenceIdeal.nD Cert.ReferenceIdeal.τ).loc Cert.ReferenceIdeal.main_arg5))) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
      r.2.mem ((c.tc : Thread Cert.ReferenceIdeal.nD Cert.ReferenceIdeal.τ).loc Cert.ReferenceIdeal.main_v27)
        = Cert.Spec.G (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
          = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2)
          = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3)
          = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4)
          = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5)
          = m' ((c.tc : Thread Cert.ReferenceIdeal.nD Cert.ReferenceIdeal.τ).loc Cert.ReferenceIdeal.main_arg5)) :=
  (θ_run (Cert.ReferenceIdeal.defs (F := Ideal)) _ _).mono
    (fun _ h c => ⟨(h c).1.trans ((Cert.ReferenceIdeal.Read.val_main_v27_eq (F := Ideal) m' c).trans
        (result_eq_G _ _ _ _ _ _ (hreal c).1 (hreal c).2.1 (hreal c).2.2.1 (hreal c).2.2.2.1 (hreal c).2.2.2.2.1
          (hreal c).2.2.2.2.2)), (h c).2⟩)
    (Cert.ReferenceIdeal.Value.run (F := Ideal) m' ρ')

end Cert.RefSide

end
-- ==== Proof.LibFinite.lean ====
/-
  "Every entry's absolute value is below `+∞`" means every entry is a real number.

  A general reading of the finiteness test `all (|x| < +∞)` over an array of extended reals: the and-reduction of the
  entrywise comparison is the all-ones word exactly when each entry is neither `+∞` nor `-∞`.
-/
import Idealize.ShloMosaic.PureOps.Ideal
import Idealize.ShloMosaic.PureOps.Ideal.Laws
import Idealize.ShloMosaic.Lib.ReduceAll

noncomputable section

namespace FiniteTest

open Idealize.ShloMosaic

/-- The single-precision pattern `0x7F800000` denotes `+∞`. -/
theorem inf_bits : Ideal.ofBits .f32 0x7F800000#32 = (⊤ : EReal) := by
  simp [Ideal.ofBits, Ideal.ieee]

/-- On the extended reals `max a (-a) < ⊤` holds exactly of the real numbers: at `⊤` the maximum is `⊤`, at `⊥` it is
    `-⊥ = ⊤`, and at a real `r` it is the real `|r|`. Only the direction used below is stated. -/
theorem real_of_max_neg_lt_top (a : EReal) (h : max a (-a) < ⊤) : ∃ r : ℝ, a = (r : EReal) := by
  induction a using EReal.rec with
  | bot => simp at h
  | coe r => exact ⟨r, rfl⟩
  | top => simp at h

/-- One entry of the test: if the ordered comparison `|a| < +∞` answers the word `1`, then `a` is a real number.
    Here `|a|` is `max a (-a)` and `+∞` is the value of the pattern `0x7F800000`. -/
theorem real_of_cmp_abs_lt_inf (a : EReal)
    (h : Ideal.cmp .olt (max a (-a)) (Ideal.ofBits .f32 0x7F800000#32) = 1#1) : ∃ r : ℝ, a = (r : EReal) := by
  rw [inf_bits] at h
  refine real_of_max_neg_lt_top a ?_
  by_contra hn
  simp [Ideal.cmp, hn] at h

/-- The scalar shape has one index. -/
theorem subsingleton_scalarIdx : Subsingleton (⟨0, ![]⟩ : Shape).Idx :=
  ⟨fun _ _ => funext fun d => d.elim0⟩

/-- The finiteness test read back, at one result index `j` of the scalar shape. For an array `x` of any shape `s`: if
    the and-reduction over all axes of the entrywise comparison `|x| < +∞` (the bound being the scalar constant
    `0x7F800000` broadcast to `s`), started from the word `1`, is `1`, then every entry of `x` is a real number. The shape
    witnesses `hb`, `hr`, `hu` are arbitrary. -/
theorem real_of_all_abs_lt_inf_at {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel)
    (x : FVec Ideal s .f32) (j : (⟨0, ![]⟩ : Shape).Idx)
    (h : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu j = 1#1) :
    ∀ i, ∃ r : ℝ, x i = (r : EReal) := by
  intro i
  haveI : Subsingleton (⟨0, ![]⟩ : Shape).Idx := subsingleton_scalarIdx
  have e := Host.reduce_andi_all _ _ hr hu j h i
  exact real_of_cmp_abs_lt_inf (x i) e

/-- The same, from the whole result being the all-ones word. -/
theorem real_of_all_abs_lt_inf {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel)
    (x : FVec Ideal s .f32)
    (h : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu = fun _ => 1#1) :
    ∀ i, ∃ r : ℝ, x i = (r : EReal) :=
  real_of_all_abs_lt_inf_at hb hr hu x (fun d => d.elim0) (congrFun h _)

end FiniteTest

end
-- ==== Proof.Finite.lean ====
/-
  The precondition read back: when the finiteness test of the six argument arrays answers the all-ones word, every
  entry of every argument is a real number. The test is the conjunction of six `all (|x| < +∞)`, each the
  and-reduction of an entrywise comparison.
-/
import proofs.«419060_j65541200937045_3_alg».proof.Pre_finite_inputs
import proofs.«419060_j65541200937045_3_alg».proof.Proof.LibFinite
import proofs.«419060_j65541200937045_3_alg».proof.Proof.Spec
import Idealize.ShloMosaic.Lib.Affine
import Idealize.ShloMosaic.Lib.ValueIdx

noncomputable section

namespace Cert.Finite

open Idealize.ShloMosaic Cert.Pre_finite_inputs Cert.Spec

variable [hP : Cert.Pre_finite_inputs.Facts]

theorem allReal_of_pre (a0 : FVec Ideal S4x2048x1024 .f32) (a1 : FVec Ideal S4x2048x2048 .f32) (a2 : FVec Ideal S1024x3072 .f32)
    (a3 : FVec Ideal S3072 .f32) (a4 : FVec Ideal S1024x1024 .f32) (a5 : FVec Ideal S1024 .f32)
    (h : fn (F := Ideal) a0 a1 a2 a3 a4 a5 = fun _ => 1#1) :
    AllReal a0 ∧ AllReal a1 ∧ AllReal a2 ∧ AllReal a3 ∧ AllReal a4 ∧ AllReal a5 := by
  have h0 := congrFun h ValueIdx.ix0
  dsimp only [fn, fn_part1] at h0
  have s : ∀ {A B : IVec S_ 1}, andi A B ValueIdx.ix0 = 1#1 → A ValueIdx.ix0 = 1#1 ∧ B ValueIdx.ix0 = 1#1 :=
    fun {A B} e => IntOp.andi_eq_one.mp (show IntOp.andi (A ValueIdx.ix0) (B ValueIdx.ix0) = 1#1 from e)
  obtain ⟨h01234, e5⟩ := s h0
  obtain ⟨h0123, e4⟩ := s h01234
  obtain ⟨h012, e3⟩ := s h0123
  obtain ⟨h01, e2⟩ := s h012
  obtain ⟨e0, e1⟩ := s h01
  exact ⟨FiniteTest.real_of_all_abs_lt_inf_at _ _ _ a0 _ e0, FiniteTest.real_of_all_abs_lt_inf_at _ _ _ a1 _ e1,
    FiniteTest.real_of_all_abs_lt_inf_at _ _ _ a2 _ e2, FiniteTest.real_of_all_abs_lt_inf_at _ _ _ a3 _ e3,
    FiniteTest.real_of_all_abs_lt_inf_at _ _ _ a4 _ e4, FiniteTest.real_of_all_abs_lt_inf_at _ _ _ a5 _ e5⟩

end Cert.Finite

end
-- ==== Proof.lean ====
/-
  The five claims. The two kernel programs' frames come from running each as four segments (host lines, the
  projection kernel, host lines, the attention kernel); the reference's frame is its run with the result dropped; the
  idealization rewrote no operation, so `preserves` asks nothing. For `algebraic`: under the precondition every
  argument entry is a real number; then the idealized kernel's result array — the attention kernel's output after
  its grid points, the running maximum, sum and weighted sum carried block by block — and the reference's result are
  both the one specification `Cert.Spec.G` of the arguments: softmax(q·kᵀ/32 + bias)·v projected by pw plus pb,
  with q, k, v the three projections of x.
-/
import proofs.«419060_j65541200937045_3_alg».proof.Defs
import proofs.«419060_j65541200937045_3_alg».proof.Proof.Gen.Kernel
import proofs.«419060_j65541200937045_3_alg».proof.Proof.Gen.KernelIdeal
import proofs.«419060_j65541200937045_3_alg».proof.Proof.Gen.ReferenceIdeal
import proofs.«419060_j65541200937045_3_alg».proof.Proof.Gen.Pre_finite_inputs
import proofs.«419060_j65541200937045_3_alg».proof.Proof.K.Named
import proofs.«419060_j65541200937045_3_alg».proof.Proof.KI.Named
import proofs.«419060_j65541200937045_3_alg».proof.Proof.KI.Bridge
import proofs.«419060_j65541200937045_3_alg».proof.Proof.Ref
import proofs.«419060_j65541200937045_3_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition both idealized programs end with the specification of the arguments. -/
theorem algebraic : Cert.algebraic_KernelIdeal_ReferenceIdeal := by
  intro m ρ m' ρ' hpre hagree
  have hreal := fun c => Cert.Finite.allReal_of_pre _ _ _ _ _ _ (hpre c)
  refine ⟨_, (θ_run Cert.KernelIdeal.defs _ _).mono
      (fun _ h c => ⟨(h c).1.trans (Cert.KernelIdeal.Hand.result_eq_G m ρ c (hreal c)), (h c).2⟩)
      (Cert.KernelIdeal.Hand.run_named m ρ), ?_⟩
  have hreal' : ∀ c : Dev Cert.ReferenceIdeal.nD, _ := fun c => by
    have := hreal c
    rw [← (hagree c).1, ← (hagree c).2.1, ← (hagree c).2.2.1, ← (hagree c).2.2.2.1, ← (hagree c).2.2.2.2.1,
      ← (hagree c).2.2.2.2.2] at this
    exact this
  refine (θ_run Cert.ReferenceIdeal.defs _ _).mono (fun _ h c => ⟨(h c).1.trans ?_, (h c).2⟩)
    (Cert.RefSide.run_G m' ρ' hreal')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
